-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S256x2048 : Shape := ⟨2, ![256, 2048]⟩
abbrev S256 : Shape := ⟨1, ![256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg2 : IVec S16384 32) (main_v30 : IVec S_ 1) (main_v32 : IVec S16384 1) (main_c_12 : IVec S_ 32) : IVec S_ 1 :=
  let main_v33 : IVec S16384 32 := broadcastInDim S16384 ![] bcast_S_S16384 main_c_12
  let main_v34 : IVec S16384 1 := cmpi .slt main_arg2 main_v33
  let main_v35 : IVec S16384 1 := andi main_v32 main_v34
  let main_c_13 : IVec S_ 1 := constantI S_ 1 1#1
  let main_v36 : IVec S_ 1 := (fun x v => Host.reduce IntOp.andi x v reducesTo_S16384_S_d0 h_S_) main_v35 main_c_13
  let main_v37 : IVec S_ 1 := andi main_v30 main_v36
  main_v37

def fn_part1 {F : FTy → Type} [FloatOps F] (main_arg1 : IVec S16384 32) (main_arg2 : IVec S16384 32) (main_arg6 : FVec F S256 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg1 main_v24
  let main_c_9 : IVec S_ 32 := constantI S_ 32 100#32
  let main_v26 : IVec S16384 32 := broadcastInDim S16384 ![] bcast_S_S16384 main_c_9
  let main_v27 : IVec S16384 1 := cmpi .slt main_arg1 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  let main_c_11 : IVec S_ 32 := constantI S_ 32 0#32
  let main_v31 : IVec S16384 32 := broadcastInDim S16384 ![] bcast_S_S16384 main_c_11
  let main_v32 : IVec S16384 1 := cmpi .sge main_arg2 main_v31
  let main_c_12 : IVec S_ 32 := constantI S_ 32 32#32
  fn_part2 (F := F) main_arg2 main_v30 main_v32 main_c_12

def fn {F : FTy → Type} [FloatOps F] (main_arg0 : FVec F S16384x2048 .f32) (main_arg1 : IVec S16384 32) (main_arg2 : IVec S16384 32) (main_arg3 : FVec F S256x2048 .f32) (main_arg4 : FVec F S256 .f32) (main_arg5 : FVec F S256x2048 .f32) (main_arg6 : FVec F S256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S256x2048 .f32 := Host.absf main_arg3
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2048 .f32 := Host.absf main_arg5
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg1 main_arg2 main_arg6 main_v13 main_v16
-- ==== Kernel.lean ====
abbrev S16384x2048 : Shape := ⟨2, ![16384, 2048]⟩
abbrev S16384 : Shape := ⟨1, ![16384]⟩
abbrev S256x2048 : Shape := ⟨2, ![256, 2048]⟩
abbrev S256 : Shape := ⟨1, ![256]⟩
abbrev S_ : Shape := ⟨0, ![]⟩
abbrev S16384x1 : Shape := ⟨2, ![16384, 1]⟩
abbrev S3200 : Shape := ⟨1, ![3200]⟩
abbrev S32 : Shape := ⟨1, ![32]⟩
abbrev S1 : Shape := ⟨1, ![1]⟩
abbrev S1x1 : Shape := ⟨2, ![1, 1]⟩
abbrev S1x256 : Shape := ⟨2, ![1, 256]⟩
abbrev S16384x256 : Shape := ⟨2, ![16384, 256]⟩
abbrev S2x3200x256 : Shape := ⟨3, ![2, 3200, 256]⟩
abbrev S512x2048 : Shape := ⟨2, ![512, 2048]⟩
abbrev S512x1 : Shape := ⟨2, ![512, 1]⟩
abbrev S512x256 : Shape := ⟨2, ![512, 256]⟩
abbrev S1x3200x256 : Shape := ⟨3, ![1, 3200, 256]⟩
abbrev S512x3200 : Shape := ⟨2, ![512, 3200]⟩
abbrev S3200x256 : Shape := ⟨2, ![3200, 256]⟩
abbrev S32x100x256 : Shape := ⟨3, ![32, 100, 256]⟩
abbrev S32x256 : Shape := ⟨2, ![32, 256]⟩

abbrev nBuf : Space → Nat
  | .hbm => 101
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384, .i32⟩
  | .hbm, ⟨3, _⟩ => ⟨S256x2048, .f32⟩
  | .hbm, ⟨4, _⟩ => ⟨S256, .f32⟩
  | .hbm, ⟨5, _⟩ => ⟨S256x2048, .f32⟩
  | .hbm, ⟨6, _⟩ => ⟨S256, .f32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S_, .i32⟩
  | .hbm, ⟨13, _⟩ => ⟨S16384, .i32⟩
  | .hbm, ⟨14, _⟩ => ⟨S_, .i32⟩
  | .hbm, ⟨15, _⟩ => ⟨S3200, .i32⟩
  | .hbm, ⟨16, _⟩ => ⟨S16384x1, .i32⟩
  | .hbm, ⟨17, _⟩ => ⟨S3200, .i32⟩
  | .hbm, ⟨18, _⟩ => ⟨S_, .i32⟩
  | .hbm, ⟨19, _⟩ => ⟨S32, .i32⟩
  | .hbm, ⟨20, _⟩ => ⟨S16384x1, .i32⟩
  | .hbm, ⟨21, _⟩ => ⟨S32, .i32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S1, .i32⟩
  | .hbm, ⟨31, _⟩ => ⟨S_, .i32⟩
  | .hbm, ⟨32, _⟩ => ⟨S16384x1, .i32⟩
  | .hbm, ⟨33, _⟩ => ⟨S16384x1, .i1⟩
  | .hbm, ⟨34, _⟩ => ⟨S1x1, .i32⟩
  | .hbm, ⟨35, _⟩ => ⟨S16384x1, .i32⟩
  | .hbm, ⟨36, _⟩ => ⟨S16384x1, .i1⟩
  | .hbm, ⟨37, _⟩ => ⟨S16384x1, .i1⟩
  | .hbm, ⟨38, _⟩ => ⟨S_, .i1⟩
  | .hbm, ⟨39, _⟩ => ⟨S16384, .i1⟩
  | .hbm, ⟨40, _⟩ => ⟨S16384, .i32⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S1, .i32⟩
  | .hbm, ⟨53, _⟩ => ⟨S_, .i32⟩
  | .hbm, ⟨54, _⟩ => ⟨S16384x1, .i32⟩
  | .hbm, ⟨55, _⟩ => ⟨S16384x1, .i1⟩
  | .hbm, ⟨56, _⟩ => ⟨S1x1, .i32⟩
  | .hbm, ⟨57, _⟩ => ⟨S16384x1, .i32⟩
  | .hbm, ⟨58, _⟩ => ⟨S16384x1, .i1⟩
  | .hbm, ⟨59, _⟩ => ⟨S16384x1, .i1⟩
  | .hbm, ⟨60, _⟩ => ⟨S_, .i1⟩
  | .hbm, ⟨61, _⟩ => ⟨S16384, .i1⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .f32⟩
  | .hbm, ⟨71, _⟩ => ⟨S_, .i32⟩
  | .hbm, ⟨72, _⟩ => ⟨S16384, .i32⟩
  | .hbm, ⟨73, _⟩ => ⟨S16384, .i1⟩
  | .hbm, ⟨74, _⟩ => ⟨S_, .f32⟩
  | .hbm, ⟨75, _⟩ => ⟨S16384, .f32⟩
  | .hbm, ⟨76, _⟩ => ⟨S16384, .f32⟩
  | .hbm, ⟨77, _⟩ => ⟨S_, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S16384x1, .f32⟩
  | .hbm, ⟨82, _⟩ => ⟨S256x2048, .bf16⟩
  | .hbm, ⟨83, _⟩ => ⟨S256x2048, .bf16⟩
  | .hbm, ⟨84, _⟩ => ⟨S1x256, .f32⟩
  | .hbm, ⟨85, _⟩ => ⟨S1x256, .f32⟩
  | .hbm, ⟨86, _⟩ => ⟨S16384x256, .f32⟩
  | .hbm, ⟨87, _⟩ => ⟨S2x3200x256, .f32⟩
  | .hbm, ⟨88, _⟩ => ⟨S1x3200x256, .f32⟩
  | .hbm, ⟨89, _⟩ => ⟨S3200x256, .f32⟩
  | .hbm, ⟨90, _⟩ => ⟨S1x3200x256, .f32⟩
  | .hbm, ⟨91, _⟩ => ⟨S3200x256, .f32⟩
  | .hbm, ⟨92, _⟩ => ⟨S3200x256, .f32⟩
  | .hbm, ⟨93, _⟩ => ⟨S32x100x256, .f32⟩
  | .hbm, ⟨94, _⟩ => ⟨S_, .f32⟩
  | .hbm, ⟨95, _⟩ => ⟨S32x256, .f32⟩
  | .hbm, ⟨96, _⟩ => ⟨S32x100x256, .f32⟩
  | .hbm, ⟨97, _⟩ => ⟨S3200x256, .f32⟩
  | .hbm, ⟨98, _⟩ => ⟨S3200x256, .f32⟩
  | .hbm, ⟨99, _⟩ => ⟨S3200x256, .bf16⟩
  | .hbm, ⟨100, _⟩ => ⟨S16384x256, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S256x2048, .bf16⟩
  | .local _ .vmem, ⟨5, _⟩ => ⟨S256x2048, .bf16⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S1x3200x256, .f32⟩
  | .local _ .vmem, ⟨10, _⟩ => ⟨S512x256, .f32⟩
  | .local _ .vmem, ⟨11, _⟩ => ⟨S512x256, .f32⟩
  | .local _ .vmem, ⟨12, _⟩ => ⟨S512x1, .i32⟩
  | .local _ .vmem, ⟨13, _⟩ => ⟨S512x1, .i32⟩
  | .local _ .vmem, ⟨14, _⟩ => ⟨S512x1, .f32⟩
  | .local _ .vmem, ⟨15, _⟩ => ⟨S512x1, .f32⟩
  | .local _ .vmem, ⟨16, _⟩ => ⟨S3200x256, .bf16⟩
  | .local _ .vmem, ⟨17, _⟩ => ⟨S1x256, .f32⟩
  | .local _ .vmem, ⟨18, _⟩ => ⟨S512x256, .f32⟩
  | .local _ .vmem, ⟨19, _⟩ => ⟨S512x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_c_4 : Ref sig .tc := ⟨.hbm, 41, rfl⟩
abbrev main_call0_v14 : Ref sig .tc := ⟨.hbm, 42, rfl⟩
abbrev main_v11 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_c_4 : Ref sig .tc := ⟨.hbm, 63, rfl⟩
abbrev main_call1_v14 : Ref sig .tc := ⟨.hbm, 64, rfl⟩
abbrev main_v12 : Ref sig .tc := ⟨.hbm, 65, rfl⟩
abbrev main_v13 : Ref sig .tc := ⟨.hbm, 66, rfl⟩
abbrev main_c_3 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_c_4 : Ref sig .tc := ⟨.hbm, 71, rfl⟩
abbrev main_v17 : Ref sig .tc := ⟨.hbm, 72, rfl⟩
abbrev main_v18 : Ref sig .tc := ⟨.hbm, 73, rfl⟩
abbrev main_cst : Ref sig .tc := ⟨.hbm, 74, rfl⟩
abbrev main_v19 : Ref sig .tc := ⟨.hbm, 75, rfl⟩
abbrev main_v20 : Ref sig .tc := ⟨.hbm, 76, rfl⟩
abbrev main_cst_5 : Ref sig .tc := ⟨.hbm, 77, rfl⟩
abbrev main_call2_v0 : Ref sig .tc := ⟨.hbm, 78, rfl⟩
abbrev main_call2_v1 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27_0 : Ref sig .tc := ⟨.hbm, 86, rfl⟩
abbrev main_v27_1 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_cst_6 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x3200x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3200x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S16384 : S_.BroadcastsInDim S16384 (![] : Fin 0 → Fin S16384.rank)
  shapeCasts_S16384_S16384x1 : S16384.ShapeCasts S16384x1
  bcast_S_S3200 : S_.BroadcastsInDim S3200 (![] : Fin 0 → Fin S3200.rank)
  bcast_S16384_S16384x1_0 : S16384.BroadcastsInDim S16384x1 (![0] : Fin 1 → Fin S16384x1.rank)
  bcast_S_S32 : S_.BroadcastsInDim S32 (![] : Fin 0 → Fin S32.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bitsLt_bf16_f32 : FTy.bits .bf16 < FTy.bits .f32
  shapeCasts_S256_S1x256 : S256.ShapeCasts S1x256
  inb_S1x3200x256_S1x3200x256_0_0_0 : ∀ a, (![0, 0, 0] : Fin 3 → Nat) a + S1x3200x256.size a ≤ S1x3200x256.size a
  h_S1x3200x256 : 0 < S1x3200x256.numel
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  iota_S512x3200_d1_w32 : S512x3200.Iotas .tc 32 [1]
  broadcasts_S512x1_S512x3200 : S512x1.Broadcasts S512x3200
  natLt_1_32 : 1 < 32
  shapeCasts_S1x3200x256_S3200x256 : S1x3200x256.ShapeCasts S3200x256
  shapeCasts_S3200x256_S1x3200x256 : S3200x256.ShapeCasts S1x3200x256
  slices_S2x3200x256_S1x3200x256_0_0_0 : S2x3200x256.Slices ![0, 0, 0] S1x3200x256
  slices_S2x3200x256_S1x3200x256_1_0_0 : S2x3200x256.Slices ![1, 0, 0] S1x3200x256
  shapeCasts_S3200x256_S32x100x256 : S3200x256.ShapeCasts S32x100x256
  reducesTo_S32x100x256_S32x256_d1 : S32x100x256.ReducesTo [1] S32x256
  bcast_S32x256_S32x100x256_0_2 : S32x256.BroadcastsInDim S32x100x256 (![0, 2] : Fin 2 → Fin S32x100x256.rank)
  shapeCasts_S32x100x256_S3200x256 : S32x100x256.ShapeCasts S3200x256
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  broadcasts_S512x1_S512x256 : S512x1.Broadcasts S512x256
  shapeCasts_S512x256_S512x256 : S512x256.ShapeCasts S512x256
  scatter_S3200_S16384x1_S16384_n_0_0_1_wf : ScatterDims.WF S3200 S16384x1 S16384 [] [0] [0] 1
  scatter_S32_S16384x1_S16384_n_0_0_1_wf : ScatterDims.WF S32 S16384x1 S16384 [] [0] [0] 1
  gather_S3200_S16384x1_S16384_n_0_n_n_0_1_1_wf : GatherDims.WF S3200 S16384x1 S16384 [] [0] [] [0] [] 1 ![1]
  gather_S32_S16384x1_S16384_n_0_n_n_0_1_1_wf : GatherDims.WF S32 S16384x1 S16384 [] [0] [] [0] [] 1 ![1]
  dot_S512x2048_S256x2048_S512x256_1_1_0_0_n_n_wf : DotDims.WF S512x2048 S256x2048 S512x256 [1] [1] [0] [0] [] []
  dot_S512x3200_S512x256_S3200x256_0_0_1_1_n_n_wf : DotDims.WF S512x3200 S512x256 S3200x256 [0] [0] [1] [1] [] []
  dot_S512x3200_S3200x256_S512x256_1_0_0_1_n_n_wf : DotDims.WF S512x3200 S3200x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S16384x256.size a
  hwx0_5 : ∀ i : grid0.Coords, EltTy.bits .f32 = 32 ∨ (Rect.block (s := S16384x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3200x256.size a ≤ S2x3200x256.size a
  hwx0_6 : ∀ i : grid0.Coords, EltTy.bits .f32 = 32 ∨ (Rect.block (s := S2x3200x256) S1x3200x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S16384x256.size a
  hwx1_0 : ∀ i : grid1.Coords, EltTy.bits .f32 = 32 ∨ (Rect.block (s := S16384x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S16384x1.size a
  hwx1_1 : ∀ i : grid1.Coords, EltTy.bits .i32 = 32 ∨ (Rect.block (s := S16384x1) S512x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S16384x1.size a
  hwx1_2 : ∀ i : grid1.Coords, EltTy.bits .f32 = 32 ∨ (Rect.block (s := S16384x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3200x256.size a ≤ S3200x256.size a
  hwx1_3 : ∀ i : grid1.Coords, EltTy.bits .bf16 = 32 ∨ (Rect.block (s := S3200x256) S3200x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S16384x256.size a
  hwx1_5 : ∀ i : grid1.Coords, EltTy.bits .f32 = 32 ∨ (Rect.block (s := S16384x256) S512x256.size (cc1_transform_5 i) (hinb1_5 i)).WholeWords (EltTy.packing .f32)

variable [Facts₀]

def scatter_S3200_S16384x1_S16384_n_0_0_1 : ScatterDims S3200 S16384x1 S16384 where
  updateWindowDims := []
  insertedWindowDims := [0]
  scatterDimsToOperandDims := [0]
  indexVectorDim := 1
  wf := scatter_S3200_S16384x1_S16384_n_0_0_1_wf
def scatter_S32_S16384x1_S16384_n_0_0_1 : ScatterDims S32 S16384x1 S16384 where
  updateWindowDims := []
  insertedWindowDims := [0]
  scatterDimsToOperandDims := [0]
  indexVectorDim := 1
  wf := scatter_S32_S16384x1_S16384_n_0_0_1_wf
def gather_S3200_S16384x1_S16384_n_0_n_n_0_1_1 : GatherDims S3200 S16384x1 S16384 where
  offsetDims := []
  collapsedSliceDims := [0]
  operandBatchingDims := []
  startIndicesBatchingDims := []
  startIndexMap := [0]
  indexVectorDim := 1
  sliceSizes := ![1]
  wf := gather_S3200_S16384x1_S16384_n_0_n_n_0_1_1_wf
def gather_S32_S16384x1_S16384_n_0_n_n_0_1_1 : GatherDims S32 S16384x1 S16384 where
  offsetDims := []
  collapsedSliceDims := [0]
  operandBatchingDims := []
  startIndicesBatchingDims := []
  startIndexMap := [0]
  indexVectorDim := 1
  sliceSizes := ![1]
  wf := gather_S32_S16384x1_S16384_n_0_n_n_0_1_1_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x3200_S512x256_S3200x256_0_0_1_1_n_n : DotDims S512x3200 S512x256 S3200x256 where
  lhsContracting := [0]
  rhsContracting := [0]
  lhsNonContracting := [1]
  rhsNonContracting := [1]
  lhsBatch := []
  rhsBatch := []
  wf := dot_S512x3200_S512x256_S3200x256_0_0_1_1_n_n_wf
def dot_S512x3200_S3200x256_S512x256_1_0_0_1_n_n : DotDims S512x3200 S3200x256 S512x256 where
  lhsContracting := [1]
  rhsContracting := [0]
  lhsNonContracting := [0]
  rhsNonContracting := [1]
  lhsBatch := []
  rhsBatch := []
  wf := dot_S512x3200_S3200x256_S512x256_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_0) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_1) S1x3200x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S3200x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S16384 : Shape := ⟨1, ![16384]⟩
abbrev S256x2048 : Shape := ⟨2, ![256, 2048]⟩
abbrev S256 : Shape := ⟨1, ![256]⟩
abbrev S_ : Shape := ⟨0, ![]⟩
abbrev S3200x2048 : Shape := ⟨2, ![3200, 2048]⟩
abbrev S16384x1 : Shape := ⟨2, ![16384, 1]⟩
abbrev S3200 : Shape := ⟨1, ![3200]⟩
abbrev S32x2048 : Shape := ⟨2, ![32, 2048]⟩
abbrev S32 : Shape := ⟨1, ![32]⟩
abbrev S2048x256 : Shape := ⟨2, ![2048, 256]⟩
abbrev S16384x256 : Shape := ⟨2, ![16384, 256]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384, .i32⟩
  | .hbm, ⟨3, _⟩ => ⟨S256x2048, .f32⟩
  | .hbm, ⟨4, _⟩ => ⟨S256, .f32⟩
  | .hbm, ⟨5, _⟩ => ⟨S256x2048, .f32⟩
  | .hbm, ⟨6, _⟩ => ⟨S256, .f32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S3200x2048, .f32⟩
  | .hbm, ⟨15, _⟩ => ⟨S16384x1, .i32⟩
  | .hbm, ⟨16, _⟩ => ⟨S3200x2048, .f32⟩
  | .hbm, ⟨17, _⟩ => ⟨S_, .f32⟩
  | .hbm, ⟨18, _⟩ => ⟨S3200, .f32⟩
  | .hbm, ⟨19, _⟩ => ⟨S16384x1, .i32⟩
  | .hbm, ⟨20, _⟩ => ⟨S3200, .f32⟩
  | .hbm, ⟨21, _⟩ => ⟨S_, .f32⟩
  | .hbm, ⟨22, _⟩ => ⟨S32x2048, .f32⟩
  | .hbm, ⟨23, _⟩ => ⟨S16384x1, .i32⟩
  | .hbm, ⟨24, _⟩ => ⟨S32x2048, .f32⟩
  | .hbm, ⟨25, _⟩ => ⟨S_, .f32⟩
  | .hbm, ⟨26, _⟩ => ⟨S32, .f32⟩
  | .hbm, ⟨27, _⟩ => ⟨S16384x1, .i32⟩
  | .hbm, ⟨28, _⟩ => ⟨S32, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x2048, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x2048, .f32⟩
  | .hbm, ⟨47, _⟩ => ⟨S16384x2048, .f32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S16384, .f32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x1, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S16384, .f32⟩
  | .hbm, ⟨75, _⟩ => ⟨S16384, .i1⟩
  | .hbm, ⟨76, _⟩ => ⟨S16384x1, .i1⟩
  | .hbm, ⟨77, _⟩ => ⟨S_, .f32⟩
  | .hbm, ⟨78, _⟩ => ⟨S16384x2048, .f32⟩
  | .hbm, ⟨79, _⟩ => ⟨S16384x2048, .i1⟩
  | .hbm, ⟨80, _⟩ => ⟨S16384x2048, .f32⟩
  | .hbm, ⟨81, _⟩ => ⟨S2048x256, .f32⟩
  | .hbm, ⟨82, _⟩ => ⟨S16384x256, .f32⟩
  | .hbm, ⟨83, _⟩ => ⟨S1x256, .f32⟩
  | .hbm, ⟨84, _⟩ => ⟨S16384x256, .f32⟩
  | .hbm, ⟨85, _⟩ => ⟨S16384x256, .f32⟩
  | .hbm, ⟨86, _⟩ => ⟨S2048x256, .f32⟩
  | .hbm, ⟨87, _⟩ => ⟨S16384x256, .f32⟩
  | .hbm, ⟨88, _⟩ => ⟨S16384x256, .f32⟩
  | .hbm, ⟨89, _⟩ => ⟨S1x256, .f32⟩
  | .hbm, ⟨90, _⟩ => ⟨S16384x256, .f32⟩
  | .hbm, ⟨91, _⟩ => ⟨S16384x256, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_call0_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S3200x2048 : S_.BroadcastsInDim S3200x2048 (![] : Fin 0 → Fin S3200x2048.rank)
  bcast_S16384_S16384x1_0 : S16384.BroadcastsInDim S16384x1 (![0] : Fin 1 → Fin S16384x1.rank)
  bcast_S_S3200 : S_.BroadcastsInDim S3200 (![] : Fin 0 → Fin S3200.rank)
  bcast_S_S32x2048 : S_.BroadcastsInDim S32x2048 (![] : Fin 0 → Fin S32x2048.rank)
  bcast_S_S32 : S_.BroadcastsInDim S32 (![] : Fin 0 → Fin S32.rank)
  bcast_S16384x1_S16384x2048_0_1 : S16384x1.BroadcastsInDim S16384x2048 (![0, 1] : Fin 2 → Fin S16384x2048.rank)
  bcast_S_S16384x2048 : S_.BroadcastsInDim S16384x2048 (![] : Fin 0 → Fin S16384x2048.rank)
  transposes_S256x2048_S2048x256_1_0 : S256x2048.Transposes [1, 0] S2048x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  scatter_S3200x2048_S16384x1_S16384x2048_1_0_0_1_wf : ScatterDims.WF S3200x2048 S16384x1 S16384x2048 [1] [0] [0] 1
  scatter_S3200_S16384x1_S16384_n_0_0_1_wf : ScatterDims.WF S3200 S16384x1 S16384 [] [0] [0] 1
  scatter_S32x2048_S16384x1_S16384x2048_1_0_0_1_wf : ScatterDims.WF S32x2048 S16384x1 S16384x2048 [1] [0] [0] 1
  scatter_S32_S16384x1_S16384_n_0_0_1_wf : ScatterDims.WF S32 S16384x1 S16384 [] [0] [0] 1
  gather_S32x2048_S16384x1_S16384x2048_1_0_n_n_0_1_12048_wf : GatherDims.WF S32x2048 S16384x1 S16384x2048 [1] [0] [] [0] [] 1 ![1, 2048]
  gather_S3200x2048_S16384x1_S16384x2048_1_0_n_n_0_1_12048_wf : GatherDims.WF S3200x2048 S16384x1 S16384x2048 [1] [0] [] [0] [] 1 ![1, 2048]
  gather_S32_S16384x1_S16384_n_0_n_n_0_1_1_wf : GatherDims.WF S32 S16384x1 S16384 [] [0] [] [0] [] 1 ![1]
  gather_S3200_S16384x1_S16384_n_0_n_n_0_1_1_wf : GatherDims.WF S3200 S16384x1 S16384 [] [0] [] [0] [] 1 ![1]
  dot_S16384x2048_S2048x256_S16384x256_1_0_0_1_n_n_wf : DotDims.WF S16384x2048 S2048x256 S16384x256 [1] [0] [0] [1] [] []

variable [Facts₀]

def scatter_S3200x2048_S16384x1_S16384x2048_1_0_0_1 : ScatterDims S3200x2048 S16384x1 S16384x2048 where
  updateWindowDims := [1]
  insertedWindowDims := [0]
  scatterDimsToOperandDims := [0]
  indexVectorDim := 1
  wf := scatter_S3200x2048_S16384x1_S16384x2048_1_0_0_1_wf
def scatter_S3200_S16384x1_S16384_n_0_0_1 : ScatterDims S3200 S16384x1 S16384 where
  updateWindowDims := []
  insertedWindowDims := [0]
  scatterDimsToOperandDims := [0]
  indexVectorDim := 1
  wf := scatter_S3200_S16384x1_S16384_n_0_0_1_wf
def scatter_S32x2048_S16384x1_S16384x2048_1_0_0_1 : ScatterDims S32x2048 S16384x1 S16384x2048 where
  updateWindowDims := [1]
  insertedWindowDims := [0]
  scatterDimsToOperandDims := [0]
  indexVectorDim := 1
  wf := scatter_S32x2048_S16384x1_S16384x2048_1_0_0_1_wf
def scatter_S32_S16384x1_S16384_n_0_0_1 : ScatterDims S32 S16384x1 S16384 where
  updateWindowDims := []
  insertedWindowDims := [0]
  scatterDimsToOperandDims := [0]
  indexVectorDim := 1
  wf := scatter_S32_S16384x1_S16384_n_0_0_1_wf
def gather_S32x2048_S16384x1_S16384x2048_1_0_n_n_0_1_12048 : GatherDims S32x2048 S16384x1 S16384x2048 where
  offsetDims := [1]
  collapsedSliceDims := [0]
  operandBatchingDims := []
  startIndicesBatchingDims := []
  startIndexMap := [0]
  indexVectorDim := 1
  sliceSizes := ![1, 2048]
  wf := gather_S32x2048_S16384x1_S16384x2048_1_0_n_n_0_1_12048_wf
def gather_S3200x2048_S16384x1_S16384x2048_1_0_n_n_0_1_12048 : GatherDims S3200x2048 S16384x1 S16384x2048 where
  offsetDims := [1]
  collapsedSliceDims := [0]
  operandBatchingDims := []
  startIndicesBatchingDims := []
  startIndexMap := [0]
  indexVectorDim := 1
  sliceSizes := ![1, 2048]
  wf := gather_S3200x2048_S16384x1_S16384x2048_1_0_n_n_0_1_12048_wf
def gather_S32_S16384x1_S16384_n_0_n_n_0_1_1 : GatherDims S32 S16384x1 S16384 where
  offsetDims := []
  collapsedSliceDims := [0]
  operandBatchingDims := []
  startIndicesBatchingDims := []
  startIndexMap := [0]
  indexVectorDim := 1
  sliceSizes := ![1]
  wf := gather_S32_S16384x1_S16384_n_0_n_n_0_1_1_wf
def gather_S3200_S16384x1_S16384_n_0_n_n_0_1_1 : GatherDims S3200 S16384x1 S16384 where
  offsetDims := []
  collapsedSliceDims := [0]
  operandBatchingDims := []
  startIndicesBatchingDims := []
  startIndexMap := [0]
  indexVectorDim := 1
  sliceSizes := ![1]
  wf := gather_S3200_S16384x1_S16384_n_0_n_n_0_1_1_wf
def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf

class Facts : Prop extends Facts₀ where

variable [Facts]
-- ==== Proof.Spec.lean ====
/-
  The mathematics of the two programs, over literal shapes and free of either program's text.

  Inputs: `x` (16384 rows of 2048 reals), a label word and a batch word per row, two 256 x 2048 weight matrices and
  two bias vectors of 256.  Row `j` has the segment key `seg j = 100 * batch j + label j` (a word).

  * `Kfn`: what the tiled program computes.  Rows are projected first (`xp = x W2ᵀ`, 256 wide); each of two halves of
    the rows accumulates, over 16 tiles of 512 rows, a 3200 x 256 table of the projected rows by key; the two tables are
    added (`sbl`), each batch's 100 consecutive rows of the sum are added up (`sb`), and row `i` takes
    `(sb (key / 100) - sbl key)` at its own key, times the reciprocal of an integer count (`ninv`).
  * `Rfn`: what the plain program computes.  Rows of `x` are summed by batch and by key (2048 wide), counted by batch and
    by key as floats, the difference of sums divided by the larger of the difference of counts and one, masked by that
    difference being positive, and only then multiplied by `W2ᵀ`.
  * `Mid`: the common value over the reals, `(x W1ᵀ + b1) + (A - B) * invn + b2` with `A`, `B` the projected rows summed
    over the row's batch and over the row's key, and `invn` the reciprocal of the number of rows of the same batch with
    another label (zero when there is none).
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

abbrev SX : Shape := ⟨2, ![16384, 2048]⟩
abbrev SL : Shape := ⟨1, ![16384]⟩
abbrev SW : Shape := ⟨2, ![256, 2048]⟩
abbrev SB : Shape := ⟨1, ![256]⟩
abbrev SO : Shape := ⟨2, ![16384, 256]⟩

/-- The segment key of row `j`, as the 32-bit word both programs compute: `100 * batch + label`. -/
def seg (lab lb : SL.Idx → BitVec 32) (j : Fin 16384) : BitVec 32 := lb (ix1 j) * 100#32 + lab (ix1 j)

/-- The 0/1 entry of a one-hot row: is the word `w` the number `s`? -/
def oh (w : BitVec 32) (s : Fin 3200) : EReal := if w = BitVec.ofNat 32 s.val then 1 else 0

/-- Row `j` of `x` against row `q` of a 256 x 2048 matrix. -/
def proj (x : SX.Idx → EReal) (W : SW.Idx → EReal) (j : Fin 16384) (q : Fin 256) : EReal :=
  ∑ d : Fin 2048, x (ix2 j d) * W (ix2 q d)

/-- Row number of row `r` of tile `n` of half `h`. -/
def row (h : Fin 2) (n : Fin 16) (r : Fin 512) : Fin 16384 := ⟨(h.val * 16 + n.val) * 512 + r.val, by omega⟩

/-! ## The tiled program -/

/-- The table half `h` accumulates: over its 16 tiles, the projected rows of the tile by key. -/
def part (x : SX.Idx → EReal) (lab lb : SL.Idx → BitVec 32) (W2 : SW.Idx → EReal) (h : Fin 2) (s : Fin 3200) (q : Fin 256) : EReal :=
  ∑ n : Fin 16, ∑ r : Fin 512, oh (seg lab lb (row h n r)) s * proj x W2 (row h n r) q

/-- The two halves' tables added. -/
def sbl (x : SX.Idx → EReal) (lab lb : SL.Idx → BitVec 32) (W2 : SW.Idx → EReal) (s : Fin 3200) (q : Fin 256) : EReal :=
  part x lab lb W2 0 s q + part x lab lb W2 1 s q

/-- A batch's 100 consecutive rows of the table added up. -/
def sb (x : SX.Idx → EReal) (lab lb : SL.Idx → BitVec 32) (W2 : SW.Idx → EReal) (b : Fin 32) (q : Fin 256) : EReal :=
  ∑ l : Fin 100, sbl x lab lb W2 ⟨b.val * 100 + l.val, by omega⟩ q

/-- The table the second pass gathers from: a key's batch total minus the key's own total. -/
def dtab (x : SX.Idx → EReal) (lab lb : SL.Idx → BitVec 32) (W2 : SW.Idx → EReal) (s : Fin 3200) (q : Fin 256) : EReal :=
  sb x lab lb W2 ⟨s.val / 100, by omega⟩ q - sbl x lab lb W2 s q

/-- Rows whose batch word, read signed, is `b`. -/
def cntB (lb : SL.Idx → BitVec 32) (b : ℤ) : ℕ := (Finset.univ.filter fun j : Fin 16384 => (lb (ix1 j)).toInt = b).card
/-- Rows whose key word, read signed, is `s`. -/
def cntS (lab lb : SL.Idx → BitVec 32) (s : ℤ) : ℕ := (Finset.univ.filter fun j : Fin 16384 => (seg lab lb j).toInt = s).card
/-- Rows of row `i`'s batch minus rows of row `i`'s key. -/
def dcnt (lab lb : SL.Idx → BitVec 32) (i : Fin 16384) : ℤ :=
  (cntB lb (lb (ix1 i)).toInt : ℤ) - (cntS lab lb (seg lab lb i).toInt : ℤ)

/-- The per-row factor of the tiled program: the reciprocal of the count, zero where the count is not positive. -/
def ninv (lab lb : SL.Idx → BitVec 32) (i : Fin 16384) : EReal :=
  if 0 < dcnt lab lb i then Ideal.div 1 (((max (dcnt lab lb i) 1 : ℤ) : ℝ) : EReal) else 0

/-- The tiled program's result. -/
def Kfn (x : SX.Idx → EReal) (lab lb : SL.Idx → BitVec 32) (W1 : SW.Idx → EReal) (b1 : SB.Idx → EReal)
    (W2 : SW.Idx → EReal) (b2 : SB.Idx → EReal) : SO.Idx → EReal := fun o =>
  ((proj x W1 (o 0) (o 1) + b1 (ix1 (o 1)))
    + (∑ s : Fin 3200, oh (seg lab lb (o 0)) s * dtab x lab lb W2 s (o 1)) * ninv lab lb (o 0))
  + b2 (ix1 (o 1))

/-! ## The plain program -/

/-- Rows of `x` of batch `b`, summed. -/
def sumB (x : SX.Idx → EReal) (lb : SL.Idx → BitVec 32) (b : Fin 32) (d : Fin 2048) : EReal :=
  ∑ j : Fin 16384, if (lb (ix1 j)).toInt = (b.val : ℤ) then x (ix2 j d) else 0
/-- Rows of `x` of key `s`, summed. -/
def sumS (x : SX.Idx → EReal) (lab lb : SL.Idx → BitVec 32) (s : Fin 3200) (d : Fin 2048) : EReal :=
  ∑ j : Fin 16384, if (seg lab lb j).toInt = (s.val : ℤ) then x (ix2 j d) else 0
/-- Rows of batch `b`, counted in floats. -/
def cB (lb : SL.Idx → BitVec 32) (b : Fin 32) : EReal :=
  ∑ j : Fin 16384, if (lb (ix1 j)).toInt = (b.val : ℤ) then (1 : EReal) else 0
/-- Rows of key `s`, counted in floats. -/
def cS (lab lb : SL.Idx → BitVec 32) (s : Fin 3200) : EReal :=
  ∑ j : Fin 16384, if (seg lab lb j).toInt = (s.val : ℤ) then (1 : EReal) else 0

/-- Row `i`'s batch as an index of the 32 batches (the word itself when it is in range). -/
def bI (lb : SL.Idx → BitVec 32) (i : Fin 16384) : Fin 32 := ⟨(lb (ix1 i)).toNat % 32, Nat.mod_lt _ (by decide)⟩
/-- Row `i`'s key as an index of the 3200 keys (the word itself when it is in range). -/
def sI (lab lb : SL.Idx → BitVec 32) (i : Fin 16384) : Fin 3200 := ⟨(seg lab lb i).toNat % 3200, Nat.mod_lt _ (by decide)⟩

/-- The float count difference of row `i`. -/
def dcR (lab lb : SL.Idx → BitVec 32) (i : Fin 16384) : EReal := cB lb (bI lb i) - cS lab lb (sI lab lb i)

/-- The masked mean row `i` takes, at column `d`. -/
def mean (x : SX.Idx → EReal) (lab lb : SL.Idx → BitVec 32) (i : Fin 16384) (d : Fin 2048) : EReal :=
  if 0 < dcR lab lb i then
    Ideal.div (sumB x lb (bI lb i) d - sumS x lab lb (sI lab lb i) d) (max (dcR lab lb i) 1)
  else 0

/-- The plain program's result. -/
def Rfn (x : SX.Idx → EReal) (lab lb : SL.Idx → BitVec 32) (W1 : SW.Idx → EReal) (b1 : SB.Idx → EReal)
    (W2 : SW.Idx → EReal) (b2 : SB.Idx → EReal) : SO.Idx → EReal := fun o =>
  ((proj x W1 (o 0) (o 1) + b1 (ix1 (o 1)))
    + ∑ d : Fin 2048, mean x lab lb (o 0) d * W2 (ix2 (o 1) d))
  + b2 (ix1 (o 1))

/-! ## The hypotheses, and the common value over the reals -/

/-- Every entry of an array of extended reals is a real. -/
def Fin' {S : Shape} (v : S.Idx → EReal) : Prop := ∀ i, ∃ r : ℝ, v i = (r : EReal)

/-- Labels in `[0, 100)`, batches in `[0, 32)`, as the words read signed. -/
def InRange (lab lb : SL.Idx → BitVec 32) : Prop :=
  (∀ j : Fin 16384, 0 ≤ (lab (ix1 j)).toInt ∧ (lab (ix1 j)).toInt < 100)
  ∧ (∀ j : Fin 16384, 0 ≤ (lb (ix1 j)).toInt ∧ (lb (ix1 j)).toInt < 32)

/-- The common value: real arrays `xr`, `w1`, `c1`, `w2`, `c2`; `A`, `B` the projected rows summed over row `i`'s
    batch and over row `i`'s key; the reciprocal of the count difference where it is positive. -/
def Mid (xr : Fin 16384 → Fin 2048 → ℝ) (lab lb : SL.Idx → BitVec 32) (w1 : Fin 256 → Fin 2048 → ℝ) (c1 : Fin 256 → ℝ)
    (w2 : Fin 256 → Fin 2048 → ℝ) (c2 : Fin 256 → ℝ) (i : Fin 16384) (q : Fin 256) : ℝ :=
  (((∑ d : Fin 2048, xr i d * w1 q d) + c1 q)
    + ((∑ j : Fin 16384, if (lb (ix1 j)).toInt = (lb (ix1 i)).toInt then ∑ d : Fin 2048, xr j d * w2 q d else 0)
        - (∑ j : Fin 16384, if (seg lab lb j).toInt = (seg lab lb i).toInt then ∑ d : Fin 2048, xr j d * w2 q d else 0))
      * (if 0 < dcnt lab lb i then 1 / ((dcnt lab lb i : ℤ) : ℝ) else 0))
  + c2 q

end Cert.Spec

end
-- ==== Proof.LibBincount.lean ====
/-
  Counting by a scatter that adds: `Host.scatter` with the body the 32-bit addition, `N` scalar updates, an operand
  of `M` words and one-component index vectors (no update window axis, the operand's one axis inserted, the index
  vector on the indices' second axis).

  An update lands where its index word says, the word read SIGNED and not clamped; an update whose index is outside
  `[0, M)` is dropped. So the result at `s` is the operand's word plus the sum of the updates whose index word is `s`
  (`scatter_add_apply`). With the operand all zeros, every update the word `1` and `N < 2 ^ 31`, the result at `s`,
  read unsigned or signed, is the NUMBER of updates whose index word is `s` (`scatter_ones_toNat`,
  `scatter_ones_toInt`).
-/
import Idealize.ShloMosaic.PureOps.Ideal
import Idealize.ShloMosaic.Lib.ValueIdx
import Mathlib.Data.BitVec
import Mathlib.Algebra.BigOperators.Fin

namespace Cert.LibBincount

open Idealize.ShloMosaic Idealize.ShloMosaic.ValueIdx

/-- A left fold whose step adds `u n` at the one place `g n` names (nowhere when it names none), read at one
    place `i0`: the start there plus the `u n` with `g n = some i0`. -/
theorem foldl_step_apply {ι κ A : Type*} [AddMonoid A] (step : (κ → A) → ι → κ → A)
    (g : ι → Option κ) (u : ι → A) [DecidableEq κ]
    (hstep : ∀ r n i', step r n i' = if g n = some i' then r i' + u n else r i')
    (l : List ι) (x : κ → A) (i0 : κ) :
    (l.foldl step x) i0 = x i0 + (l.map fun n => if g n = some i0 then u n else 0).sum := by
  induction l generalizing x with
  | nil => simp
  | cons a l ih =>
    rw [List.foldl_cons, ih, hstep, List.map_cons, List.sum_cons]
    by_cases hg : g a = some i0
    · rw [if_pos hg, if_pos hg, add_assoc]
    · rw [if_neg hg, if_neg hg, zero_add]

/-- A rank-1 index set is its coordinate's range. -/
def idxEquiv1 {n : ℕ} : (⟨1, ![n]⟩ : Shape).Idx ≃ Fin n where
  toFun i := i 0
  invFun a := ix1 a
  left_inv i := (eq_ix1 i).symm
  right_inv _ := rfl

/-- An update of a scatter of scalars at one-component index vectors lands at `s` exactly when its index word,
    read signed, is `s`. -/
theorem resultIdx?_eq_some_iff {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (idx : IVec ⟨2, ![N, 1]⟩ w) (n : Fin N) (s : Fin M) :
    d.resultIdx? (ix1 n) idx = some (ix1 s) ↔ (idx (ix2 n 0)).toInt = (s.val : ℤ) := by
  obtain ⟨uw, iw, sd, iv, wf⟩ := d
  simp only at h1 h2 h3 h4
  subst h1 h2 h3 h4
  have hstart : (ScatterDims.mk [] [0] [0] 1 wf).start (ix1 n) idx 0 = (idx (ix2 n 0)).toInt := by
    unfold ScatterDims.start
    rw [dif_pos (show (0 : Fin 1) ∈ (ScatterDims.mk [] [0] [0] 1 wf).scatterDimsToOperandDims from
      List.mem_singleton.mpr rfl)]
    congr 2
    funext b
    refine Fin.ext ?_
    match b with
    | ⟨0, _⟩ => rfl
    | ⟨1, _⟩ => rfl
  have hwin : (ScatterDims.mk [] [0] [0] 1 wf).window (ix1 n) 0 = 0 := by
    unfold ScatterDims.window
    rw [dif_neg]
    intro hmem
    have hk : (ScatterDims.mk [] [0] [0] 1 wf).sKept = [] :=
      (by decide : (List.finRange 1).filter (fun a : Fin 1 => decide (a ∉ ([0] : List (Fin 1)))) = [])
    rw [hk] at hmem
    exact List.not_mem_nil hmem
  unfold ScatterDims.resultIdx?
  by_cases hin : 0 ≤ (idx (ix2 n 0)).toInt ∧ (idx (ix2 n 0)).toInt < (M : ℤ)
  · rw [dif_pos (by
      intro a
      obtain rfl : a = 0 := Subsingleton.elim _ _
      rw [hstart, hwin]
      simpa using hin)]
    rw [Option.some_inj]
    constructor
    · intro hf
      have h0 := congrArg (fun f => (f 0).val) hf
      simp only [hstart, hwin] at h0
      have h0' : ((idx (ix2 n 0)).toInt + ((0 : ℕ) : ℤ)).toNat = s.val := h0
      omega
    · intro ht
      funext a
      obtain rfl : a = 0 := Subsingleton.elim _ _
      apply Fin.ext
      show ((ScatterDims.mk [] [0] [0] 1 wf).start (ix1 n) idx 0
        + (((ScatterDims.mk [] [0] [0] 1 wf).window (ix1 n) 0 : ℕ) : ℤ)).toNat = s.val
      rw [hstart, hwin, ht]
      simp
  · rw [dif_neg (by
      intro hall
      apply hin
      have := hall 0
      rw [hstart, hwin] at this
      simpa using this)]
    constructor
    · intro hf
      cases hf
    · intro ht
      exfalso
      apply hin
      rw [ht]
      exact ⟨by omega, by exact_mod_cast s.isLt⟩

/-- The scatter at `s`: the operand's word plus the updates whose index word, read signed, is `s`. -/
theorem scatter_add_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : IVec ⟨2, ![N, 1]⟩ w) (upd : (⟨1, ![N]⟩ : Shape).Idx → BitVec 32)
    (s : Fin M) :
    Host.scatter d IntOp.addi x idx upd (ix1 s)
      = x (ix1 s) + ∑ n : Fin N, if (idx (ix2 n 0)).toInt = (s.val : ℤ) then upd (ix1 n) else 0 := by
  unfold Host.scatter
  rw [foldl_step_apply _ (fun n => d.resultIdx? ((Shape.rowMajor ⟨1, ![N]⟩).symm n) idx)
    (fun n => upd ((Shape.rowMajor ⟨1, ![N]⟩).symm n)) ?hstep]
  case hstep =>
    intro r n i'
    generalize d.resultIdx? ((Shape.rowMajor ⟨1, ![N]⟩).symm n) idx = o
    cases o with
    | none => simp
    | some i =>
      by_cases hi : i' = i
      · subst hi; simp [IntOp.addi]
      · simp [hi, Ne.symm hi]
  rw [← Fin.sum_univ_def]
  congr 1
  rw [Equiv.sum_comp (Shape.rowMajor ⟨1, ![N]⟩).symm
    (fun i => if d.resultIdx? i idx = some (ix1 s) then upd i else 0)]
  rw [← Equiv.sum_comp (idxEquiv1 (n := N)).symm]
  refine Finset.sum_congr rfl (fun n _ => ?_)
  show (if d.resultIdx? (ix1 n) idx = some (ix1 s) then upd (ix1 n) else 0) = _
  simp only [resultIdx?_eq_some_iff M N d h1 h2 h3 h4 idx n s]

/-- A set of indices below `N < 2 ^ 31` has fewer than `2 ^ 31` members. -/
theorem card_filter_lt (N : ℕ) (hN : N < 2 ^ 31) (p : Fin N → Prop) [DecidablePred p] :
    (Finset.univ.filter p).card < 2 ^ 31 :=
  lt_of_le_of_lt (le_trans (Finset.card_filter_le _ _) (by simp)) hN

/-- A number below `2 ^ 31` cast to a 32-bit word reads back unsigned as itself. -/
theorem toNat_natCast_of_lt (c : ℕ) (hc : c < 2 ^ 31) : ((c : BitVec 32)).toNat = c := by
  rw [BitVec.natCast_eq_ofNat, BitVec.toNat_ofNat]
  exact Nat.mod_eq_of_lt (by omega)

/-- A number below `2 ^ 31` cast to a 32-bit word reads back signed as itself. -/
theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

/-- All-ones updates into zeros: the scatter at `s` is, as a word, the number of updates whose index word is `s`. -/
theorem scatter_ones_eq_card {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    Host.scatter d IntOp.addi x idx upd (ix1 s)
      = ((Finset.univ.filter fun n : Fin N => (idx (ix2 n 0)).toInt = (s.val : ℤ)).card : BitVec 32) := by
  rw [scatter_add_apply M N d h1 h2 h3 h4 x idx upd s, hx, ← Finset.sum_boole]
  have h0 : ∀ a : BitVec 32, 0#32 + a = a := fun a => by simp
  rw [h0]
  refine Finset.sum_congr rfl (fun n _ => ?_)
  rw [hupd]
  simp

/-- All-ones updates into zeros, fewer than `2 ^ 31` of them: the word at `s` read unsigned counts the updates
    whose index word is `s`. -/
theorem scatter_ones_toNat {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toNat
      = (Finset.univ.filter fun n : Fin N => (idx (ix2 n 0)).toInt = (s.val : ℤ)).card := by
  rw [scatter_ones_eq_card M N d h1 h2 h3 h4 x hx idx upd hupd s]
  exact toNat_natCast_of_lt _ (card_filter_lt N hN _)

/-- The same count, the word read signed. -/
theorem scatter_ones_toInt {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toInt
      = ((Finset.univ.filter fun n : Fin N => (idx (ix2 n 0)).toInt = (s.val : ℤ)).card : ℤ) := by
  rw [scatter_ones_eq_card M N d h1 h2 h3 h4 x hx idx upd hupd s]
  exact toInt_natCast_of_lt _ (card_filter_lt N hN _)

end Cert.LibBincount
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.HostPre.lean ====
/-
  The arrays region 0 is entered with, from the launch memory: the key column, the per-row factor (integer counts of the
  row's batch and of the row's key, their difference, its reciprocal where positive), the two weight matrices (a change of
  float format is the identity here) and the two biases as 1 x 256 rows.
-/
import proofs.«421069_j24412594110965_3_alg».proof.Proof.Gen.KernelIdeal.Frame
import proofs.«421069_j24412594110965_3_alg».proof.Proof.Spec
import proofs.«421069_j24412594110965_3_alg».proof.Proof.LibBincount
import proofs.«421069_j24412594110965_3_alg».proof.Proof.LibColumn
import Idealize.ShloMosaic.Lib.StableHlo.Run
import Idealize.ShloMosaic.Lib.Pipeline.Value
import Idealize.ShloMosaic.Lib.ValueLayout
import Idealize.ShloMosaic.Lib.StableHlo.Predicate
import Idealize.ShloMosaic.Lib.IdealHost

set_option maxRecDepth 16384

noncomputable section

namespace Cert.HostPre

open Idealize.ShloMosaic Idealize.ShloMosaic.TcCoe Idealize.ShloMosaic.ValueIdx
open Idealize.SL.Sem
open Cert.KernelIdeal Cert.KernelIdeal.Gen
open scoped BigOperators

variable (m : (ℓ : Loc nD τ sig) → Buf (Elt Ideal) ℓ) (ρ : Dev nD → PrngReg) (c : Dev nD)

/-! ## Words: small words read signed and unsigned, the key without wrap, the range mask, the count difference -/

/-- A word whose signed value lies in `[0, n)`, `n` at most `2 ^ 31`, has that value unsigned too. -/
theorem toNat_of_toInt {x : BitVec 32} {n : ℕ} (hn : n ≤ 2 ^ 31) (h0 : 0 ≤ x.toInt) (h1 : x.toInt < n) :
    x.toNat < n ∧ x.toInt = (x.toNat : ℤ) := by
  have hx := x.isLt
  rw [BitVec.toInt_eq_toNat_cond] at h0 h1 ⊢
  split_ifs at h0 h1 ⊢ <;> omega

/-- A word below `2 ^ 31` reads the same signed. -/
theorem toInt_of_toNat {x : BitVec 32} (h : x.toNat < 2 ^ 31) : x.toInt = (x.toNat : ℤ) :=
  BitVec.toInt_eq_toNat_of_lt (by omega)

section Keys

variable (lab lb : Spec.SL.Idx → BitVec 32)

/-- In range, the key is `100 * batch + label` as a number below 3200: the word arithmetic does not wrap. -/
theorem seg_toNat (h : Spec.InRange lab lb) (i : Fin 16384) :
    (Spec.seg lab lb i).toNat = 100 * (lb (ix1 i)).toNat + (lab (ix1 i)).toNat ∧ (Spec.seg lab lb i).toNat < 3200 := by
  obtain ⟨hl, hb⟩ := toNat_of_toInt (n := 100) (by norm_num) (h.1 i).1 (h.1 i).2,
    toNat_of_toInt (n := 32) (by norm_num) (h.2 i).1 (h.2 i).2
  have e : (Spec.seg lab lb i).toNat = 100 * (lb (ix1 i)).toNat + (lab (ix1 i)).toNat := by
    unfold Spec.seg
    rw [BitVec.toNat_add, BitVec.toNat_mul]
    have : (100#32 : BitVec 32).toNat = 100 := rfl
    rw [this]
    omega
  exact ⟨e, by omega⟩

/-- The key read signed. -/
theorem seg_toInt (h : Spec.InRange lab lb) (i : Fin 16384) :
    (Spec.seg lab lb i).toInt = 100 * (lb (ix1 i)).toInt + (lab (ix1 i)).toInt := by
  obtain ⟨e, hlt⟩ := seg_toNat lab lb h i
  rw [toInt_of_toNat (by omega), e,
    (toNat_of_toInt (n := 100) (by norm_num) (h.1 i).1 (h.1 i).2).2,
    (toNat_of_toInt (n := 32) (by norm_num) (h.2 i).1 (h.2 i).2).2]
  push_cast
  ring

/-- A word that is not negative is kept by the wrap of negative indices. -/
theorem select_wrap {a b : BitVec 32} (h : a.toNat < 2 ^ 31) :
    Scalar.select (IntOp.cmpi .slt a 0#32) b a = a := by
  have hne : ¬ IntOp.cmpi .slt a 0#32 = 1#1 := by
    rw [StableHlo.Predicate.slt_iff_toNat h (by decide)]
    exact Nat.not_lt_zero _
  rw [eq_zero_of_ne_one hne, select_zero]

/-- A word in `[0, hi]` passes the range mask. -/
theorem mask_one {a hi : BitVec 32} (hhi : hi.toNat < 2 ^ 31) (ha : a.toNat ≤ hi.toNat) :
    IntOp.andi (IntOp.cmpi .sge a 0#32) (IntOp.cmpi .sle a hi) = 1#1 := by
  rw [(StableHlo.Predicate.sge_iff_toNat (a := a) (b := 0#32) (by omega) (by decide)).mpr (Nat.zero_le _),
    (StableHlo.Predicate.sle_iff_toNat (by omega) hhi).mpr ha]
  rfl

/-- A left fold by `and` from 1 over 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_one f hf l

/-- A reduction by `and` from 1 of an array of 1s is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-- Two counts of at most `2 ^ 30` as words: their difference read signed is the integer difference. -/
theorem toInt_sub_counts (a b : ℕ) (ha : a < 2 ^ 30) (hb : b < 2 ^ 30) :
    ((a : BitVec 32) - (b : BitVec 32)).toInt = (a : ℤ) - (b : ℤ) := by
  rw [BitVec.toInt_sub, LibBincount.toInt_natCast_of_lt a (by omega), LibBincount.toInt_natCast_of_lt b (by omega)]
  exact Int.bmod_eq_of_le_mul_two (by push_cast; omega) (by push_cast; omega)

/-- "Greater than zero" on a word is positivity of its signed value. -/
theorem sgt_zero_iff (d : BitVec 32) : IntOp.cmpi .sgt d 0#32 = 1#1 ↔ 0 < d.toInt := by
  unfold IntOp.cmpi
  rw [StableHlo.Predicate.ofBool_eq_one_iff]
  simp only [BitVec.slt, decide_eq_true_eq]
  rfl

/-- The signed maximum with one, read signed. -/
theorem toInt_maxsi_one (d : BitVec 32) : (IntOp.maxsi d 1#32).toInt = max d.toInt 1 := by
  unfold IntOp.maxsi
  have h1 : (1#32 : BitVec 32).toInt = 1 := rfl
  by_cases h : (1#32 : BitVec 32).slt d
  · rw [if_pos h]
    simp only [BitVec.slt, decide_eq_true_eq, h1] at h
    omega
  · rw [if_neg h]
    simp only [BitVec.slt, decide_eq_true_eq, h1] at h
    omega

/-- THE FACTOR from the two counts as words: positive difference, the reciprocal of the larger of it and one; else zero. -/
theorem factor_eq (h : Spec.InRange lab lb) (i : Fin 16384) (a11 a12 : BitVec 32)
    (e11 : a11 = ((Spec.cntS lab lb (Spec.seg lab lb i).toInt : ℕ) : BitVec 32))
    (e12 : a12 = ((Spec.cntB lb (lb (ix1 i)).toInt : ℕ) : BitVec 32)) :
    Scalar.select (IntOp.cmpi .sgt (a12 - a11) 0#32)
        (Ideal.div 1 ((((IntOp.maxsi (a12 - a11) 1#32).toInt : ℤ) : ℝ) : EReal)) (0 : EReal)
      = Spec.ninv lab lb i := by
  have hS : Spec.cntS lab lb (Spec.seg lab lb i).toInt < 2 ^ 30 :=
    lt_of_le_of_lt (Finset.card_le_univ _) (by rw [Fintype.card_fin]; norm_num)
  have hB : Spec.cntB lb (lb (ix1 i)).toInt < 2 ^ 30 :=
    lt_of_le_of_lt (Finset.card_le_univ _) (by rw [Fintype.card_fin]; norm_num)
  have hd : (a12 - a11).toInt = Spec.dcnt lab lb i := by
    rw [e11, e12, toInt_sub_counts _ _ hB hS]; rfl
  unfold Spec.ninv
  rw [toInt_maxsi_one, hd]
  by_cases hp : 0 < Spec.dcnt lab lb i
  · rw [if_pos hp, (sgt_zero_iff _).mpr (by rw [hd]; exact hp), select_one]
  · rw [if_neg hp, eq_zero_of_ne_one (b := IntOp.cmpi .sgt (a12 - a11) 0#32)
      (fun e => hp (by rw [← hd]; exact (sgt_zero_iff _).mp e)), select_zero]

end Keys

/-! ## Reads: a vector as a column, the take-shaped gather at coordinates -/

/-- A vector of `n` entries (not one) laid as an `[n, 1]` column reads, at `j`, the vector at `j`'s row. -/
theorem bcast_col_apply {α : Type} {n : ℕ} (hn : n ≠ 1)
    (h : (⟨1, ![n]⟩ : Shape).BroadcastsInDim ⟨2, ![n, 1]⟩ ![0]) (v : (⟨1, ![n]⟩ : Shape).Idx → α)
    (j : (⟨2, ![n, 1]⟩ : Shape).Idx) : broadcastInDim ⟨2, ![n, 1]⟩ ![0] h v j = v (ix1 (j 0)) := by
  unfold broadcastInDim
  refine congrArg v (funext fun a => ?_)
  match a with
  | ⟨0, _⟩ => exact dif_neg hn

theorem ofFin_eq_ix1 {n : ℕ} (k : Fin n) : Shape.Idx.ofFin k = ix1 k := by
  funext a
  match a with
  | ⟨0, _⟩ => rfl

theorem ixP_eq_ix2 {n : ℕ} (p : Fin n) : StableHlo.Predicate.ixP p = ix2 p (0 : Fin 1) := by
  funext a
  match a with
  | ⟨0, _⟩ => rfl
  | ⟨1, _⟩ => rfl

/-- The take at row `p`, when the start index there is the number `s` below the table's length: the table at `s`. -/
theorem gather_take_ix {α : Type} {N n w : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (s : Fin N)
    (hs : (idx (ix2 p 0)).toInt = (s.val : ℤ)) : Host.gather d x idx (ix1 p) = x (ix1 s) := by
  have hN : 0 < N := by have := s.isLt; omega
  rw [← ofFin_eq_ix1, StableHlo.Predicate.gather_take d hcoll hob hsim hivd x idx p hN, ofFin_eq_ix1]
  refine congrArg x (congrArg ix1 (Fin.ext ?_))
  show min (idx (StableHlo.Predicate.ixP p)).toInt.toNat (N - 1) = s.val
  rw [ixP_eq_ix2, hs, Int.toNat_natCast]
  have := s.isLt
  omega

/-! ## The take: `table[key]` with the key in range is the table at the key -/

/-- The index column of a take: negative keys wrapped by the table's length `cN`, the vector laid as a column. -/
def wrapCol (hb0 : S_.BroadcastsInDim S16384 ![]) (hb1 : S16384.BroadcastsInDim S16384x1 ![0]) (cN : BitVec 32)
    (k : S16384.Idx → BitVec 32) : S16384x1.Idx → BitVec 32 :=
  broadcastInDim S16384x1 ![0] hb1
    (select (cmpi .slt k (broadcastInDim S16384 ![] hb0 (constantI S_ 32 0#32)))
      (addi k (broadcastInDim S16384 ![] hb0 (constantI S_ 32 cN))) k)

/-- With every key in `[0, N)`, the index column holds, in each row, that row's key. -/
theorem wrapCol_apply {N : ℕ} (hN : N ≤ 2 ^ 31) (hb0 : S_.BroadcastsInDim S16384 ![])
    (hb1 : S16384.BroadcastsInDim S16384x1 ![0]) (cN : BitVec 32) (k : S16384.Idx → BitVec 32)
    (hall : ∀ j : Fin 16384, (k (ix1 j)).toNat < N) (j : S16384x1.Idx) :
    wrapCol hb0 hb1 cN k j = k (ix1 (j 0)) := by
  unfold wrapCol
  rw [bcast_col_apply (by decide)]
  exact select_wrap (by have := hall (j 0); omega)

/-- THE TAKE at row `i`: every key in `[0, N)`, the mask passes and the gather reads the table at row `i`'s key
    (`cM` the last position `N - 1` as a word). -/
theorem take_apply {N : ℕ} (cN cM : BitVec 32) (hM : cM.toNat + 1 = N) (hN : N ≤ 2 ^ 31)
    (d : GatherDims ⟨1, ![N]⟩ S16384x1 S16384)
    (hcoll : d.collapsedSliceDims = [0]) (hob : d.operandBatchingDims = [])
    (hsim : d.startIndexMap = [0]) (hivd : d.indexVectorDim = 1)
    (hb0 : S_.BroadcastsInDim S16384 ![]) (hb1 : S16384.BroadcastsInDim S16384x1 ![0])
    (hb2 : S_.BroadcastsInDim S16384x1 ![]) (hb3 : S1.BroadcastsInDim S1x1 ![1])
    (hb4 : S1x1.BroadcastsInDim S16384x1 ![0, 1]) (hr : S16384x1.ReducesTo [1] S16384) (hu : 0 < S_.numel)
    (x : (⟨1, ![N]⟩ : Shape).Idx → BitVec 32) (k fill : S16384.Idx → BitVec 32)
    (hall : ∀ j : Fin 16384, (k (ix1 j)).toNat < N) (i : Fin 16384) (s : Fin N) (hs : (k (ix1 i)).toNat = s.val) :
    select
        (Host.reduce IntOp.andi
          (andi (cmpi .sge (wrapCol hb0 hb1 cN k) (broadcastInDim S16384x1 ![] hb2 (constantI S_ 32 0#32)))
            (cmpi .sle (wrapCol hb0 hb1 cN k)
              (broadcastInDim S16384x1 ![0, 1] hb4 (broadcastInDim S1x1 ![1] hb3 (constantI S1 32 cM)))))
          (constantI S_ 1 1#1) hr hu)
        (Host.gather d x (wrapCol hb0 hb1 cN k)) fill (ix1 i)
      = x (ix1 s) := by
  have hcol := wrapCol_apply hN hb0 hb1 cN k hall
  rw [select_apply, reduce_andi_one _ (constantI S_ 1 1#1) hr hu (fun j => ?_) (fun _ => rfl), select_one]
  · refine gather_take_ix d hcoll hob hsim hivd x _ i s ?_
    rw [hcol]
    show (k (ix1 i)).toInt = _
    rw [toInt_of_toNat (by have := hall i; omega), hs]
  · show IntOp.andi (IntOp.cmpi .sge (wrapCol hb0 hb1 cN k j) 0#32) (IntOp.cmpi .sle (wrapCol hb0 hb1 cN k j) cM) = 1#1
    rw [hcol j]
    exact mask_one (by omega) (by have := hall (j 0); omega)

/-! ## A buffer no operation of a stretch writes keeps its contents -/

/-- Closes `after ops V ↑r = V ↑r` for a literal stretch `ops` none of whose operations writes the reference `r`. -/
macro "unwritten" ops:ident : tactic => `(tactic|
  exact StableHlo.after_of_forall_not_mem (b := _) _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-- An argument's buffer before the last stretch holds what the launch memory holds: no stretch writes it. -/
macro "arg_unwritten" : tactic => `(tactic|
  (refine Eq.trans (b := W4 _ _ _ _) (by unwritten hostOps0_4) ?_
   refine Eq.trans (b := W3 _ _ _ _) (by unwritten hostOps0_3) ?_
   refine Eq.trans (b := W2 _ _ _ _) (by unwritten hostOps0_2) ?_
   refine Eq.trans (b := W1 _ _ _ _) (by unwritten hostOps0_1) ?_
   refine Eq.trans (b := W0 _ _ _ _) (by unwritten hostOps0) ?_
   rfl))

theorem W5_arg0 : W5 m ρ c (Proc.devRef .tc main_arg0) = m ((c : Thread nD τ).loc main_arg0) := by arg_unwritten
theorem W5_arg3 : W5 m ρ c (Proc.devRef .tc main_arg3) = m ((c : Thread nD τ).loc main_arg3) := by arg_unwritten
theorem W5_arg4 : W5 m ρ c (Proc.devRef .tc main_arg4) = m ((c : Thread nD τ).loc main_arg4) := by arg_unwritten
theorem W5_arg5 : W5 m ρ c (Proc.devRef .tc main_arg5) = m ((c : Thread nD τ).loc main_arg5) := by arg_unwritten
theorem W5_arg6 : W5 m ρ c (Proc.devRef .tc main_arg6) = m ((c : Thread nD τ).loc main_arg6) := by arg_unwritten

theorem V6_arg0 : V6 m ρ c main_arg0 = m ((c : Thread nD τ).loc main_arg0) := by
  refine Eq.trans (b := W5 m ρ c (Proc.devRef .tc main_arg0)) ?_ (W5_arg0 m ρ c)
  show StableHlo.after hostOps0_5 (W5 m ρ c) (Proc.devRef .tc main_arg0) = _
  unwritten hostOps0_5

/-! ## The last stretch: the two weight matrices, the two bias rows -/

theorem V6_v23 : V6 m ρ c main_v23 = m ((c : Thread nD τ).loc main_arg3) := by
  show StableHlo.after hostOps0_5 (W5 m ρ c) (Proc.devRef .tc main_v23) = _
  rw [← W5_arg3 m ρ c]
  generalize W5 m ρ c = V
  after_results
  rfl

theorem V6_v24 : V6 m ρ c main_v24 = m ((c : Thread nD τ).loc main_arg5) := by
  show StableHlo.after hostOps0_5 (W5 m ρ c) (Proc.devRef .tc main_v24) = _
  rw [← W5_arg5 m ρ c]
  generalize W5 m ρ c = V
  after_results
  rfl

theorem V6_v25 (q : Fin 256) :
    (V6 m ρ c main_v25 (ix2 0 q) : EReal) = m ((c : Thread nD τ).loc main_arg4) (ix1 q) := by
  show (StableHlo.after hostOps0_5 (W5 m ρ c) (Proc.devRef .tc main_v25) : S1x256.Idx → EReal) (ix2 0 q) = _
  rw [← W5_arg4 m ρ c]
  generalize W5 m ρ c = V
  after_results
  exact shapeCast_a_1a_apply _ _ 0 q

theorem V6_v26 (q : Fin 256) :
    (V6 m ρ c main_v26 (ix2 0 q) : EReal) = m ((c : Thread nD τ).loc main_arg6) (ix1 q) := by
  show (StableHlo.after hostOps0_5 (W5 m ρ c) (Proc.devRef .tc main_v26) : S1x256.Idx → EReal) (ix2 0 q) = _
  rw [← W5_arg6 m ρ c]
  generalize W5 m ρ c = V
  after_results
  exact shapeCast_a_1a_apply _ _ 0 q

/-! ## The stretches, each from any contents `V` before it -/

section Stretches

variable (V : Valuation τ sig (Elt Ideal))

/-- The first stretch: the key vector. -/
theorem s0_v2 (i : Fin 16384) :
    (StableHlo.after (hostOps0 (F := Ideal)) V (Proc.devRef .tc main_v2) : S16384.Idx → BitVec 32) (ix1 i)
      = Spec.seg (V (Proc.devRef .tc main_arg1)) (V (Proc.devRef .tc main_arg2)) i := by
  after_results
  rfl

/-- The key vector as a column. -/
theorem s0_v3 (i : Fin 16384) :
    (StableHlo.after (hostOps0 (F := Ideal)) V (Proc.devRef .tc main_v3) : S16384x1.Idx → BitVec 32) (ix2 i 0)
      = Spec.seg (V (Proc.devRef .tc main_arg1)) (V (Proc.devRef .tc main_arg2)) i := by
  after_results
  exact Lib.Column.shapeCast_a_a1_apply _ _ i 0

/-- The count by key: ones scattered into zeros at the keys. -/
theorem s0_v7 (s : Fin 3200) :
    (StableHlo.after (hostOps0 (F := Ideal)) V (Proc.devRef .tc main_v7) : S3200.Idx → BitVec 32) (ix1 s)
      = ((Spec.cntS (V (Proc.devRef .tc main_arg1)) (V (Proc.devRef .tc main_arg2)) (s.val : ℤ) : ℕ) : BitVec 32) := by
  after_results
  refine Eq.trans (LibBincount.scatter_ones_eq_card 3200 16384 scatter_S3200_S16384x1_S16384_n_0_0_1 rfl rfl rfl rfl
    _ ?_ _ _ ?_ s) ?_
  · intro _; rfl
  · intro _; rfl
  · simp only [bcast_col_apply (n := 16384) (by decide)]
    rfl

/-- The count by batch. -/
theorem s0_v10 (b : Fin 32) :
    (StableHlo.after (hostOps0 (F := Ideal)) V (Proc.devRef .tc main_v10) : S32.Idx → BitVec 32) (ix1 b)
      = ((Spec.cntB (V (Proc.devRef .tc main_arg2)) (b.val : ℤ) : ℕ) : BitVec 32) := by
  after_results
  refine Eq.trans (LibBincount.scatter_ones_eq_card 32 16384 scatter_S32_S16384x1_S16384_n_0_0_1 rfl rfl rfl rfl
    _ ?_ _ _ ?_ b) ?_
  · intro _; rfl
  · intro _; rfl
  · simp only [bcast_col_apply (n := 16384) (by decide)]
    rfl

set_option maxHeartbeats 2000000 in
/-- The first take: with every key in `[0, 3200)`, row `i` reads the count at its own key. -/
theorem s1_v11 (hall : ∀ j : Fin 16384, ((V (Proc.devRef .tc main_v2) : S16384.Idx → BitVec 32) (ix1 j)).toNat < 3200)
    (i : Fin 16384) (s : Fin 3200) (hs : ((V (Proc.devRef .tc main_v2) : S16384.Idx → BitVec 32) (ix1 i)).toNat = s.val) :
    (StableHlo.after (hostOps0_1 (F := Ideal)) V (Proc.devRef .tc main_v11) : S16384.Idx → BitVec 32) (ix1 i)
      = (V (Proc.devRef .tc main_v7) : S3200.Idx → BitVec 32) (ix1 s) := by
  after_results_simp
  simp only [StableHlo.TRef.ofBuf, StableHlo.TRef.toBuf, cast_eq]
  exact take_apply 3200#32 3199#32 rfl (by norm_num) _ rfl rfl rfl rfl _ _ _ _ _ _ _ _ _ _ hall i s hs

set_option maxHeartbeats 2000000 in
/-- The second take: with every batch in `[0, 32)`, row `i` reads the count at its own batch. -/
theorem s2_v12 (hall : ∀ j : Fin 16384, ((V (Proc.devRef .tc main_arg2) : S16384.Idx → BitVec 32) (ix1 j)).toNat < 32)
    (i : Fin 16384) (b : Fin 32) (hb : ((V (Proc.devRef .tc main_arg2) : S16384.Idx → BitVec 32) (ix1 i)).toNat = b.val) :
    (StableHlo.after (hostOps0_2 (F := Ideal)) V (Proc.devRef .tc main_v12) : S16384.Idx → BitVec 32) (ix1 i)
      = (V (Proc.devRef .tc main_v10) : S32.Idx → BitVec 32) (ix1 b) := by
  after_results_simp
  simp only [StableHlo.TRef.ofBuf, StableHlo.TRef.toBuf, cast_eq]
  exact take_apply 32#32 31#32 rfl (by norm_num) _ rfl rfl rfl rfl _ _ _ _ _ _ _ _ _ _ hall i b hb

/-- The fourth stretch: is the difference of the two counts positive? -/
theorem s3_v18 (i : Fin 16384) (a11 a12 : BitVec 32)
    (h11 : a11 = (V (Proc.devRef .tc main_v11) : S16384.Idx → BitVec 32) (ix1 i))
    (h12 : a12 = (V (Proc.devRef .tc main_v12) : S16384.Idx → BitVec 32) (ix1 i)) :
    IntOp.cmpi .sgt (a12 - a11) 0#32
      = (StableHlo.after (hostOps0_3 (F := Ideal)) V (Proc.devRef .tc main_v18) : S16384.Idx → BitVec 1) (ix1 i) := by
  subst h11 h12
  after_results
  rfl

/-- One over the larger of the difference and one, the integer read signed exactly. -/
theorem s3_v20 (i : Fin 16384) (a11 a12 : BitVec 32)
    (h11 : a11 = (V (Proc.devRef .tc main_v11) : S16384.Idx → BitVec 32) (ix1 i))
    (h12 : a12 = (V (Proc.devRef .tc main_v12) : S16384.Idx → BitVec 32) (ix1 i)) :
    Ideal.div 1 ((((IntOp.maxsi (a12 - a11) 1#32).toInt : ℤ) : ℝ) : EReal)
      = (StableHlo.after (hostOps0_3 (F := Ideal)) V (Proc.devRef .tc main_v20) : S16384.Idx → EReal) (ix1 i) := by
  subst h11 h12
  after_results
  show _ = Ideal.div (Ideal.ofBits .f32 0x3F800000#32) _
  rw [Ideal.ofBits_one_f32]
  rfl

/-- The fill value, zero. -/
theorem s3_cst5 :
    (0 : EReal) = (StableHlo.after (hostOps0_3 (F := Ideal)) V (Proc.devRef .tc main_cst_5) : S_.Idx → EReal) ix0 := by
  after_results
  exact Ideal.ofBits_zero_f32.symm

/-- The fifth stretch: the select between the reciprocal and the fill. -/
theorem s4_v21 (i : Fin 16384) :
    (StableHlo.after (hostOps0_4 (F := Ideal)) V (Proc.devRef .tc main_v21) : S16384.Idx → EReal) (ix1 i)
      = Scalar.select ((V (Proc.devRef .tc main_v18) : S16384.Idx → BitVec 1) (ix1 i))
          ((V (Proc.devRef .tc main_v20) : S16384.Idx → EReal) (ix1 i))
          ((V (Proc.devRef .tc main_cst_5) : S_.Idx → EReal) ix0) := by
  after_results
  simp only [StableHlo.TRef.ofBuf, StableHlo.TRef.toBuf, cast_eq]
  rw [select_apply, broadcastInDim_scalar_apply]
  rfl

/-- The last stretch: the factor as a column. -/
theorem s5_v22 (i : Fin 16384) :
    (StableHlo.after (hostOps0_5 (F := Ideal)) V (Proc.devRef .tc main_v22) : S16384x1.Idx → EReal) (ix2 i 0)
      = (V (Proc.devRef .tc main_v21) : S16384.Idx → EReal) (ix1 i) := by
  after_results
  exact Lib.Column.shapeCast_a_a1_apply _ _ i 0

end Stretches

/-! ## Region 0's entry: the key column and the per-row factor -/

theorem V6_v3 (i : Fin 16384) :
    V6 m ρ c main_v3 (ix2 i 0)
      = Spec.seg (m ((c : Thread nD τ).loc main_arg1)) (m ((c : Thread nD τ).loc main_arg2)) i := by
  have e : V6 m ρ c main_v3 = W1 m ρ c (Proc.devRef .tc main_v3) := by
    refine Eq.trans (b := W5 m ρ c (Proc.devRef .tc main_v3)) (by unwritten hostOps0_5) ?_
    refine Eq.trans (b := W4 m ρ c (Proc.devRef .tc main_v3)) (by unwritten hostOps0_4) ?_
    refine Eq.trans (b := W3 m ρ c (Proc.devRef .tc main_v3)) (by unwritten hostOps0_3) ?_
    refine Eq.trans (b := W2 m ρ c (Proc.devRef .tc main_v3)) (by unwritten hostOps0_2) ?_
    unwritten hostOps0_1
  rw [e]
  exact s0_v3 (W0 m ρ c) i

/-- After the first stretch the key vector holds the keys. -/
theorem W1_v2 (j : Fin 16384) :
    (W1 m ρ c (Proc.devRef .tc main_v2) : S16384.Idx → BitVec 32) (ix1 j) = Spec.seg (m ((c : Thread nD τ).loc main_arg1)) (m ((c : Thread nD τ).loc main_arg2)) j :=
  s0_v2 (W0 m ρ c) j

/-- The batch vector is as launched when the second take reads it. -/
theorem W2_arg2 : W2 m ρ c (Proc.devRef .tc main_arg2) = (m ((c : Thread nD τ).loc main_arg2)) := by
  refine Eq.trans (b := W1 m ρ c (Proc.devRef .tc main_arg2)) (by unwritten hostOps0_1) ?_
  refine Eq.trans (b := W0 m ρ c (Proc.devRef .tc main_arg2)) (by unwritten hostOps0) ?_
  rfl

/-- Row `i`'s count by key, as the word the first take leaves. -/
theorem W3_v11 (h : Spec.InRange (m ((c : Thread nD τ).loc main_arg1)) (m ((c : Thread nD τ).loc main_arg2))) (i : Fin 16384) :
    (W3 m ρ c (Proc.devRef .tc main_v11) : S16384.Idx → BitVec 32) (ix1 i)
      = ((Spec.cntS (m ((c : Thread nD τ).loc main_arg1)) (m ((c : Thread nD τ).loc main_arg2)) (Spec.seg (m ((c : Thread nD τ).loc main_arg1)) (m ((c : Thread nD τ).loc main_arg2)) i).toInt : ℕ) : BitVec 32) := by
  have e : W3 m ρ c (Proc.devRef .tc main_v11) = W2 m ρ c (Proc.devRef .tc main_v11) := by unwritten hostOps0_2
  rw [e]
  have hlt := (seg_toNat (m ((c : Thread nD τ).loc main_arg1)) (m ((c : Thread nD τ).loc main_arg2)) h i).2
  refine (s1_v11 (W1 m ρ c) (fun j => by rw [W1_v2]; exact (seg_toNat (m ((c : Thread nD τ).loc main_arg1)) (m ((c : Thread nD τ).loc main_arg2)) h j).2) i
    ⟨(Spec.seg (m ((c : Thread nD τ).loc main_arg1)) (m ((c : Thread nD τ).loc main_arg2)) i).toNat, hlt⟩ (by rw [W1_v2])).trans ?_
  refine (s0_v7 (W0 m ρ c) _).trans ?_
  show ((Spec.cntS (m ((c : Thread nD τ).loc main_arg1)) (m ((c : Thread nD τ).loc main_arg2)) (((Spec.seg (m ((c : Thread nD τ).loc main_arg1)) (m ((c : Thread nD τ).loc main_arg2)) i).toNat : ℕ) : ℤ) : ℕ) : BitVec 32) = _
  rw [← toInt_of_toNat (by omega)]

/-- Row `i`'s count by batch, as the word the second take leaves. -/
theorem W3_v12 (h : Spec.InRange (m ((c : Thread nD τ).loc main_arg1)) (m ((c : Thread nD τ).loc main_arg2))) (i : Fin 16384) :
    (W3 m ρ c (Proc.devRef .tc main_v12) : S16384.Idx → BitVec 32) (ix1 i)
      = ((Spec.cntB (m ((c : Thread nD τ).loc main_arg2)) ((m ((c : Thread nD τ).loc main_arg2)) (ix1 i)).toInt : ℕ) : BitVec 32) := by
  have hN : ∀ j : Fin 16384, ((m ((c : Thread nD τ).loc main_arg2)) (ix1 j)).toNat < 32 ∧ ((m ((c : Thread nD τ).loc main_arg2)) (ix1 j)).toInt = (((m ((c : Thread nD τ).loc main_arg2)) (ix1 j)).toNat : ℤ) :=
    fun j => toNat_of_toInt (n := 32) (by norm_num) (h.2 j).1 (h.2 j).2
  have e10 : W2 m ρ c (Proc.devRef .tc main_v10) = W1 m ρ c (Proc.devRef .tc main_v10) := by unwritten hostOps0_1
  refine (s2_v12 (W2 m ρ c) (fun j => by rw [W2_arg2]; exact (hN j).1) i
    ⟨((m ((c : Thread nD τ).loc main_arg2)) (ix1 i)).toNat, (hN i).1⟩ (by rw [W2_arg2])).trans ?_
  rw [e10]
  refine (s0_v10 (W0 m ρ c) _).trans ?_
  show ((Spec.cntB (m ((c : Thread nD τ).loc main_arg2)) ((((m ((c : Thread nD τ).loc main_arg2)) (ix1 i)).toNat : ℕ) : ℤ) : ℕ) : BitVec 32) = _
  rw [← (hN i).2]

theorem V6_v22 (h : Spec.InRange (m ((c : Thread nD τ).loc main_arg1)) (m ((c : Thread nD τ).loc main_arg2)))
    (i : Fin 16384) :
    (V6 m ρ c main_v22 (ix2 i 0) : EReal)
      = Spec.ninv (m ((c : Thread nD τ).loc main_arg1)) (m ((c : Thread nD τ).loc main_arg2)) i := by
  have e11 := W3_v11 m ρ c h i
  have e12 := W3_v12 m ρ c h i
  have e18 : IntOp.cmpi .sgt (_ - _) 0#32 = (W4 m ρ c (Proc.devRef .tc main_v18) : S16384.Idx → BitVec 1) (ix1 i) :=
    s3_v18 (W3 m ρ c) i _ _ rfl rfl
  have e20 : Ideal.div 1 _ = (W4 m ρ c (Proc.devRef .tc main_v20) : S16384.Idx → EReal) (ix1 i) :=
    s3_v20 (W3 m ρ c) i _ _ rfl rfl
  have e5 : (0 : EReal) = (W4 m ρ c (Proc.devRef .tc main_cst_5) : S_.Idx → EReal) ix0 := s3_cst5 (W3 m ρ c)
  refine (s5_v22 (W5 m ρ c) i).trans ?_
  refine (s4_v21 (W4 m ρ c) i).trans ?_
  rw [← e18, ← e20, ← e5]
  exact factor_eq (m ((c : Thread nD τ).loc main_arg1)) (m ((c : Thread nD τ).loc main_arg2)) h i _ _ e11 e12

end Cert.HostPre

end
-- ==== Proof.HostMid.lean ====
/-
  Between the regions: region 0's two results are its arrays at its exit; the host adds the two halves' tables, sums each
  batch's 100 rows, and subtracts the table from the batch totals repeated; everything else region 1 reads is as it was
  at region 0's entry.
-/
import proofs.«421069_j24412594110965_3_alg».proof.Proof.Gen.KernelIdeal.Frame
import proofs.«421069_j24412594110965_3_alg».proof.Proof.Spec
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.HostMid

open Idealize.ShloMosaic Idealize.ShloMosaic.TcCoe Idealize.ShloMosaic.ValueIdx
open Idealize.SL.Sem
open Cert.KernelIdeal Cert.KernelIdeal.Gen
open scoped BigOperators

variable (m : (ℓ : Loc nD τ sig) → Buf (Elt Ideal) ℓ) (ρ : Dev nD → PrngReg) (c : Dev nD)

/-- A buffer none of the twelve operations between the regions writes keeps its contents. -/
theorem after1_keep (V : Valuation τ sig (Elt Ideal)) (r : Ref sig .tc)
    (h28 : r ≠ main_v28) (h29 : r ≠ main_v29) (h30 : r ≠ main_v30) (h31 : r ≠ main_v31) (h32 : r ≠ main_v32)
    (h33 : r ≠ main_v33) (hc6 : r ≠ main_cst_6) (h34 : r ≠ main_v34) (h35 : r ≠ main_v35) (h36 : r ≠ main_v36)
    (h37 : r ≠ main_v37) (h38 : r ≠ main_v38) :
    StableHlo.after hostOps1 V (Proc.devRef .tc r) = V (Proc.devRef .tc r) := by
  refine StableHlo.after_of_forall_not_mem (b := Proc.devRef .tc r) _ _ (List.forall_iff_forall_mem.mp ?_)
  simp only [hostOps1, List.Forall, StableHlo.nullary_writes, StableHlo.unary_writes, StableHlo.binary_writes,
    StableHlo.reshape_writes, Finset.mem_singleton]
  exact ⟨StableHlo.devRef_ne_of_ne h28, StableHlo.devRef_ne_of_ne h29, StableHlo.devRef_ne_of_ne h30,
    StableHlo.devRef_ne_of_ne h31, StableHlo.devRef_ne_of_ne h32, StableHlo.devRef_ne_of_ne h33,
    StableHlo.devRef_ne_of_ne hc6, StableHlo.devRef_ne_of_ne h34, StableHlo.devRef_ne_of_ne h35,
    StableHlo.devRef_ne_of_ne h36, StableHlo.devRef_ne_of_ne h37, StableHlo.devRef_ne_of_ne h38⟩

theorem V7_v27_0 : V7 m ρ c main_v27_0 = (dat0 (V6 m ρ) c).arrAt 5 cfg0.N := by
  show W7 m ρ c (Proc.devRef .tc (Pipeline.arrRef spec0 5)) = _
  exact W7_arr m ρ c 5

theorem V7_v27_1 : V7 m ρ c main_v27_1 = (dat0 (V6 m ρ) c).arrAt 6 cfg0.N := by
  show W7 m ρ c (Proc.devRef .tc (Pipeline.arrRef spec0 6)) = _
  exact W7_arr m ρ c 6

theorem V8_v27_0 : V8 m ρ c main_v27_0 = V7 m ρ c main_v27_0 := by
  show StableHlo.after hostOps1 (W7 m ρ c) (Proc.devRef .tc main_v27_0) = W7 m ρ c (Proc.devRef .tc main_v27_0)
  exact after1_keep (W7 m ρ c) main_v27_0 (by decide) (by decide) (by decide) (by decide) (by decide) (by decide)
    (by decide) (by decide) (by decide) (by decide) (by decide) (by decide)

theorem V8_v3 : V8 m ρ c main_v3 = V6 m ρ c main_v3 := by
  show StableHlo.after hostOps1 (W7 m ρ c) (Proc.devRef .tc main_v3) = W6 m ρ c (Proc.devRef .tc main_v3)
  rw [after1_keep (W7 m ρ c) main_v3 (by decide) (by decide) (by decide) (by decide) (by decide) (by decide)
    (by decide) (by decide) (by decide) (by decide) (by decide) (by decide)]
  -- the key column is region 0's second input: an input's array at the exit is the array as entered
  exact (W7_arr m ρ c 1).trans (((dat0 (V6 m ρ) c).arrAt_in 1 rfl _).trans (A_eq0 (V6 m ρ) c 1))

theorem V8_v22 : V8 m ρ c main_v22 = V6 m ρ c main_v22 := by
  show StableHlo.after hostOps1 (W7 m ρ c) (Proc.devRef .tc main_v22) = W6 m ρ c (Proc.devRef .tc main_v22)
  rw [after1_keep (W7 m ρ c) main_v22 (by decide) (by decide) (by decide) (by decide) (by decide) (by decide)
    (by decide) (by decide) (by decide) (by decide) (by decide) (by decide)]
  exact W7_of_ne m ρ c main_v22 (by decide)

theorem V8_v26 : V8 m ρ c main_v26 = V6 m ρ c main_v26 := by
  show StableHlo.after hostOps1 (W7 m ρ c) (Proc.devRef .tc main_v26) = W6 m ρ c (Proc.devRef .tc main_v26)
  rw [after1_keep (W7 m ρ c) main_v26 (by decide) (by decide) (by decide) (by decide) (by decide) (by decide)
    (by decide) (by decide) (by decide) (by decide) (by decide) (by decide)]
  exact W7_of_ne m ρ c main_v26 (by decide)

/-! ## The table region 1 gathers from

The twelve operations between the regions, as one function of region 0's table, then read at an index stage by stage. -/

section Table

variable {α : Type}

/-- Half o of the 2 x 3200 x 256 table, cut out and its unit axis dropped, reads the table at (o, s, q). -/
theorem half_apply (o : Nat) (ho : o < 2) (T : S2x3200x256.Idx → α)
    (hs : S2x3200x256.Slices ![o, 0, 0] S1x3200x256) (hc : S1x3200x256.ShapeCasts S3200x256)
    (s : Fin 3200) (q : Fin 256) :
    shapeCast S3200x256 (extractStridedSlice S1x3200x256 ![o, 0, 0] T hs) hc (ix2 s q)
      = T (ix3 (⟨o, ho⟩ : Fin 2) s q) := by
  refine (shapeCast_1ab_ab_apply _ hc s q).trans ?_
  refine extractStridedSlice_apply _ T hs _ _ fun a => ?_
  match a with
  | ⟨0, _⟩ => show o = o + 0; omega
  | ⟨1, _⟩ => show s.val = 0 + s.val; omega
  | ⟨2, _⟩ => show q.val = 0 + q.val; omega

/-- Row 100 b + l of a 3200 x 256 array is entry (b, l) of the same array as 32 x 100 x 256. -/
theorem split_apply (X : S3200x256.Idx → α) (hc : S3200x256.ShapeCasts S32x100x256)
    (b : Fin 32) (l : Fin 100) (q : Fin 256) :
    shapeCast S32x100x256 X hc (ix3 b l q) = X (ix2 (⟨b.val * 100 + l.val, by omega⟩ : Fin 3200) q) :=
  shapeCast_apply X hc _ _ (by
    rw [Shape.rowMajor_val_two, Shape.rowMajor_val_three]
    show (b.val * 100 + l.val) * 256 + q.val = (b.val * 100 + l.val) * 256 + q.val
    rfl)

/-- Entry (s / 100, s % 100) of a 32 x 100 x 256 array is row s of the same array as 3200 x 256. -/
theorem flat_apply (W : S32x100x256.Idx → α) (hc : S32x100x256.ShapeCasts S3200x256) (s : Fin 3200) (q : Fin 256) :
    shapeCast S3200x256 W hc (ix2 s q)
      = W (ix3 (⟨s.val / 100, by omega⟩ : Fin 32) (⟨s.val % 100, by omega⟩ : Fin 100) q) :=
  shapeCast_apply W hc _ _ (by
    rw [Shape.rowMajor_val_two, Shape.rowMajor_val_three]
    show (s.val / 100 * 100 + s.val % 100) * 256 + q.val = s.val * 256 + q.val
    omega)

/-- A 32 x 256 array repeated along a new middle axis reads, at (b, l, q), its entry (b, q). -/
theorem spread_apply (Z : S32x256.Idx → α) (hb : S32x256.BroadcastsInDim S32x100x256 (![0, 2] : Fin 2 → Fin S32x100x256.rank))
    (b : Fin 32) (l : Fin 100) (q : Fin 256) :
    broadcastInDim S32x100x256 ![0, 2] hb Z (ix3 b l q) = Z (ix2 b q) :=
  broadcastInDim_apply _ hb Z _ _ fun a => by
    match a with
    | ⟨0, _⟩ => rfl
    | ⟨1, _⟩ => rfl

/-- The host's sum over the middle axis from the zero word: at (b, q) the sum of the hundred entries (b, l, q). -/
theorem batchSum_apply (Y : FVec Ideal S32x100x256 .f32) (h' : S32x100x256.ReducesTo [1] S32x256) (hu : 0 < S_.numel)
    (b : Fin 32) (q : Fin 256) :
    Host.reduceAdd (F := Ideal) Y (constant (F := Ideal) S_ .f32 0x00000000#32) h' hu (ix2 b q)
      = ∑ l : Fin 100, Y (ix3 b l q) := by
  have h : S32x100x256.Reduces [1] S32x256 := by decide
  show Ideal.hostReduceAdd h' Y (Ideal.ofBits .f32 0x00000000#32) (ix2 b q) = _
  rw [Ideal.hostReduceAdd_single h' h, Ideal.ofBits_zero_f32, zero_add]
  refine Finset.sum_congr rfl fun l _ => congrArg Y ?_
  funext a
  match a with
  | ⟨0, _⟩ => exact Fin.ext rfl
  | ⟨1, _⟩ => exact Fin.ext rfl
  | ⟨2, _⟩ => exact Fin.ext rfl

/-- The two halves of the table added, as a 3200 x 256 array. -/
def tsum (T : FVec Ideal S2x3200x256 .f32) : FVec Ideal S3200x256 .f32 :=
  addf (shapeCast S3200x256 (extractStridedSlice S1x3200x256 ![0, 0, 0] T slices_S2x3200x256_S1x3200x256_0_0_0)
          shapeCasts_S1x3200x256_S3200x256)
       (shapeCast S3200x256 (extractStridedSlice S1x3200x256 ![1, 0, 0] T slices_S2x3200x256_S1x3200x256_1_0_0)
          shapeCasts_S1x3200x256_S3200x256)

theorem tsum_apply (T : FVec Ideal S2x3200x256 .f32) (s : Fin 3200) (q : Fin 256) :
    tsum T (ix2 s q) = T (ix3 0 s q) + T (ix3 1 s q) :=
  congrArg₂ (· + ·) (half_apply 0 (by decide) T _ _ s q) (half_apply 1 (by decide) T _ _ s q)

/-- What the twelve operations leave in the last buffer they write, as a function of the table: each batch's hundred
    rows of the halves' sum added up, repeated over the batch's rows, minus the halves' sum. -/
def dtabOf (T : FVec Ideal S2x3200x256 .f32) : FVec Ideal S3200x256 .bf16 :=
  truncf .bf16
    (subf
      (shapeCast S3200x256
        (broadcastInDim S32x100x256 ![0, 2] bcast_S32x256_S32x100x256_0_2
          (Host.reduceAdd (F := Ideal) (shapeCast S32x100x256 (tsum T) shapeCasts_S3200x256_S32x100x256)
            (constant (F := Ideal) S_ .f32 0x00000000#32) reducesTo_S32x100x256_S32x256_d1 h_S_))
        shapeCasts_S32x100x256_S3200x256)
      (tsum T))
    bitsLt_bf16_f32

theorem dtabOf_apply (T : FVec Ideal S2x3200x256 .f32) (s : Fin 3200) (q : Fin 256) :
    (dtabOf T (ix2 s q) : EReal)
      = (∑ l : Fin 100, (T (ix3 0 (⟨(s.val / 100) * 100 + l.val, by omega⟩ : Fin 3200) q)
                          + T (ix3 1 (⟨(s.val / 100) * 100 + l.val, by omega⟩ : Fin 3200) q)))
        - (T (ix3 0 s q) + T (ix3 1 s q)) := by
  show shapeCast S3200x256
        (broadcastInDim S32x100x256 ![0, 2] bcast_S32x256_S32x100x256_0_2
          (Host.reduceAdd (F := Ideal) (shapeCast S32x100x256 (tsum T) shapeCasts_S3200x256_S32x100x256)
            (constant (F := Ideal) S_ .f32 0x00000000#32) reducesTo_S32x100x256_S32x256_d1 h_S_))
        shapeCasts_S32x100x256_S3200x256 (ix2 s q) - tsum T (ix2 s q) = _
  refine congrArg₂ (· - ·) ?_ (tsum_apply T s q)
  refine (flat_apply _ _ s q).trans ?_
  refine (spread_apply _ _ _ _ q).trans ?_
  refine (batchSum_apply _ _ _ _ q).trans ?_
  refine Finset.sum_congr rfl fun l _ => ?_
  refine (split_apply _ _ _ l q).trans ?_
  exact tsum_apply T _ q

end Table

/-- The last buffer the twelve operations write holds that function of region 0's table. -/
theorem V8_v38_eq : V8 m ρ c main_v38 = dtabOf (V7 m ρ c main_v27_1) := by
  show StableHlo.after hostOps1 (W7 m ρ c) (Proc.devRef .tc main_v38) = _
  after_results
  rfl

/-- The table region 1 gathers from, over region 0's table `T` (2 x 3200 x 256): the batch total of the two halves'
    sum, minus the two halves' sum at the key. -/
theorem V8_v38 (T : FVec Ideal S2x3200x256 .f32) (hT : V7 m ρ c main_v27_1 = T) (s : Fin 3200) (q : Fin 256) :
    (V8 m ρ c main_v38 (ix2 s q) : EReal)
      = (∑ l : Fin 100, (T (ix3 0 (⟨(s.val / 100) * 100 + l.val, by omega⟩ : Fin 3200) q)
                          + T (ix3 1 (⟨(s.val / 100) * 100 + l.val, by omega⟩ : Fin 3200) q)))
        - (T (ix3 0 s q) + T (ix3 1 s q)) := by
  subst hT
  exact (congrFun (V8_v38_eq m ρ c) (ix2 s q)).trans (dtabOf_apply _ s q)

end Cert.HostMid

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.LibMatmulSameAxis.lean ====
/-
  Two matrix products that contract the SAME axis of both operands, read at an index at the ideal instance, for ANY
  dimension record with the given fields: `[a, k] × [b, k] → [a, b]` with axis 1 of both contracted (rows against rows,
  `x · Wᵀ`): `matmul_rows_zero_apply`; and `[k, a] × [k, b] → [a, b]` with axis 0 of both contracted (columns against
  columns, `Aᵀ · B`): `matmul_cols_zero_apply`.  Each is the product into a zero accumulator at `ix2 p q` as a plain sum
  over `j : Fin k`.  Imports only the library.
-/
import Idealize.ShloMosaic.PureOps.Ideal.Laws
import Idealize.ShloMosaic.Lib.ValueIdx
import Mathlib.Algebra.BigOperators.Fin

noncomputable section

namespace Cert.Lib.MatmulSameAxis

open Idealize.ShloMosaic Idealize.ShloMosaic.ValueIdx
open scoped BigOperators

/-! ## Two products that contract the same axis of both operands

A product into a zero accumulator is the sum, over the one-coordinate contraction index, of the operands' products at the
indices the dimension numbers give.  The sum is re-indexed through its one coordinate, and each operand index is
identified axis by axis: its free axis from the result index, its contracted axis from the contraction coordinate. -/

/-- Dimension numbers of `[a, k] × [b, k] → [a, b]`: axis 1 of both operands contracted (rows against rows). -/
abbrev dimsRows (a k b : ℕ) (wf : DotDims.WF ⟨2, ![a, k]⟩ ⟨2, ![b, k]⟩ ⟨2, ![a, b]⟩ [1] [1] [0] [0] [] []) :
    DotDims ⟨2, ![a, k]⟩ ⟨2, ![b, k]⟩ ⟨2, ![a, b]⟩ where
  lhsContracting := [1]
  rhsContracting := [1]
  lhsNonContracting := [0]
  rhsNonContracting := [0]
  lhsBatch := []
  rhsBatch := []
  wf := wf

/-- Dimension numbers of `[k, a] × [k, b] → [a, b]`: axis 0 of both operands contracted (columns against columns). -/
abbrev dimsCols (a k b : ℕ) (wf : DotDims.WF ⟨2, ![k, a]⟩ ⟨2, ![k, b]⟩ ⟨2, ![a, b]⟩ [0] [0] [1] [1] [] []) :
    DotDims ⟨2, ![k, a]⟩ ⟨2, ![k, b]⟩ ⟨2, ![a, b]⟩ where
  lhsContracting := [0]
  rhsContracting := [0]
  lhsNonContracting := [1]
  rhsNonContracting := [1]
  lhsBatch := []
  rhsBatch := []
  wf := wf

section Rows
variable {a k b : ℕ} (wf : DotDims.WF ⟨2, ![a, k]⟩ ⟨2, ![b, k]⟩ ⟨2, ![a, b]⟩ [1] [1] [0] [0] [] [])

/-- The left operand's row is the result's row. -/
theorem rows_lhs_0 (j : (⟨2, ![a, b]⟩ : Shape).Idx) (c : (dimsRows a k b wf).contr.Idx) :
    ((dimsRows a k b wf).lhsIdx j c 0).val = (j 0).val := by
  unfold DotDims.lhsIdx
  rw [dif_neg (show ¬(0 : Fin 2) ∈ (dimsRows a k b wf).lhsBatch from List.not_mem_nil),
    dif_pos (show (0 : Fin 2) ∈ (dimsRows a k b wf).lhsNonContracting from List.mem_singleton.mpr rfl)]
  rfl

/-- The left operand's column is the contraction coordinate. -/
theorem rows_lhs_1 (j : (⟨2, ![a, b]⟩ : Shape).Idx) (c : (dimsRows a k b wf).contr.Idx) :
    ((dimsRows a k b wf).lhsIdx j c 1).val = (c ⟨0, Nat.one_pos⟩).val :=
  (dimsRows a k b wf).lhsIdx_val_of_single rfl j c

/-- The right operand's row is the result's column. -/
theorem rows_rhs_0 (j : (⟨2, ![a, b]⟩ : Shape).Idx) (c : (dimsRows a k b wf).contr.Idx) :
    ((dimsRows a k b wf).rhsIdx j c 0).val = (j 1).val := by
  unfold DotDims.rhsIdx
  rw [dif_neg (show ¬(0 : Fin 2) ∈ (dimsRows a k b wf).rhsBatch from List.not_mem_nil),
    dif_pos (show (0 : Fin 2) ∈ (dimsRows a k b wf).rhsNonContracting from List.mem_singleton.mpr rfl)]
  rfl

/-- The right operand's column is the contraction coordinate. -/
theorem rows_rhs_1 (j : (⟨2, ![a, b]⟩ : Shape).Idx) (c : (dimsRows a k b wf).contr.Idx) :
    ((dimsRows a k b wf).rhsIdx j c 1).val = (c ⟨0, Nat.one_pos⟩).val :=
  (dimsRows a k b wf).rhsIdx_val_of_single rfl j c

/-- The contraction sum at `(p, q)`: row `p` of the left operand against row `q` of the right. -/
theorem contr_sum_rows (lhs : (⟨2, ![a, k]⟩ : Shape).Idx → EReal) (rhs : (⟨2, ![b, k]⟩ : Shape).Idx → EReal)
    (p : Fin a) (q : Fin b) :
    (∑ c : (dimsRows a k b wf).contr.Idx,
        lhs ((dimsRows a k b wf).lhsIdx (ix2 p q) c) * rhs ((dimsRows a k b wf).rhsIdx (ix2 p q) c))
      = ∑ j : Fin k, lhs (ix2 p j) * rhs (ix2 q j) := by
  rw [← Equiv.sum_comp (contrEquiv1 (dimsRows a k b wf) k rfl rfl).symm]
  refine Finset.sum_congr rfl fun j _ => ?_
  have hk := contrEquiv1_symm_val (dimsRows a k b wf) k rfl rfl j
  have el : (dimsRows a k b wf).lhsIdx (ix2 p q) ((contrEquiv1 (dimsRows a k b wf) k rfl rfl).symm j) = ix2 p j :=
    funext fun ax => Fin.ext (by
      match ax with
      | ⟨0, _⟩ => exact rows_lhs_0 wf _ _
      | ⟨1, _⟩ => exact (rows_lhs_1 wf _ _).trans hk)
  have er : (dimsRows a k b wf).rhsIdx (ix2 p q) ((contrEquiv1 (dimsRows a k b wf) k rfl rfl).symm j) = ix2 q j :=
    funext fun ax => Fin.ext (by
      match ax with
      | ⟨0, _⟩ => exact rows_rhs_0 wf _ _
      | ⟨1, _⟩ => exact (rows_rhs_1 wf _ _).trans hk)
  rw [el, er]

end Rows

section Cols
variable {a k b : ℕ} (wf : DotDims.WF ⟨2, ![k, a]⟩ ⟨2, ![k, b]⟩ ⟨2, ![a, b]⟩ [0] [0] [1] [1] [] [])

/-- The left operand's row is the contraction coordinate. -/
theorem cols_lhs_0 (j : (⟨2, ![a, b]⟩ : Shape).Idx) (c : (dimsCols a k b wf).contr.Idx) :
    ((dimsCols a k b wf).lhsIdx j c 0).val = (c ⟨0, Nat.one_pos⟩).val :=
  (dimsCols a k b wf).lhsIdx_val_of_single rfl j c

/-- The left operand's column is the result's row. -/
theorem cols_lhs_1 (j : (⟨2, ![a, b]⟩ : Shape).Idx) (c : (dimsCols a k b wf).contr.Idx) :
    ((dimsCols a k b wf).lhsIdx j c 1).val = (j 0).val := by
  unfold DotDims.lhsIdx
  rw [dif_neg (show ¬(1 : Fin 2) ∈ (dimsCols a k b wf).lhsBatch from List.not_mem_nil),
    dif_pos (show (1 : Fin 2) ∈ (dimsCols a k b wf).lhsNonContracting from List.mem_singleton.mpr rfl)]
  rfl

/-- The right operand's row is the contraction coordinate. -/
theorem cols_rhs_0 (j : (⟨2, ![a, b]⟩ : Shape).Idx) (c : (dimsCols a k b wf).contr.Idx) :
    ((dimsCols a k b wf).rhsIdx j c 0).val = (c ⟨0, Nat.one_pos⟩).val :=
  (dimsCols a k b wf).rhsIdx_val_of_single rfl j c

/-- The right operand's column is the result's column. -/
theorem cols_rhs_1 (j : (⟨2, ![a, b]⟩ : Shape).Idx) (c : (dimsCols a k b wf).contr.Idx) :
    ((dimsCols a k b wf).rhsIdx j c 1).val = (j 1).val := by
  unfold DotDims.rhsIdx
  rw [dif_neg (show ¬(1 : Fin 2) ∈ (dimsCols a k b wf).rhsBatch from List.not_mem_nil),
    dif_pos (show (1 : Fin 2) ∈ (dimsCols a k b wf).rhsNonContracting from List.mem_singleton.mpr rfl)]
  rfl

/-- The contraction sum at `(p, q)`: column `p` of the left operand against column `q` of the right. -/
theorem contr_sum_cols (lhs : (⟨2, ![k, a]⟩ : Shape).Idx → EReal) (rhs : (⟨2, ![k, b]⟩ : Shape).Idx → EReal)
    (p : Fin a) (q : Fin b) :
    (∑ c : (dimsCols a k b wf).contr.Idx,
        lhs ((dimsCols a k b wf).lhsIdx (ix2 p q) c) * rhs ((dimsCols a k b wf).rhsIdx (ix2 p q) c))
      = ∑ j : Fin k, lhs (ix2 j p) * rhs (ix2 j q) := by
  rw [← Equiv.sum_comp (contrEquiv1 (dimsCols a k b wf) k rfl rfl).symm]
  refine Finset.sum_congr rfl fun j _ => ?_
  have hk := contrEquiv1_symm_val (dimsCols a k b wf) k rfl rfl j
  have el : (dimsCols a k b wf).lhsIdx (ix2 p q) ((contrEquiv1 (dimsCols a k b wf) k rfl rfl).symm j) = ix2 j p :=
    funext fun ax => Fin.ext (by
      match ax with
      | ⟨0, _⟩ => exact (cols_lhs_0 wf _ _).trans hk
      | ⟨1, _⟩ => exact cols_lhs_1 wf _ _)
  have er : (dimsCols a k b wf).rhsIdx (ix2 p q) ((contrEquiv1 (dimsCols a k b wf) k rfl rfl).symm j) = ix2 j q :=
    funext fun ax => Fin.ext (by
      match ax with
      | ⟨0, _⟩ => exact (cols_rhs_0 wf _ _).trans hk
      | ⟨1, _⟩ => exact cols_rhs_1 wf _ _)
  rw [el, er]

end Cols

/-- The product into a zero accumulator at `(p, q)`, rows against rows: the sum over `j < k` of
    `lhs (p, j) · rhs (q, j)`. -/
theorem matmul_rows_zero_apply {a k b : ℕ} {φ₁ φ₂ : FTy} (d : DotDims ⟨2, ![a, k]⟩ ⟨2, ![b, k]⟩ ⟨2, ![a, b]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![a, k]⟩ φ₁) (rhs : FVec Ideal ⟨2, ![b, k]⟩ φ₂)
    (p : Fin a) (q : Fin b) :
    FloatOps.matmul d prec lhs rhs (constant ⟨2, ![a, b]⟩ .f32 0x00000000#32) (ix2 p q)
      = ∑ j : Fin k, lhs (ix2 p j) * rhs (ix2 q j) := by
  obtain ⟨lc, rc, ln, rn, lb, rb, wf⟩ := d
  simp only at h1 h2 h3 h4 h5 h6
  subst h1 h2 h3 h4 h5 h6
  rw [Ideal.matmul_constant_zero_apply]
  exact contr_sum_rows wf lhs rhs p q

/-- The product into a zero accumulator at `(p, q)`, columns against columns: the sum over `j < k` of
    `lhs (j, p) · rhs (j, q)`. -/
theorem matmul_cols_zero_apply {a k b : ℕ} {φ₁ φ₂ : FTy} (d : DotDims ⟨2, ![k, a]⟩ ⟨2, ![k, b]⟩ ⟨2, ![a, b]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (lhs : FVec Ideal ⟨2, ![k, a]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 j p) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_cols wf lhs rhs p q

end Cert.Lib.MatmulSameAxis

end
-- ==== Proof.Pay.lean ====
/-
  The two kernel bodies' stored values read at an index, at the ideal instance, over variables of the literal block types.
  Region 0 stores a block of `x W1ᵀ + b1` and adds to its table the one-hot rows' transpose times the block of `x W2ᵀ`;
  region 1 stores `out1 + (one-hot · table) * factor + b2`.  A one-hot entry is `Spec.oh`: the row's key word against the
  column's number.
-/
import proofs.«421069_j24412594110965_3_alg».proof.Proof.Gen.KernelIdeal.Skeleton
import proofs.«421069_j24412594110965_3_alg».proof.Proof.Spec
import proofs.«421069_j24412594110965_3_alg».proof.Proof.LibPlainMatmul
import proofs.«421069_j24412594110965_3_alg».proof.Proof.LibColumn
import proofs.«421069_j24412594110965_3_alg».proof.Proof.LibMatmulSameAxis
import Idealize.ShloMosaic.PureOps.Ideal.Laws
import Idealize.ShloMosaic.Lib.Pipeline.Value
import Idealize.ShloMosaic.Lib.ValueLayout

noncomputable section

namespace Cert.Pay

open Idealize.ShloMosaic Idealize.ShloMosaic.TcCoe Idealize.ShloMosaic.ValueIdx
open Idealize.SL.Sem
open Cert.KernelIdeal Cert.KernelIdeal.Gen Cert.Lib.MatmulSameAxis
open scoped BigOperators

/-! ## A one-hot entry

The comparison of two words gives one bit; widened to 32 bits and read signed it is the integer 1 or 0, and the exact
conversion to a float keeps it. -/

/-- The bit of a word equality, widened to 32 bits and read signed, is 1 or 0. -/
theorem cmpi_eq_toInt (x y : BitVec 32) :
    ((IntOp.cmpi .eq x y).setWidth 32).toInt = if x = y then 1 else 0 := by
  show ((BitVec.ofBool (x == y)).setWidth 32).toInt = _
  by_cases h : x = y
  · rw [if_pos h, beq_iff_eq.mpr h]; decide
  · rw [if_neg h, beq_eq_false_iff_ne.mpr h]; decide

/-- The one-hot block at `(r, s)`: the key column of row `r`, spread over the 3200 columns, compared with the column
    numbers, as a float: `Spec.oh` of row `r`'s key at `s`. -/
theorem onehot_apply (seg : IVec S512x1 32) (hb : S512x1.Broadcasts S512x3200) (hi : S512x3200.Iotas .tc 32 [1])
    (h1 : 1 < 32) (h2 : FTy.bits .bf16 < FTy.bits .f32) (r : Fin 512) (s : Fin 3200) :
    (truncf .bf16 (sitofp (F := Ideal) .f32
        (extui 32 (cmpi .eq (broadcastTo S512x3200 seg hb) (iota .tc S512x3200 32 [1] hi)) h1)) h2
      : FVec Ideal S512x3200 .bf16) (ix2 r s) = Spec.oh (seg (ix2 r 0)) s := by
  show ((((IntOp.cmpi .eq (broadcastTo S512x3200 seg hb (ix2 r s))
      (iota .tc S512x3200 32 [1] hi (ix2 r s))).setWidth 32).toInt : ℝ) : EReal) = _
  rw [Cert.Lib.Column.broadcastTo_a1_ab_apply, iota_single_apply, cmpi_eq_toInt]
  show (((if seg (ix2 r 0) = BitVec.ofNat 32 s.val then (1 : ℤ) else 0 : ℤ) : ℝ) : EReal)
    = if seg (ix2 r 0) = BitVec.ofNat 32 s.val then 1 else 0
  by_cases h : seg (ix2 r 0) = BitVec.ofNat 32 s.val
  · rw [if_pos h, if_pos h, Int.cast_one, EReal.coe_one]
  · rw [if_neg h, if_neg h, Int.cast_zero, EReal.coe_zero]

/-! ## The payloads -/

/-- The zero block region 0 resets its table with. -/
theorem k0_pay1_apply (j : S1x3200x256.Idx) : (k0_pay1 (F := Ideal) j : EReal) = 0 := by
  show Ideal.ofBits .f32 0x00000000#32 = 0
  exact Ideal.ofBits_zero_f32

/-- A block of `x`, its format changed, against a weight block, into a zero accumulator, at `(r, q)`: row `r` of the
    block against row `q` of the weights. -/
theorem proj_apply (v3 : FVec Ideal S512x2048 .f32) (w : FVec Ideal S256x2048 .bf16) (r : Fin 512) (q : Fin 256) :
    (matmul dot_S512x2048_S256x2048_S512x256_1_1_0_0_n_n none (k0_pay2 (F := Ideal) v3)
        (shapeCast S256x2048 w shapeCasts_S256x2048_S256x2048) (constant S512x256 .f32 0x00000000#32) (ix2 r q) : EReal)
      = ∑ d : Fin 2048, v3 (ix2 r d) * w (ix2 q d) := by
  refine (matmul_rows_zero_apply dot_S512x2048_S256x2048_S512x256_1_1_0_0_n_n rfl rfl rfl rfl rfl rfl none _ _ r q).trans ?_
  rw [shapeCast_self]
  rfl

/-- Region 0's first output block: row `r` of the `x` block against row `q` of `W1`, plus the bias. -/
theorem k0_pay3_apply (v3 : FVec Ideal S512x2048 .f32) (v7 : FVec Ideal S256x2048 .bf16) (v10 : FVec Ideal S1x256 .f32)
    (r : Fin 512) (q : Fin 256) :
    (k0_pay3 (F := Ideal) v3 v7 v10 (ix2 r q) : EReal)
      = (∑ d : Fin 2048, v3 (ix2 r d) * v7 (ix2 q d)) + v10 (ix2 0 q) := by
  unfold k0_pay3
  refine congrArg₂ (· + ·) (proj_apply v3 v7 r q) ?_
  refine (broadcastTo_1b_ab_apply _ _ r q).trans ?_
  rw [shapeCast_self]

/-- Region 0's table update: what the table held, plus over the block's 512 rows the one-hot entry of the row's key at
    `s` times the row of the `x` block against row `q` of `W2`. -/
theorem k0_pay4_apply (v3 : FVec Ideal S512x2048 .f32) (v5 : IVec S512x1 32) (v15 : FVec Ideal S256x2048 .bf16)
    (v26 : FVec Ideal S1x3200x256 .f32) (s : Fin 3200) (q : Fin 256) :
    (k0_pay4 (F := Ideal) v3 v5 v15 v26 (ix3 0 s q) : EReal)
      = v26 (ix3 0 s q)
        + ∑ r : Fin 512, Spec.oh (v5 (ix2 r 0)) s * (∑ d : Fin 2048, v3 (ix2 r d) * v15 (ix2 q d)) := by
  unfold k0_pay4
  refine (shapeCast_ab_1ab_apply _ _ 0 s q).trans ?_
  refine congrArg₂ (· + ·) (shapeCast_1ab_ab_apply v26 _ s q) ?_
  refine (matmul_cols_zero_apply dot_S512x3200_S512x256_S3200x256_0_0_1_1_n_n rfl rfl rfl rfl rfl rfl none _ _ s q).trans ?_
  refine Finset.sum_congr rfl fun r _ => ?_
  refine congrArg₂ (· * ·) ((onehot_apply _ _ _ _ _ r s).trans ?_) (proj_apply v3 v15 r q)
  rw [shapeCast_self]

/-- Region 1's output block. -/
theorem k1_pay1_apply (v0 : IVec S512x1 32) (v2 : FVec Ideal S512x1 .f32) (v10 : FVec Ideal S3200x256 .bf16)
    (v15 : FVec Ideal S512x256 .f32) (v18 : FVec Ideal S1x256 .f32) (r : Fin 512) (q : Fin 256) :
    (k1_pay1 (F := Ideal) v0 v2 v10 v15 v18 (ix2 r q) : EReal)
      = (v15 (ix2 r q) + (∑ s : Fin 3200, Spec.oh (v0 (ix2 r 0)) s * v10 (ix2 s q)) * v2 (ix2 r 0)) + v18 (ix2 0 q) := by
  unfold k1_pay1
  refine congrArg₂ (· + ·) (congrArg₂ (· + ·) ?_ (congrArg₂ (· * ·) ?_ ?_)) ?_
  · rw [shapeCast_self]
  · refine (Cert.Lib.PlainMatmul.matmul_zero_apply dot_S512x3200_S3200x256_S512x256_1_0_0_1_n_n rfl rfl rfl rfl rfl rfl
      none _ _ r q).trans ?_
    refine Finset.sum_congr rfl fun s _ => ?_
    refine congrArg₂ (· * ·) ((onehot_apply _ _ _ _ _ r s).trans ?_) ?_
    · rw [shapeCast_self]
    · rw [shapeCast_self]
  · refine (Cert.Lib.Column.broadcastTo_a1_ab_apply _ _ r q).trans ?_
    rw [shapeCast_self]
  · refine (broadcastTo_1b_ab_apply _ _ r q).trans ?_
    rw [shapeCast_self]

end Cert.Pay

end
-- ==== Proof.Reg1Value.lean ====
/-
  Region 1's output array after the region, as one function of the arrays the region is entered with: 32 blocks of 512
  rows, each row `out1 + (one-hot of the row's key · table) * the row's factor + b2`.
-/
import proofs.«421069_j24412594110965_3_alg».proof.Proof.Gen.KernelIdeal.Frame
import proofs.«421069_j24412594110965_3_alg».proof.Proof.Pay
import Idealize.ShloMosaic.Lib.Pipeline.Value

set_option maxRecDepth 16384

noncomputable section

namespace Cert.Reg1

open Idealize.ShloMosaic Idealize.ShloMosaic.TcCoe Idealize.ShloMosaic.ValueIdx
open Idealize.SL.Sem
open Cert.KernelIdeal Cert.KernelIdeal.Gen
open scoped BigOperators

/-- Region 1's result from its five input arrays. -/
def K1 (o : FVec Ideal S16384x256 .f32) (sg : IVec S16384x1 32) (iv : FVec Ideal S16384x1 .f32)
    (dt : FVec Ideal S3200x256 .bf16) (bb : FVec Ideal S1x256 .f32) : FVec Ideal S16384x256 .f32 := fun j =>
  (o (ix2 (j 0) (j 1)) + (∑ s : Fin 3200, Spec.oh (sg (ix2 (j 0) 0)) s * dt (ix2 s (j 1))) * iv (ix2 (j 0) 0))
    + bb (ix2 0 (j 1))

/-- The zero offsets of a whole block, in the two spellings. -/
theorem zero_off : (![0, 0] : Fin 2 → Nat) = fun _ => 0 := funext fun a => by fin_cases a <;> rfl

/-- The block indices of the six windows at point `t`: the three row-blocked inputs move with the output, whose block
    index is `(t, 0)`; the table and the bias are whole arrays at `(0, 0)`. -/
theorem block_indices : ∀ t : Fin cfg1.N,
    win1_0.index t (0 : Fin 2) = win1_5.index t (0 : Fin 2) ∧ win1_0.index t (1 : Fin 2) = win1_5.index t (1 : Fin 2)
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's stored value at row `r`, column `q` of the block is the region's result at an index `i` of the array,
    whenever the five blocks hold, at the entries the value reads, what the five arrays hold at `i`'s row and column. -/
theorem stored_eq_K1 (x0 : FVec Ideal S512x256 .f32) (x1 : IVec S512x1 32) (x2 : FVec Ideal S512x1 .f32)
    (x3 : FVec Ideal S3200x256 .bf16) (x4 : FVec Ideal S1x256 .f32)
    (o : FVec Ideal S16384x256 .f32) (sg : IVec S16384x1 32) (iv : FVec Ideal S16384x1 .f32)
    (dt : FVec Ideal S3200x256 .bf16) (bb : FVec Ideal S1x256 .f32)
    (r : Fin 512) (q : Fin 256) (i : S16384x256.Idx)
    (h0 : x0 (ix2 r q) = o (ix2 (i 0) (i 1)))
    (h1 : x1 (ix2 r 0) = sg (ix2 (i 0) 0))
    (h2 : x2 (ix2 r 0) = iv (ix2 (i 0) 0))
    (h3 : ∀ s : Fin 3200, x3 (ix2 s q) = dt (ix2 s (i 1)))
    (h4 : x4 (ix2 0 q) = bb (ix2 0 (i 1))) :
    k1_pay1 (F := Ideal) x1 x2 x3 x0 x4 (ix2 r q) = K1 o sg iv dt bb i := by
  refine (Cert.Pay.k1_pay1_apply x1 x2 x3 x0 x4 r q).trans ?_
  show (x0 (ix2 r q) + (∑ s : Fin 3200, Spec.oh (x1 (ix2 r 0)) s * x3 (ix2 s q)) * x2 (ix2 r 0)) + x4 (ix2 0 q)
    = (o (ix2 (i 0) (i 1)) + (∑ s : Fin 3200, Spec.oh (sg (ix2 (i 0) 0)) s * dt (ix2 s (i 1))) * iv (ix2 (i 0) 0))
      + bb (ix2 0 (i 1))
  rw [h0, h1, h2, h4]
  simp only [h3]

variable (V : (c : Dev nD) → (b : Ref sig .tc) → Buf (Elt Ideal) ((c : Thread nD τ).loc b))

/-- The five input blocks at point `t` and the five arrays, each under its literal type. -/
abbrev oblk (c : Dev nD) (t : Fin cfg1.N) : FVec Ideal S512x256 .f32 := iblk1 V c 0 t
abbrev sblk (c : Dev nD) (t : Fin cfg1.N) : IVec S512x1 32 := iblk1 V c 1 t
abbrev vblk (c : Dev nD) (t : Fin cfg1.N) : FVec Ideal S512x1 .f32 := iblk1 V c 2 t
abbrev dblk (c : Dev nD) (t : Fin cfg1.N) : FVec Ideal S3200x256 .bf16 := iblk1 V c 3 t
abbrev bblk (c : Dev nD) (t : Fin cfg1.N) : FVec Ideal S1x256 .f32 := iblk1 V c 4 t
abbrev oarr (c : Dev nD) : FVec Ideal S16384x256 .f32 := V c main_v27_0
abbrev sarr (c : Dev nD) : IVec S16384x1 32 := V c main_v3
abbrev varr (c : Dev nD) : FVec Ideal S16384x1 .f32 := V c main_v22
abbrev darr (c : Dev nD) : FVec Ideal S3200x256 .bf16 := V c main_v38
abbrev barr (c : Dev nD) : FVec Ideal S1x256 .f32 := V c main_v26

/-- Row `r`, column `q` of the `out1` block at point `t` is the array's entry 512 t + r, q. -/
theorem oblk_apply (c : Dev nD) (t : Fin cfg1.N) (r : Fin 512) (q : Fin 256) (i : S16384x256.Idx)
    (hi0 : (i 0).val = t.val * 512 + r.val) (hi1 : (i 1).val = q.val) :
    oblk V c t (ix2 r q) = oarr V c (ix2 (i 0) (i 1)) := by
  obtain ⟨e00, e01, -, -, -, -, -, -, -, -, e50, e51⟩ := block_indices t
  show V c main_v27_0 (((cfg1.win 0).blk t).view.emb (ix2 r q)) = V c main_v27_0 (ix2 (i 0) (i 1))
  congr 1
  funext a; apply Fin.ext
  match a with
  | ⟨0, _⟩ => show win1_0.index t (0 : Fin 2) * 512 + 1 * r.val = (i 0).val; omega
  | ⟨1, _⟩ => show win1_0.index t (1 : Fin 2) * 256 + 1 * q.val = (i 1).val; omega

/-- Row `r` of the key block at point `t` is the key array's row 512 t + r. -/
theorem sblk_apply (c : Dev nD) (t : Fin cfg1.N) (r : Fin 512) (i : S16384x256.Idx)
    (hi0 : (i 0).val = t.val * 512 + r.val) :
    sblk V c t (ix2 r 0) = sarr V c (ix2 (i 0) 0) := by
  obtain ⟨-, -, e10, e11, -, -, -, -, -, -, e50, e51⟩ := block_indices t
  show V c main_v3 (((cfg1.win 1).blk t).view.emb (ix2 r 0)) = V c main_v3 (ix2 (i 0) 0)
  congr 1
  funext a; apply Fin.ext
  match a with
  | ⟨0, _⟩ => show win1_1.index t (0 : Fin 2) * 512 + 1 * r.val = (i 0).val; omega
  | ⟨1, _⟩ => show win1_1.index t (1 : Fin 2) * 1 + 1 * 0 = 0; omega

/-- Row `r` of the factor block at point `t` is the factor array's row 512 t + r. -/
theorem vblk_apply (c : Dev nD) (t : Fin cfg1.N) (r : Fin 512) (i : S16384x256.Idx)
    (hi0 : (i 0).val = t.val * 512 + r.val) :
    vblk V c t (ix2 r 0) = varr V c (ix2 (i 0) 0) := by
  obtain ⟨-, -, -, -, e20, e21, -, -, -, -, e50, e51⟩ := block_indices t
  show V c main_v22 (((cfg1.win 2).blk t).view.emb (ix2 r 0)) = V c main_v22 (ix2 (i 0) 0)
  congr 1
  funext a; apply Fin.ext
  match a with
  | ⟨0, _⟩ => show win1_2.index t (0 : Fin 2) * 512 + 1 * r.val = (i 0).val; omega
  | ⟨1, _⟩ => show win1_2.index t (1 : Fin 2) * 1 + 1 * 0 = 0; omega

/-- The table's block at every point is the whole table. -/
theorem dblk_apply (c : Dev nD) (t : Fin cfg1.N) (s : Fin 3200) (q : Fin 256) (i : S16384x256.Idx)
    (hi1 : (i 1).val = q.val) :
    dblk V c t (ix2 s q) = darr V c (ix2 s (i 1)) := by
  obtain ⟨-, -, -, -, -, -, e30, e31, -, -, -, -⟩ := block_indices t
  show V c main_v38 (((cfg1.win 3).blk t).view.emb (ix2 s q)) = V c main_v38 (ix2 s (i 1))
  congr 1
  funext a; apply Fin.ext
  match a with
  | ⟨0, _⟩ => show win1_3.index t (0 : Fin 2) * 3200 + 1 * s.val = s.val; omega
  | ⟨1, _⟩ => show win1_3.index t (1 : Fin 2) * 256 + 1 * q.val = (i 1).val; omega

/-- The bias's block at every point is the whole bias row. -/
theorem bblk_apply (c : Dev nD) (t : Fin cfg1.N) (q : Fin 256) (i : S16384x256.Idx)
    (hi1 : (i 1).val = q.val) :
    bblk V c t (ix2 0 q) = barr V c (ix2 0 (i 1)) := by
  obtain ⟨-, -, -, -, -, -, -, -, e40, e41, -, -⟩ := block_indices t
  show V c main_v26 (((cfg1.win 4).blk t).view.emb (ix2 0 q)) = V c main_v26 (ix2 0 (i 1))
  congr 1
  funext a; apply Fin.ext
  match a with
  | ⟨0, _⟩ => show win1_4.index t (0 : Fin 2) * 1 + 1 * 0 = 0; omega
  | ⟨1, _⟩ => show win1_4.index t (1 : Fin 2) * 256 + 1 * q.val = (i 1).val; omega

/-- What point `t` writes back is block `t` of the region's result: rows 512 t … 512 t + 511, all 256 columns. -/
theorem flushed_eq (c : Dev nD) (t : Fin cfg1.N) :
    (dat1 V c).flushed 5 t = ((cfg1.win 5).blk t).view.read (Elt Ideal)
      (K1 (V c main_v27_0) (V c main_v3) (V c main_v22) (V c main_v38) (V c main_v26)) := by
  show (cfg1.win 5).cut (grid1.coords t) ((dat1 V c).after 5 t) = _
  rw [after1_5]
  unfold out1_5
  rw [View.canon_unit_zero zero_off]
  simp only [View.ld_unit_zero (S := S512x1) zero_off, View.ld_unit_zero (S := S3200x256) zero_off,
    View.ld_unit_zero (S := S512x256) zero_off, View.ld_unit_zero (S := S1x256) zero_off]
  obtain ⟨-, -, -, -, -, -, -, -, -, -, e50, e51⟩ := block_indices t
  refine funext fun (y : S512x256.Idx) => ?_
  obtain ⟨r, q, rfl⟩ : ∃ (r : Fin 512) (q : Fin 256), y = ix2 r q := ⟨y 0, y 1, eq_ix2 y⟩
  show k1_pay1 (F := Ideal) (sblk V c t) (vblk V c t) (dblk V c t) (oblk V c t) (bblk V c t) (ix2 r q)
    = K1 (oarr V c) (sarr V c) (varr V c) (darr V c) (barr V c) (((cfg1.win 5).blk t).view.emb (ix2 r q))
  have hi0 : ((((cfg1.win 5).blk t).view.emb (ix2 r q) : S16384x256.Idx) 0).val = t.val * 512 + r.val := by
    show win1_5.index t (0 : Fin 2) * 512 + 1 * r.val = t.val * 512 + r.val; omega
  have hi1 : ((((cfg1.win 5).blk t).view.emb (ix2 r q) : S16384x256.Idx) 1).val = q.val := by
    show win1_5.index t (1 : Fin 2) * 256 + 1 * q.val = q.val; omega
  exact stored_eq_K1 (oblk V c t) (sblk V c t) (vblk V c t) (dblk V c t) (bblk V c t)
    (oarr V c) (sarr V c) (varr V c) (darr V c) (barr V c) r q (((cfg1.win 5).blk t).view.emb (ix2 r q))
    (oblk_apply V c t r q _ hi0 hi1) (sblk_apply V c t r _ hi0) (vblk_apply V c t r _ hi0)
    (fun s => dblk_apply V c t s q _ hi1) (bblk_apply V c t q _ hi1)

/-- An index of the array is in point `t`'s block iff each coordinate is in the block's range on its axis. -/
theorem mem_blk (t : Fin cfg1.N) (i : S16384x256.Idx) :
    i ∈ ((cfg1.win 5).blk t).view.set ↔ ∀ a : Fin 2, win1_5.index t a * S512x256.size a ≤ (i a).val
      ∧ (i a).val < win1_5.index t a * S512x256.size a + S512x256.size a := by
  show i ∈ ((View.whole main_v39).slice (win1_5.rect t)).set ↔ _
  rw [View.set_slice_whole, Rect.mem_set_unit]
  exact Iff.rfl

/-- Every index of the array is in the block of the point its row divided by 512 names. -/
theorem covered (i : S16384x256.Idx) :
    ∃ t : Fin cfg1.N, (cfg1.win 5).flush t = true ∧ i ∈ ((cfg1.win 5).blk t).view.set := by
  have hN : cfg1.N = 32 := N_1
  have hi0 : (i 0).val < 16384 := (i 0).isLt
  have hi1 : (i 1).val < 256 := (i 1).isLt
  obtain ⟨t, ht⟩ : ∃ t : Fin cfg1.N, t.val = (i 0).val / 512 := ⟨⟨(i 0).val / 512, by rw [hN]; omega⟩, rfl⟩
  obtain ⟨-, -, -, -, -, -, -, -, -, -, e50, e51⟩ := block_indices t
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 256 ≤ (i 1).val ∧ (i 1).val < win1_5.index t (1 : Fin 2) * 256 + 256; omega

/-- Region 1's output array after its 32 points is the region's result of the five arrays it is entered with: every
    point writes back its block of that one function, and the 32 blocks fill the array. -/
theorem final1 (c : Dev nD) :
    (dat1 V c).arrAt 5 cfg1.N = K1 (V c main_v27_0) (V c main_v3) (V c main_v22) (V c main_v38) (V c main_v26) :=
  (dat1 V c).arrAt_eq_of_cover 5 (K1 (V c main_v27_0) (V c main_v3) (V c main_v22) (V c main_v38) (V c main_v26))
    (fun t _ => flushed_eq V c t) covered

end Cert.Reg1

end
-- ==== Proof.LibTileSum.lean ====
/-
  Sums accumulated tile by tile.

  A range of `T * B` positions is cut into `T` tiles of `B` consecutive positions, tile `t` holding the positions
  `t * B + r`, `r < B`. In a commutative additive monoid this file proves:

  * `acc_eq_sum`, `acc_eq_add_sum` (and the forms bounded by a number of steps): an accumulator that starts from the
    first term (or from a start value plus the first term) and adds one term per step holds the sum of the terms so far;
  * `sum_tiles`, `sum_tiles_prefix`, `sum_tiles_fin'`, `sum_tiles_fin`, `sum_tiles_50_200`: summing tile by tile
    is summing over all positions, over ℕ and over `Fin`;
  * `tile_iff`, `sum_tile_indicator` and its `Fin` forms: a position `j < T * B` lies in exactly one tile, the tile
    `j / B`, so a value added in the tile that holds `j` is added once;
  * `sum_tiles_add_indicator` and its `Fin` forms: the two together.

  Only Mathlib is used.
-/
import Mathlib.Algebra.BigOperators.Group.Finset.Basic
import Mathlib.Algebra.BigOperators.Group.Finset.Piecewise
import Mathlib.Algebra.BigOperators.Fin

namespace Cert.TileSum

open Finset

variable {M : Type*} [AddCommMonoid M]

/-! ### The recursion solved -/

/-- An accumulator that starts at the first term and adds the next term at every step, for the steps below `T`,
holds the sum of the terms so far. -/
theorem acc_eq_sum_of_lt (T : ℕ) (acc term : ℕ → M) (h0 : acc 0 = term 0)
    (hs : ∀ t, t + 1 < T → acc (t + 1) = acc t + term (t + 1)) (t : ℕ) (ht : t < T) :
    acc t = ∑ s ∈ Finset.range (t + 1), term s := by
  induction t with
  | zero => rw [h0, Finset.sum_range_one]
  | succ t ih => rw [hs t ht, ih (Nat.lt_of_succ_lt ht), Finset.sum_range_succ _ (t + 1)]

/-- The same without a bound on the steps. -/
theorem acc_eq_sum (acc term : ℕ → M) (h0 : acc 0 = term 0)
    (hs : ∀ t, acc (t + 1) = acc t + term (t + 1)) (t : ℕ) :
    acc t = ∑ s ∈ Finset.range (t + 1), term s :=
  acc_eq_sum_of_lt (t + 1) acc term h0 (fun t _ => hs t) t (Nat.lt_succ_self t)

/-- The accumulator started from a value `z`: it holds `z` plus the sum of the terms so far. -/
theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

/-- The same without a bound on the steps. -/
theorem acc_eq_add_sum (z : M) (acc term : ℕ → M) (h0 : acc 0 = z + term 0)
    (hs : ∀ t, acc (t + 1) = acc t + term (t + 1)) (t : ℕ) :
    acc t = z + ∑ s ∈ Finset.range (t + 1), term s :=
  acc_eq_add_sum_of_lt (t + 1) z acc term h0 (fun t _ => hs t) t (Nat.lt_succ_self t)

/-! ### Tiles make the whole -/

/-- Position `r` of tile `t` lies under `T * B`. -/
theorem mulAdd_lt {T B : ℕ} (t : Fin T) (r : Fin B) : t.val * B + r.val < T * B :=
  calc t.val * B + r.val < t.val * B + B := Nat.add_lt_add_left r.2 _
    _ = (t.val + 1) * B := (Nat.add_one_mul _ _).symm
    _ ≤ T * B := Nat.mul_le_mul_right B (Nat.succ_le_of_lt t.2)

/-- Summing tile by tile is summing over all `T * B` positions. -/
theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

/-- The first `n + 1` tiles make the first `(n + 1) * B` positions. -/
theorem sum_tiles_prefix (n B : ℕ) (g : ℕ → M) :
    ∑ t ∈ Finset.range (n + 1), ∑ r ∈ Finset.range B, g (t * B + r)
      = ∑ i ∈ Finset.range ((n + 1) * B), g i :=
  sum_tiles (n + 1) B g

/-- Tiles over `Fin`, the position of row `r` of tile `t` given by any `idx t r` whose value is `t * B + r`. -/
theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN
  -- extend f to all of ℕ, by zero beyond T * B
  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

/-- Tiles over `Fin`, the position built as `t * B + r`. -/
theorem sum_tiles_fin (T B : ℕ) (f : Fin (T * B) → M) :
    ∑ t : Fin T, ∑ r : Fin B, f ⟨t.val * B + r.val, mulAdd_lt t r⟩ = ∑ i : Fin (T * B), f i :=
  sum_tiles_fin' T B (T * B) rfl f (fun t r => ⟨t.val * B + r.val, mulAdd_lt t r⟩) (fun _ _ => rfl)

/-- Fifty tiles of two hundred rows make ten thousand rows, the position written `200 * t + r`. -/
theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

/-! ### A position lies in exactly one tile -/

/-- Position `j` lies in tile `t` exactly when `t` is `j / B`. -/
theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

/-- A value added in the tile that holds `j` is added exactly once. -/
theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)
  -- only the tile j / B contributes
  refine (Finset.sum_eq_single_of_mem (j / B) hmem ?_).trans ?_
  · intro t _ hne
    exact if_neg fun h => hne ((tile_iff hB t j).1 h)
  · exact if_pos ((tile_iff hB (j / B) j).2 rfl)

/-- The same with the tiles indexed by `Fin T`. -/
theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

/-- Fifty tiles of two hundred rows: row `j` of ten thousand lies in exactly one tile. -/
theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

/-- In the tiling by two hundred, row `j` lies in tile `t` exactly when `t = j / 200`. -/
theorem tile_iff_200 (t j : ℕ) : (200 * t ≤ j ∧ j < 200 * t + 200) ↔ t = j / 200 := by
  omega

/-! ### The two together -/

/-- Tile sums plus a value added in the tile that holds `j`: the whole sum plus that value. -/
theorem sum_tiles_add_indicator (T B : ℕ) (g : ℕ → M) (u : M) (j : ℕ) (hj : j < T * B) :
    ∑ t ∈ Finset.range T, ((∑ r ∈ Finset.range B, g (t * B + r)) + (if t * B ≤ j ∧ j < t * B + B then u else 0))
      = (∑ i ∈ Finset.range (T * B), g i) + u := by
  rw [Finset.sum_add_distrib, sum_tiles, sum_tile_indicator T B u j hj]

/-- The same over `Fin`, the position of row `r` of tile `t` given by any `idx t r` whose value is `t * B + r`. -/
theorem sum_tiles_add_indicator_fin' (T B N : ℕ) (hN : N = T * B) (w : Fin N → M) (idx : Fin T → Fin B → Fin N)
    (hidx : ∀ t r, (idx t r).val = t.val * B + r.val) (u : M) (j : ℕ) (hj : j < N) :
    ∑ t : Fin T, ((∑ r : Fin B, w (idx t r)) + (if t.val * B ≤ j ∧ j < t.val * B + B then u else 0))
      = (∑ i : Fin N, w i) + u := by
  rw [Finset.sum_add_distrib, sum_tiles_fin' T B N hN w idx hidx, sum_tile_indicator_fin T B u j (hN ▸ hj)]

/-- Fifty tiles of two hundred rows, with the value at row `j` added in the tile that holds `j`. -/
theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.Reg0Out.lean ====
/-
  Region 0's first output array after the region, as a function of the arrays the region is entered with.  The grid is
  2 x 16; point `t` handles rows `512 t … 512 t + 511` and, whichever control case it is in, stores the block of
  `x W1ᵀ + b1` for those rows; the 32 blocks tile the array.
-/
import proofs.«421069_j24412594110965_3_alg».proof.Proof.Gen.KernelIdeal.Frame
import proofs.«421069_j24412594110965_3_alg».proof.Proof.Pay
import proofs.«421069_j24412594110965_3_alg».proof.Proof.LibTileSum
import Idealize.ShloMosaic.Lib.Pipeline.Value

set_option maxRecDepth 16384

noncomputable section

namespace Cert.Reg0

open Idealize.ShloMosaic Idealize.ShloMosaic.TcCoe Idealize.ShloMosaic.ValueIdx
open Idealize.SL.Sem
open Cert.KernelIdeal Cert.KernelIdeal.Gen
open scoped BigOperators

/-- Region 0's first result: every row of `x` against `W1`, plus the bias. -/
def K0out (xx : FVec Ideal S16384x2048 .f32) (w1 : FVec Ideal S256x2048 .bf16) (bb : FVec Ideal S1x256 .f32) :
    FVec Ideal S16384x256 .f32 := fun j =>
  (∑ d : Fin 2048, xx (ix2 (j 0) d) * w1 (ix2 (j 1) d)) + bb (ix2 0 (j 1))

variable (V : (c : Dev nD) → (b : Ref sig .tc) → Buf (Elt Ideal) ((c : Thread nD τ).loc b))

namespace Out

/-- The offsets of a store or load of a whole block: zero on both axes. -/
theorem off00 : (![0, 0] : Fin 2 → Nat) = fun _ => 0 := funext fun a => by fin_cases a <;> rfl

/-- At a point that resets the table, the first output's block is left holding the `x` block against the `W1` block plus
    the `b1` block: one store of the whole block, its operands the whole loaded blocks. -/
theorem block_reset (c : Dev nD) (i : grid0.Coords) (arg2 : Memref sig .tc .vmem S512x2048 .f32) (harg2 : arg2.IsWhole) (arg3 : Memref sig .tc .vmem S512x1 .i32) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S512x256 .f32) (harg7 : arg7.IsWhole) (arg8 : Memref sig .tc .vmem S1x3200x256 .f32) (harg8 : arg8.IsWhole) (hc0 : cond0_0 i)
    (x0 : Vec Ideal S512x2048 .f32) (x1 : Vec Ideal S512x1 .i32) (x2 : Vec Ideal S256x2048 .bf16) (x3 : Vec Ideal S256x2048 .bf16) (x4 : Vec Ideal S1x256 .f32) :
    out0_A_5 (F := Ideal) c i arg2 harg2 arg3 harg3 arg4 harg4 arg5 harg5 arg6 harg6 arg7 harg7 arg8 harg8 hc0 x0 x1 x2 x3 x4 = k0_pay3 (F := Ideal) x0 x2 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero off00]
  simp only [View.readAt_eq_ld, harg2.read_unread, harg4.read_unread, harg6.read_unread,
    View.ld_unit_zero (S := S512x2048) off00, View.ld_unit_zero (S := S256x2048) off00, View.ld_unit_zero (S := S1x256) off00]

/-- At a point that adds to the table the first output's block is left holding the same value: it does not depend on
    what the table held. -/
theorem block_acc (c : Dev nD) (i : grid0.Coords) (arg2 : Memref sig .tc .vmem S512x2048 .f32) (harg2 : arg2.IsWhole) (arg3 : Memref sig .tc .vmem S512x1 .i32) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S512x256 .f32) (harg7 : arg7.IsWhole) (arg8 : Memref sig .tc .vmem S1x3200x256 .f32) (harg8 : arg8.IsWhole) (hc0 : ¬cond0_0 i)
    (x0 : Vec Ideal S512x2048 .f32) (x1 : Vec Ideal S512x1 .i32) (x2 : Vec Ideal S256x2048 .bf16) (x3 : Vec Ideal S256x2048 .bf16) (x4 : Vec Ideal S1x256 .f32) (xo6 : Vec Ideal S1x3200x256 .f32) :
    out0_B_5 (F := Ideal) c i arg2 harg2 arg3 harg3 arg4 harg4 arg5 harg5 arg6 harg6 arg7 harg7 arg8 harg8 hc0 x0 x1 x2 x3 x4 xo6 = k0_pay3 (F := Ideal) x0 x2 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo6)]
  unfold kernelRun0_B
  dsimp only
  sl_unfold_words
  rw [View.canon_unit_zero off00]
  simp only [View.readAt_eq_ld, harg2.read_unread, harg4.read_unread, harg6.read_unread,
    View.ld_unit_zero (S := S512x2048) off00, View.ld_unit_zero (S := S256x2048) off00, View.ld_unit_zero (S := S1x256) off00]

/-- The 512 rows of `x` point `t` reads. -/
abbrev xblk (c : Dev nD) (t : Fin cfg0.N) : FVec Ideal S512x2048 .f32 := iblk0 V c 0 t
/-- The block of `W1` point `t` reads (all of it). -/
abbrev w1blk (c : Dev nD) (t : Fin cfg0.N) : FVec Ideal S256x2048 .bf16 := iblk0 V c 2 t
/-- The block of `b1` point `t` reads (all of it). -/
abbrev b1blk (c : Dev nD) (t : Fin cfg0.N) : FVec Ideal S1x256 .f32 := iblk0 V c 4 t
/-- The three arrays the first output depends on, as the region finds them. -/
abbrev xarr (c : Dev nD) : FVec Ideal S16384x2048 .f32 := V c main_arg0
abbrev w1arr (c : Dev nD) : FVec Ideal S256x2048 .bf16 := V c main_v23
abbrev b1arr (c : Dev nD) : FVec Ideal S1x256 .f32 := V c main_v25

/-- After every point, whichever of the two cases it is in, the first output's block holds the point's `x` block
    against `W1` plus `b1`. -/
theorem block_value (c : Dev nD) (t : Fin cfg0.N) :
    (outsAt0 V c t.val t.isLt).1 = k0_pay3 (F := Ideal) (xblk V c t) (w1blk V c t) (b1blk V c t) := by
  by_cases h : t.val % 16 = 0
  · rw [outsAt0_A V c t h]
    dsimp only
    exact block_reset c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk0 V c 0 t) (iblk0 V c 1 t) (iblk0 V c 2 t) (iblk0 V c 3 t) (iblk0 V c 4 t)
  · rw [outsAt0_B V c t h]
    dsimp only
    exact block_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h' => h ((hcond0_0 t).mp h')) (iblk0 V c 0 t) (iblk0 V c 1 t) (iblk0 V c 2 t) (iblk0 V c 3 t) (iblk0 V c 4 t) (outsAt0 V c (t.val - 1) (Nat.lt_of_le_of_lt (Nat.sub_le _ _) t.isLt)).2

/-- The block indices at point `t` of the 2 x 16 grid: the `x` block and the output block are row block `t`
    (16 times the first coordinate plus the second), column block 0; `W1` and `b1` are always block (0, 0). -/
theorem block_indices : ∀ t : Fin cfg0.N, win0_0.index t (0 : Fin 2) = t.val ∧ win0_0.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of point `t`'s block is row `512 t + r` of the array. -/
def arow (t : Fin cfg0.N) (r : Fin 512) : Fin 16384 :=
  ⟨512 * t.val + r.val, by have := lt_of_lt_of_eq t.isLt (show cfg0.N = 32 from N_0); have := r.isLt; omega⟩

/-- The `x` block's row `r` is the array's row `512 t + r`: a block's coordinate is its index times its size plus the
    coordinate inside the block. -/
theorem xblk_apply (c : Dev nD) (t : Fin cfg0.N) (r : Fin 512) (d : Fin 2048) :
    xblk V c t (ix2 r d) = xarr V c (ix2 (arow t r) d) := by
  obtain ⟨e0, e1, -⟩ := block_indices t
  show V c main_arg0 (((cfg0.win 0).blk t).view.emb (ix2 r d)) = V c main_arg0 (ix2 (arow t r) d)
  congr 1
  funext a; apply Fin.ext
  match a with
  | ⟨0, _⟩ => show win0_0.index t (0 : Fin 2) * 512 + 1 * r.val = 512 * t.val + r.val; rw [e0]; omega
  | ⟨1, _⟩ => show win0_0.index t (1 : Fin 2) * 2048 + 1 * d.val = d.val; rw [e1]; omega

/-- The `W1` block is the whole matrix. -/
theorem w1blk_apply (c : Dev nD) (t : Fin cfg0.N) (q : Fin 256) (d : Fin 2048) :
    w1blk V c t (ix2 q d) = w1arr V c (ix2 q d) := by
  obtain ⟨-, -, e2, e3, -⟩ := block_indices t
  show V c main_v23 (((cfg0.win 2).blk t).view.emb (ix2 q d)) = V c main_v23 (ix2 q d)
  congr 1
  funext a; apply Fin.ext
  match a with
  | ⟨0, _⟩ => show win0_2.index t (0 : Fin 2) * 256 + 1 * q.val = q.val; rw [e2]; omega
  | ⟨1, _⟩ => show win0_2.index t (1 : Fin 2) * 2048 + 1 * d.val = d.val; rw [e3]; omega

/-- The `b1` block is the whole row. -/
theorem b1blk_apply (c : Dev nD) (t : Fin cfg0.N) (q : Fin 256) :
    b1blk V c t (ix2 (0 : Fin 1) q) = b1arr V c (ix2 (0 : Fin 1) q) := by
  obtain ⟨-, -, -, -, e4, e5, -⟩ := block_indices t
  show V c main_v25 (((cfg0.win 4).blk t).view.emb (ix2 (0 : Fin 1) q)) = V c main_v25 (ix2 (0 : Fin 1) q)
  congr 1
  funext a; apply Fin.ext
  match a with
  | ⟨0, _⟩ => show win0_4.index t (0 : Fin 2) * 1 + 1 * 0 = 0; omega
  | ⟨1, _⟩ => show win0_4.index t (1 : Fin 2) * 256 + 1 * q.val = q.val; rw [e5]; omega

/-- Entry `(r, q)` of the block point `t` stores is entry `(512 t + r, q)` of `x W1ᵀ + b1`. -/
theorem block_value_at (c : Dev nD) (t : Fin cfg0.N) (r : Fin 512) (q : Fin 256) :
    k0_pay3 (F := Ideal) (xblk V c t) (w1blk V c t) (b1blk V c t) (ix2 r q)
      = K0out (xarr V c) (w1arr V c) (b1arr V c) (ix2 (arow t r) q) := by
  refine (Cert.Pay.k0_pay3_apply (xblk V c t) (w1blk V c t) (b1blk V c t) r q).trans ?_
  show _ = (∑ d : Fin 2048, xarr V c (ix2 (arow t r) d) * w1arr V c (ix2 q d)) + b1arr V c (ix2 (0 : Fin 1) q)
  rw [b1blk_apply V c t q]
  refine congrArg (· + b1arr V c (ix2 (0 : Fin 1) q)) ?_
  exact Finset.sum_congr rfl fun d _ => by rw [xblk_apply V c t r d, w1blk_apply V c t q d]

/-- What point `t` writes back is block `t` of `x W1ᵀ + b1`. -/
theorem written_back (c : Dev nD) (t : Fin cfg0.N) :
    (dat0 V c).flushed 5 t = ((cfg0.win 5).blk t).view.read (Elt Ideal) (K0out (V c main_arg0) (V c main_v23) (V c main_v25)) := by
  show (cfg0.win 5).cut (grid0.coords t) ((dat0 V c).after 5 t) = _
  rw [after0_5, block_value]
  funext j
  obtain ⟨r, q, rfl⟩ : ∃ (r : Fin 512) (q : Fin 256), j = ix2 r q := ⟨j 0, j 1, eq_ix2 j⟩
  obtain ⟨-, -, -, -, -, -, e6, e7⟩ := block_indices t
  have hx : (cfg0.win 5).xinj (grid0.coords t) (ix2 r q) = (ix2 r q : S512x256.Idx) := by
    funext a; match a with | ⟨0, _⟩ => rfl | ⟨1, _⟩ => rfl
  have he : ((cfg0.win 5).blk t).view.emb (ix2 r q) = (ix2 (arow t r) q : S16384x256.Idx) := by
    funext a; apply Fin.ext
    match a with
    | ⟨0, _⟩ => show win0_5.index t (0 : Fin 2) * 512 + 1 * r.val = 512 * t.val + r.val; rw [e6]; omega
    | ⟨1, _⟩ => show win0_5.index t (1 : Fin 2) * 256 + 1 * q.val = q.val; rw [e7]; omega
  show k0_pay3 (F := Ideal) (xblk V c t) (w1blk V c t) (b1blk V c t) ((cfg0.win 5).xinj (grid0.coords t) (ix2 r q))
    = K0out (xarr V c) (w1arr V c) (b1arr V c) (((cfg0.win 5).blk t).view.emb (ix2 r q))
  rw [hx, he]
  exact block_value_at V c t r q

/-- An index of the array is in point `t`'s block iff each coordinate is in the block's range on its axis. -/
theorem mem_block (t : Fin cfg0.N) (i : S16384x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v27_0).slice (win0_5.rect t)).set ↔ _
  rw [View.set_slice_whole, Rect.mem_set_unit]
  exact Iff.rfl

/-- The 32 blocks tile the array: row `i` lies in the block of point `i / 512`, which is written back. -/
theorem rows_covered (i : S16384x256.Idx) : ∃ t : Fin cfg0.N, (cfg0.win 5).flush t = true ∧ i ∈ ((cfg0.win 5).blk t).view.set := by
  have hi0 : (i 0).val < 16384 := (i 0).isLt
  have hi1 : (i 1).val < 256 := (i 1).isLt
  have hN : cfg0.N = 32 := N_0
  let t : Fin cfg0.N := ⟨(i 0).val / 512, by rw [hN]; omega⟩
  obtain ⟨-, -, -, -, -, -, e6, e7⟩ := block_indices t
  have ht : t.val = (i 0).val / 512 := rfl
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; rw [e6, ht]; omega
  | ⟨1, _⟩ => show win0_5.index t (1 : Fin 2) * 256 ≤ (i 1).val ∧ (i 1).val < win0_5.index t (1 : Fin 2) * 256 + 256; rw [e7]; omega

end Out

/-- Every block written back is a block of `x W1ᵀ + b1` and the blocks tile the array, so the array ends holding it. -/
theorem final0_5 (c : Dev nD) :
    (dat0 V c).arrAt 5 cfg0.N = K0out (V c main_arg0) (V c main_v23) (V c main_v25) :=
  (dat0 V c).arrAt_eq_of_cover 5 (K0out (V c main_arg0) (V c main_v23) (V c main_v25))
    (fun t _ => Out.written_back V c t) Out.rows_covered

end Cert.Reg0

end
-- ==== Proof.Reg0Tab.lean ====
/-
  Region 0's second output array after the region, as a function of the arrays the region is entered with.  The grid is
  2 x 16; point `t` handles rows `512 t … 512 t + 511`.  The output is a 3200 x 256 table per half of the grid, kept in
  one buffer across the half's 16 points: reset to zero at the half's first point, added to at every point (the one-hot
  rows of the block's keys, transposed, times the block of `x W2ᵀ`), and written back when the half ends.  So the table of
  half `h` is the sum over its 16 tiles.
-/
import proofs.«421069_j24412594110965_3_alg».proof.Proof.Gen.KernelIdeal.Frame
import proofs.«421069_j24412594110965_3_alg».proof.Proof.Pay
import proofs.«421069_j24412594110965_3_alg».proof.Proof.LibTileSum
import Idealize.ShloMosaic.Lib.Pipeline.Value

set_option maxRecDepth 16384

noncomputable section

namespace Cert.Reg0

open Idealize.ShloMosaic Idealize.ShloMosaic.TcCoe Idealize.ShloMosaic.ValueIdx
open Idealize.SL.Sem
open Cert.KernelIdeal Cert.KernelIdeal.Gen
open scoped BigOperators

/-- Region 0's second result: per half `j 0`, key `j 1` and column `j 2`, the half's 16 tiles of 512 rows. -/
def K0tab (xx : FVec Ideal S16384x2048 .f32) (sg : IVec S16384x1 32) (w2 : FVec Ideal S256x2048 .bf16) :
    FVec Ideal S2x3200x256 .f32 := fun j =>
  ∑ n : Fin 16, ∑ r : Fin 512,
    Spec.oh (sg (ix2 (Spec.row (j 0) n r) 0)) (j 1)
      * (∑ d : Fin 2048, xx (ix2 (Spec.row (j 0) n r) d) * w2 (ix2 (j 2) d))

variable (V : (c : Dev nD) → (b : Ref sig .tc) → Buf (Elt Ideal) ((c : Thread nD τ).loc b))

namespace Tab

/-! ### What each control case leaves in the table buffer -/

/-- The zero offsets of a whole-block load or store, of rank 2 and of rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-- At a point that is not a half's first, the body's one store to the table covers it: the update of the table as it
    was loaded, which is what the point before left (`xo6`), from the `x` block, the key block and the second
    weight block. -/
theorem tabB (c : Dev nD) (i : grid0.Coords) (arg2 : Memref sig .tc .vmem S512x2048 .f32) (harg2 : arg2.IsWhole) (arg3 : Memref sig .tc .vmem S512x1 .i32) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S512x256 .f32) (harg7 : arg7.IsWhole) (arg8 : Memref sig .tc .vmem S1x3200x256 .f32) (harg8 : arg8.IsWhole) (hc0 : ¬cond0_0 i)
    (x0 : Vec F S512x2048 .f32) (x1 : Vec F S512x1 .i32) (x2 : Vec F S256x2048 .bf16) (x3 : Vec F S256x2048 .bf16) (x4 : Vec F S1x256 .f32) (xo6 : Vec F S1x3200x256 .f32) :
    out0_B_6 c i arg2 harg2 arg3 harg3 arg4 harg4 arg5 harg5 arg6 harg6 arg7 harg7 arg8 harg8 hc0 x0 x1 x2 x3 x4 xo6 = k0_pay4 x0 x1 x3 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo6)]
  unfold kernelRun0_B
  dsimp only
  sl_unfold_words
  rw [View.canon_unit_zero hz3]
  simp only [View.readAt_eq_ld, harg2.read_unread, harg3.read_unread, harg5.read_unread, harg8.read_unread,
    View.ld_unit_zero (S := S512x2048) hz2, View.ld_unit_zero (S := S512x1) hz2, View.ld_unit_zero (S := S256x2048) hz2,
    View.ld_unit_zero (S := S1x3200x256) hz3]

/-- At a half's first point the body stores the zero table and then the update; the update's load of the table reads
    the zeros back, and its store, the later one, covers the buffer. -/
theorem tabA (c : Dev nD) (i : grid0.Coords) (arg2 : Memref sig .tc .vmem S512x2048 .f32) (harg2 : arg2.IsWhole) (arg3 : Memref sig .tc .vmem S512x1 .i32) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x256 .f32) (harg6 : arg6.IsWhole) (arg7 : Memref sig .tc .vmem S512x256 .f32) (harg7 : arg7.IsWhole) (arg8 : Memref sig .tc .vmem S1x3200x256 .f32) (harg8 : arg8.IsWhole) (hc0 : cond0_0 i)
    (x0 : Vec F S512x2048 .f32) (x1 : Vec F S512x1 .i32) (x2 : Vec F S256x2048 .bf16) (x3 : Vec F S256x2048 .bf16) (x4 : Vec F S1x256 .f32) :
    out0_A_6 c i arg2 harg2 arg3 harg3 arg4 harg4 arg5 harg5 arg6 harg6 arg7 harg7 arg8 harg8 hc0 x0 x1 x2 x3 x4 = k0_pay4 x0 x1 x3 (k0_pay1 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x3200x256) hz3, View.readCov_unit_zero (S := S1x3200x256) _ hz3]
  simp only [View.readAt_eq_ld, harg2.read_unread, harg3.read_unread, harg5.read_unread,
    View.ld_unit_zero (S := S512x2048) hz2, View.ld_unit_zero (S := S512x1) hz2, View.ld_unit_zero (S := S256x2048) hz2]

end Pieces

/-! ### The input blocks at a point, and the arrays, named by their literal types -/

abbrev xblk (c : Dev nD) (t : Fin cfg0.N) : FVec Ideal S512x2048 .f32 := iblk0 V c 0 t
abbrev kblk (c : Dev nD) (t : Fin cfg0.N) : IVec S512x1 32 := iblk0 V c 1 t
abbrev wblk (c : Dev nD) (t : Fin cfg0.N) : FVec Ideal S256x2048 .bf16 := iblk0 V c 3 t
abbrev xarr (c : Dev nD) : FVec Ideal S16384x2048 .f32 := V c main_arg0
abbrev karr (c : Dev nD) : IVec S16384x1 32 := V c main_v3
abbrev warr (c : Dev nD) : FVec Ideal S256x2048 .bf16 := V c main_v24

/-- The block indices at point `t`: the row blocks of `x` and of the key column are block `t`; the weight
    matrix is one block; the table's block is the half `t / 16`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_3.index t (0 : Fin 2) = 0 ∧ win0_3.index t (1 : Fin 2) = 0
    ∧ win0_6.index t (0 : Fin 3) = t.val / 16 ∧ win0_6.index t (1 : Fin 3) = 0 ∧ win0_6.index t (2 : Fin 3) = 0 :=
  (by decide +kernel : ∀ t : Fin grid0.N, _)

/-- Row `r` of the `x` block at point `t` is row `512 t + r` of `x`. -/
theorem xblk_apply (c : Dev nD) (t : Fin cfg0.N) (r : Fin 512) (d : Fin 2048) (j : Fin 16384)
    (hj : j.val = 512 * t.val + r.val) : xblk V c t (ix2 r d) = xarr V c (ix2 j d) := by
  obtain ⟨e0, e1, -⟩ := idx_facts t
  unfold xblk xarr iblk0
  rw [View.read_apply]
  show V c main_arg0 _ = V c main_arg0 _
  congr 1
  funext a
  apply Fin.ext
  match a with
  | ⟨0, _⟩ => show win0_0.index t 0 * 512 + 1 * r.val = j.val; rw [e0, hj]; omega
  | ⟨1, _⟩ => show win0_0.index t 1 * 2048 + 1 * d.val = d.val; rw [e1]; omega

/-- Row `r` of the key block at point `t` is row `512 t + r` of the key column. -/
theorem kblk_apply (c : Dev nD) (t : Fin cfg0.N) (r : Fin 512) (j : Fin 16384)
    (hj : j.val = 512 * t.val + r.val) : kblk V c t (ix2 r 0) = karr V c (ix2 j 0) := by
  obtain ⟨-, -, e0, e1, -⟩ := idx_facts t
  unfold kblk karr iblk0
  rw [View.read_apply]
  show V c main_v3 _ = V c main_v3 _
  congr 1
  funext a
  apply Fin.ext
  match a with
  | ⟨0, _⟩ => show win0_1.index t 0 * 512 + 1 * r.val = j.val; rw [e0, hj]; omega
  | ⟨1, _⟩ => show win0_1.index t 1 * 1 + 1 * 0 = 0; rw [e1]

/-- The weight block at any point is the weight matrix. -/
theorem wblk_apply (c : Dev nD) (t : Fin cfg0.N) (q : Fin 256) (d : Fin 2048) :
    wblk V c t (ix2 q d) = warr V c (ix2 q d) := by
  obtain ⟨-, -, -, -, e0, e1, -⟩ := idx_facts t
  unfold wblk warr iblk0
  rw [View.read_apply]
  show V c main_v24 _ = V c main_v24 _
  congr 1
  funext a
  apply Fin.ext
  match a with
  | ⟨0, _⟩ => show win0_3.index t 0 * 256 + 1 * q.val = q.val; rw [e0]; omega
  | ⟨1, _⟩ => show win0_3.index t 1 * 2048 + 1 * d.val = d.val; rw [e1]; omega

/-! ### The table after each point -/

/-- The table buffer after point `n`. -/
abbrev tabAt (c : Dev nD) (n : ℕ) (h : n < cfg0.N) : FVec Ideal S1x3200x256 .f32 := (outsAt0 V c n h).2

/-- What point `t` adds to the table at key `s` and column `q`: over the block's 512 rows, the one-hot entry of the
    row's key at `s` times the row of the `x` block against row `q` of the weight block. -/
def blockTerm (c : Dev nD) (t : Fin cfg0.N) (s : Fin 3200) (q : Fin 256) : EReal :=
  ∑ r : Fin 512, Spec.oh (kblk V c t (ix2 r 0)) s * (∑ d : Fin 2048, xblk V c t (ix2 r d) * wblk V c t (ix2 q d))

/-- The same by the point's number, zero past the grid. -/
def addend (c : Dev nD) (s : Fin 3200) (q : Fin 256) (n : ℕ) : EReal :=
  if h : n < cfg0.N then blockTerm V c ⟨n, h⟩ s q else 0

theorem addend_of_lt (c : Dev nD) (s : Fin 3200) (q : Fin 256) (n : ℕ) (h : n < cfg0.N) :
    addend V c s q n = blockTerm V c ⟨n, h⟩ s q := by
  unfold addend
  exact dif_pos h

/-- At a half's first point the table is reset to zero and then added to: it holds the point's own term. -/
theorem tab_reset (c : Dev nD) (t : Fin cfg0.N) (h0 : t.val % 16 = 0) (s : Fin 3200) (q : Fin 256) :
    tabAt V c t.val t.isLt (ix3 0 s q) = blockTerm V c t s q := by
  unfold tabAt
  rw [outsAt0_A V c t h0]
  dsimp only
  refine (congrFun (tabA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) (ix3 0 s q)).trans ?_
  refine (Cert.Pay.k0_pay4_apply (xblk V c t) (kblk V c t) (wblk V c t) (k0_pay1 (F := Ideal)) s q).trans ?_
  rw [Cert.Pay.k0_pay1_apply, zero_add]
  rfl

/-- At every other point the table is what the point before left plus the point's term. -/
theorem tab_step (c : Dev nD) (t : Fin cfg0.N) (h0 : ¬t.val % 16 = 0) (s : Fin 3200) (q : Fin 256) :
    tabAt V c t.val t.isLt (ix3 0 s q)
      = tabAt V c (t.val - 1) (Nat.lt_of_le_of_lt (Nat.sub_le _ _) t.isLt) (ix3 0 s q) + blockTerm V c t s q := by
  unfold tabAt
  rw [outsAt0_B V c t h0]
  dsimp only
  refine (congrFun (tabB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t)
    (outsAt0 V c (t.val - 1) (Nat.lt_of_le_of_lt (Nat.sub_le _ _) t.isLt)).2) (ix3 0 s q)).trans ?_
  exact Cert.Pay.k0_pay4_apply (xblk V c t) (kblk V c t) (wblk V c t)
    (outsAt0 V c (t.val - 1) (Nat.lt_of_le_of_lt (Nat.sub_le _ _) t.isLt)).2 s q

/-- So after point `n` the table holds the terms of its half's points up to `n`. -/
theorem tab_eq (c : Dev nD) (s : Fin 3200) (q : Fin 256) : ∀ (n : ℕ) (h : n < cfg0.N),
    tabAt V c n h (ix3 0 s q) = ∑ k ∈ Finset.range (n % 16 + 1), addend V c s q (n - n % 16 + k) := by
  intro n
  induction n with
  | zero =>
    intro h
    refine (tab_reset V c ⟨0, h⟩ rfl s q).trans ?_
    rw [Nat.zero_mod, Finset.sum_range_one, Nat.sub_zero, Nat.add_zero]
    exact (addend_of_lt V c s q 0 h).symm
  | succ n ih =>
    intro h
    by_cases h0 : (n + 1) % 16 = 0
    · refine (tab_reset V c ⟨n + 1, h⟩ h0 s q).trans ?_
      rw [h0, Finset.sum_range_one]
      show blockTerm V c ⟨n + 1, h⟩ s q = addend V c s q (n + 1)
      exact (addend_of_lt V c s q (n + 1) h).symm
    · refine (tab_step V c ⟨n + 1, h⟩ h0 s q).trans ?_
      have e1 : (n + 1) % 16 = n % 16 + 1 := by omega
      have e2 : n + 1 - (n % 16 + 1) = n - n % 16 := by omega
      have e3 : n - n % 16 + (n % 16 + 1) = n + 1 := by omega
      rw [e1, Finset.sum_range_succ, e2, e3]
      refine congrArg₂ (· + ·) (ih (Nat.lt_of_succ_lt h)) ?_
      exact (addend_of_lt V c s q (n + 1) h).symm

/-! ### The write-back at a half's last point, and the array after the region -/

/-- At a half's last point the table holds the half's sixteen tiles: the half's entry of `K0tab`. -/
theorem tab_last (c : Dev nD) (t : Fin cfg0.N) (h15 : t.val % 16 = 15) (hh : Fin 2) (hhv : hh.val = t.val / 16)
    (s : Fin 3200) (q : Fin 256) :
    tabAt V c t.val t.isLt (ix3 0 s q) = K0tab (xarr V c) (karr V c) (warr V c) (ix3 hh s q) := by
  have hN : cfg0.N = 32 := N_0
  have ht : t.val < 32 := lt_of_lt_of_eq t.isLt hN
  rw [tab_eq V c s q t.val t.isLt, h15]
  show ∑ k ∈ Finset.range 16, addend V c s q (t.val - 15 + k)
    = ∑ n : Fin 16, ∑ r : Fin 512, Spec.oh (karr V c (ix2 (Spec.row hh n r) 0)) s
        * (∑ d : Fin 2048, xarr V c (ix2 (Spec.row hh n r) d) * warr V c (ix2 q d))
  rw [Finset.sum_range]
  refine Finset.sum_congr rfl fun k _ => ?_
  have hk : t.val - 15 + k.val < cfg0.N := by have := k.isLt; omega
  rw [addend_of_lt V c s q _ hk]
  unfold blockTerm
  refine Finset.sum_congr rfl fun r _ => ?_
  have hrow : (Spec.row hh k r).val = 512 * (⟨t.val - 15 + k.val, hk⟩ : Fin cfg0.N).val + r.val := by
    show (hh.val * 16 + k.val) * 512 + r.val = 512 * (t.val - 15 + k.val) + r.val
    omega
  rw [kblk_apply V c ⟨t.val - 15 + k.val, hk⟩ r (Spec.row hh k r) hrow]
  refine congrArg (Spec.oh (karr V c (ix2 (Spec.row hh k r) 0)) s * ·) ?_
  refine Finset.sum_congr rfl fun d _ => ?_
  rw [xblk_apply V c ⟨t.val - 15 + k.val, hk⟩ r d (Spec.row hh k r) hrow, wblk_apply V c ⟨t.val - 15 + k.val, hk⟩ q d]

/-- What a half's last point writes back is the half's block of `K0tab`. -/
theorem flushed_eq (c : Dev nD) (t : Fin cfg0.N) (hf : (cfg0.win 6).flush t = true) :
    (dat0 V c).flushed 6 t
      = ((cfg0.win 6).blk t).view.read (Elt Ideal) (K0tab (V c main_arg0) (V c main_v3) (V c main_v24)) := by
  have hN : cfg0.N = 32 := N_0
  have ht : t.val < 32 := lt_of_lt_of_eq t.isLt hN
  have h15 : t.val % 16 = 15 := (flush0_6 t).mp hf
  obtain ⟨-, -, -, -, -, -, e0, e1, e2⟩ := idx_facts t
  show (cfg0.win 6).cut (grid0.coords t) ((dat0 V c).after 6 t) = _
  rw [after0_6]
  funext y
  have hy0 : (y 0).val < 1 := (y 0).isLt
  have hy1 : (y 1).val < 3200 := (y 1).isLt
  have hy2 : (y 2).val < 256 := (y 2).isLt
  rw [View.read_apply]
  show tabAt V c t.val t.isLt ((cfg0.win 6).xinj (grid0.coords t) y)
    = K0tab (xarr V c) (karr V c) (warr V c) (((cfg0.win 6).blk t).view.emb y)
  have hx : (cfg0.win 6).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  have he : ((cfg0.win 6).blk t).view.emb y
      = ix3 (⟨t.val / 16, by omega⟩ : Fin 2) ⟨(y 1).val, hy1⟩ ⟨(y 2).val, hy2⟩ := by
    funext a; apply Fin.ext
    match a with
    | ⟨0, _⟩ => show win0_6.index t 0 * 1 + 1 * (y 0).val = t.val / 16; rw [e0]; omega
    | ⟨1, _⟩ => show win0_6.index t 1 * 3200 + 1 * (y 1).val = (y 1).val; rw [e1]; omega
    | ⟨2, _⟩ => show win0_6.index t 2 * 256 + 1 * (y 2).val = (y 2).val; rw [e2]; omega
  rw [hx, he]
  exact tab_last V c t h15 ⟨t.val / 16, by omega⟩ rfl ⟨(y 1).val, hy1⟩ ⟨(y 2).val, hy2⟩

/-- An index of the array lies in point `t`'s block iff each coordinate is in the block's range on its axis. -/
theorem mem_blk (t : Fin cfg0.N) (i : S2x3200x256.Idx) :
    i ∈ ((cfg0.win 6).blk t).view.set
      ↔ ∀ a : Fin 3, win0_6.index t a * S1x3200x256.size a ≤ (i a).val
          ∧ (i a).val < win0_6.index t a * S1x3200x256.size a + S1x3200x256.size a := by
  show i ∈ ((View.whole main_v27_1).slice (win0_6.rect t)).set ↔ _
  rw [View.set_slice_whole, Rect.mem_set_unit]
  exact Iff.rfl

/-- Half `h` of the array is written back by the half's last point, `16 h + 15`. -/
theorem covered (i : S2x3200x256.Idx) :
    ∃ t : Fin cfg0.N, (cfg0.win 6).flush t = true ∧ i ∈ ((cfg0.win 6).blk t).view.set := by
  have hN : cfg0.N = 32 := N_0
  have hi0 : (i 0).val < 2 := (i 0).isLt
  have hi1 : (i 1).val < 3200 := (i 1).isLt
  have hi2 : (i 2).val < 256 := (i 2).isLt
  have ht : 16 * (i 0).val + 15 < cfg0.N := by omega
  obtain ⟨-, -, -, -, -, -, e0, e1, e2⟩ := idx_facts ⟨16 * (i 0).val + 15, ht⟩
  have e0' : win0_6.index ⟨16 * (i 0).val + 15, ht⟩ 0 = (i 0).val := by
    rw [e0]; show (16 * (i 0).val + 15) / 16 = (i 0).val; omega
  refine ⟨⟨16 * (i 0).val + 15, ht⟩, (flush0_6 _).mpr (by show (16 * (i 0).val + 15) % 16 = 15; omega), ?_⟩
  rw [mem_blk]
  intro a
  match a with
  | ⟨0, _⟩ =>
    show win0_6.index ⟨16 * (i 0).val + 15, ht⟩ 0 * 1 ≤ (i 0).val
      ∧ (i 0).val < win0_6.index ⟨16 * (i 0).val + 15, ht⟩ 0 * 1 + 1
    rw [e0']; omega
  | ⟨1, _⟩ =>
    show win0_6.index ⟨16 * (i 0).val + 15, ht⟩ 1 * 3200 ≤ (i 1).val
      ∧ (i 1).val < win0_6.index ⟨16 * (i 0).val + 15, ht⟩ 1 * 3200 + 3200
    rw [e1]; omega
  | ⟨2, _⟩ =>
    show win0_6.index ⟨16 * (i 0).val + 15, ht⟩ 2 * 256 ≤ (i 2).val
      ∧ (i 2).val < win0_6.index ⟨16 * (i 0).val + 15, ht⟩ 2 * 256 + 256
    rw [e2]; omega

end Tab

/-- The array after the region: every half is written back once, by its last point, with its sixteen tiles' sum. -/
theorem final0_6 (c : Dev nD) :
    (dat0 V c).arrAt 6 cfg0.N = K0tab (V c main_arg0) (V c main_v3) (V c main_v24) :=
  (dat0 V c).arrAt_eq_of_cover 6 (K0tab (V c main_arg0) (V c main_v3) (V c main_v24)) (Tab.flushed_eq V c) Tab.covered

end Cert.Reg0

end
-- ==== Proof.KernelValue.lean ====
/-
  The tiled program's result buffer at the last boundary of its run is `Spec.Kfn` of the launch arrays, when labels and
  batches are in range: region 1's output as a function of the arrays it is entered with; of those, the first is region
  0's first output (`x W1ᵀ + b1`), the key column and the per-row factor and the second bias come unchanged from before
  region 0, and the gathered table is the host's combination of region 0's two half tables, each the sum over its tiles.
-/
import proofs.«421069_j24412594110965_3_alg».proof.Proof.Gen.KernelIdeal.Frame
import proofs.«421069_j24412594110965_3_alg».proof.Proof.HostPre
import proofs.«421069_j24412594110965_3_alg».proof.Proof.HostMid
import proofs.«421069_j24412594110965_3_alg».proof.Proof.Reg1Value
import proofs.«421069_j24412594110965_3_alg».proof.Proof.Reg0Out
import proofs.«421069_j24412594110965_3_alg».proof.Proof.Reg0Tab
import proofs.«421069_j24412594110965_3_alg».proof.Proof.Spec

set_option maxRecDepth 16384

noncomputable section

namespace Cert.KernelValue

open Idealize.ShloMosaic Idealize.ShloMosaic.TcCoe Idealize.ShloMosaic.ValueIdx
open Idealize.SL.Sem
open Cert.KernelIdeal Cert.KernelIdeal.Gen
open scoped BigOperators

variable (m : (ℓ : Loc nD τ sig) → Buf (Elt Ideal) ℓ) (ρ : Dev nD → PrngReg) (c : Dev nD)

/-- The launch arrays, by name, at their literal types. -/
abbrev ax : FVec Ideal S16384x2048 .f32 := m ((c : Thread nD τ).loc main_arg0)
abbrev alab : IVec S16384 32 := m ((c : Thread nD τ).loc main_arg1)
abbrev alb : IVec S16384 32 := m ((c : Thread nD τ).loc main_arg2)
abbrev aW1 : FVec Ideal S256x2048 .f32 := m ((c : Thread nD τ).loc main_arg3)
abbrev ab1 : FVec Ideal S256 .f32 := m ((c : Thread nD τ).loc main_arg4)
abbrev aW2 : FVec Ideal S256x2048 .f32 := m ((c : Thread nD τ).loc main_arg5)
abbrev ab2 : FVec Ideal S256 .f32 := m ((c : Thread nD τ).loc main_arg6)

/-- The arrays region 0 is entered with, at their literal types. -/
abbrev fx : FVec Ideal S16384x2048 .f32 := V6 m ρ c main_arg0
abbrev fsg : IVec S16384x1 32 := V6 m ρ c main_v3
abbrev fw1 : FVec Ideal S256x2048 .bf16 := V6 m ρ c main_v23
abbrev fw2 : FVec Ideal S256x2048 .bf16 := V6 m ρ c main_v24
abbrev fb1 : FVec Ideal S1x256 .f32 := V6 m ρ c main_v25

/-- The arrays region 1 is entered with, at their literal types. -/
abbrev eo1 : FVec Ideal S16384x256 .f32 := V8 m ρ c main_v27_0
abbrev esg : IVec S16384x1 32 := V8 m ρ c main_v3
abbrev eiv : FVec Ideal S16384x1 .f32 := V8 m ρ c main_v22
abbrev edt : FVec Ideal S3200x256 .bf16 := V8 m ρ c main_v38
abbrev eb2 : FVec Ideal S1x256 .f32 := V8 m ρ c main_v26

/-- Region 1's first input, region 0's first output: the row against `W1`, plus the bias. -/
theorem out1_at (i : Fin 16384) (q : Fin 256) :
    eo1 m ρ c (ix2 i q) = Spec.proj (ax m c) (aW1 m c) i q + ab1 m c (ix1 q) := by
  refine (congrFun ((HostMid.V8_v27_0 m ρ c).trans ((HostMid.V7_v27_0 m ρ c).trans (Reg0.final0_5 (V6 m ρ) c))) (ix2 i q)).trans ?_
  show (∑ d : Fin 2048, fx m ρ c (ix2 i d) * fw1 m ρ c (ix2 q d)) + fb1 m ρ c (ix2 0 q) = _
  rw [show fx m ρ c = ax m c from HostPre.V6_arg0 m ρ c, show fw1 m ρ c = aW1 m c from HostPre.V6_v23 m ρ c,
    show fb1 m ρ c (ix2 0 q) = ab1 m c (ix1 q) from HostPre.V6_v25 m ρ c q]
  rfl

/-- The key column region 1 reads is the key word. -/
theorem seg_at (i : Fin 16384) : esg m ρ c (ix2 i 0) = Spec.seg (alab m c) (alb m c) i :=
  (congrFun (HostMid.V8_v3 m ρ c) (ix2 i 0)).trans (HostPre.V6_v3 m ρ c i)

/-- The per-row factor region 1 reads. -/
theorem ninv_at (h : Spec.InRange (alab m c) (alb m c)) (i : Fin 16384) :
    eiv m ρ c (ix2 i 0) = Spec.ninv (alab m c) (alb m c) i :=
  (congrFun (HostMid.V8_v22 m ρ c) (ix2 i 0)).trans (HostPre.V6_v22 m ρ c h i)

/-- The second bias row region 1 reads. -/
theorem b2_at (q : Fin 256) : eb2 m ρ c (ix2 0 q) = ab2 m c (ix1 q) :=
  (congrFun (HostMid.V8_v26 m ρ c) (ix2 0 q)).trans (HostPre.V6_v26 m ρ c q)

/-- Region 0's table of half `h` is the half's sum over its tiles. -/
theorem tab_at (h : Fin 2) (s : Fin 3200) (q : Fin 256) :
    Reg0.K0tab (V6 m ρ c main_arg0) (V6 m ρ c main_v3) (V6 m ρ c main_v24) (ix3 h s q)
      = Spec.part (ax m c) (alab m c) (alb m c) (aW2 m c) h s q := by
  show (∑ n : Fin 16, ∑ r : Fin 512,
        Spec.oh (fsg m ρ c (ix2 (Spec.row h n r) 0)) s
          * (∑ d : Fin 2048, fx m ρ c (ix2 (Spec.row h n r) d) * fw2 m ρ c (ix2 q d))) = _
  rw [show fx m ρ c = ax m c from HostPre.V6_arg0 m ρ c, show fw2 m ρ c = aW2 m c from HostPre.V6_v24 m ρ c]
  simp only [show ∀ j : Fin 16384, fsg m ρ c (ix2 j 0) = Spec.seg (alab m c) (alb m c) j from HostPre.V6_v3 m ρ c]
  rfl

/-- The table region 1 gathers from. -/
theorem dtab_at (s : Fin 3200) (q : Fin 256) :
    edt m ρ c (ix2 s q) = Spec.dtab (ax m c) (alab m c) (alb m c) (aW2 m c) s q := by
  refine (HostMid.V8_v38 m ρ c _ ((HostMid.V7_v27_1 m ρ c).trans (Reg0.final0_6 (V6 m ρ) c)) s q).trans ?_
  refine Eq.trans (congrArg₂ (· - ·)
    (Finset.sum_congr rfl fun l _ => congrArg₂ (· + ·) (tab_at m ρ c 0 _ q) (tab_at m ρ c 1 _ q))
    (congrArg₂ (· + ·) (tab_at m ρ c 0 s q) (tab_at m ρ c 1 s q))) ?_
  rfl

/-- The result buffer at the run's last boundary. -/
theorem kernel_value (h : Spec.InRange (alab m c) (alb m c)) :
    W9 m ρ c (Proc.devRef .tc main_v39) = Spec.Kfn (ax m c) (alab m c) (alb m c) (aW1 m c) (ab1 m c) (aW2 m c) (ab2 m c) := by
  have e9 : W9 m ρ c (Proc.devRef .tc main_v39) = (dat1 (V8 m ρ) c).arrAt 5 cfg1.N := W9_arr m ρ c 5
  funext o
  obtain ⟨i, q, rfl⟩ : ∃ (i : Fin 16384) (q : Fin 256), o = ix2 i q := ⟨o 0, o 1, eq_ix2 o⟩
  refine (congrFun (e9.trans (Reg1.final1 (V8 m ρ) c)) (ix2 i q)).trans ?_
  show (eo1 m ρ c (ix2 i q)
        + (∑ s : Fin 3200, Spec.oh (esg m ρ c (ix2 i 0)) s * edt m ρ c (ix2 s q)) * eiv m ρ c (ix2 i 0))
      + eb2 m ρ c (ix2 0 q)
    = ((Spec.proj (ax m c) (aW1 m c) i q + ab1 m c (ix1 q))
        + (∑ s : Fin 3200, Spec.oh (Spec.seg (alab m c) (alb m c) i) s * Spec.dtab (ax m c) (alab m c) (alb m c) (aW2 m c) s q)
            * Spec.ninv (alab m c) (alb m c) i)
      + ab2 m c (ix1 q)
  rw [out1_at, seg_at, ninv_at m ρ c h, b2_at]
  have es : (∑ s : Fin 3200, Spec.oh (Spec.seg (alab m c) (alb m c) i) s * edt m ρ c (ix2 s q))
      = ∑ s : Fin 3200, Spec.oh (Spec.seg (alab m c) (alb m c) i) s * Spec.dtab (ax m c) (alab m c) (alb m c) (aW2 m c) s q :=
    Finset.sum_congr rfl fun s _ => congrArg (Spec.oh (Spec.seg (alab m c) (alb m c) i) s * ·) (dtab_at m ρ c s q)
  rw [es]

end Cert.KernelValue

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.LibScatterAdd1.lean ====
/-
  The float scatter that adds, at one-component index vectors: an operand of `M` values, `N` scalar updates, no update
  window axis, the operand's one axis inserted, the index vector on the indices' second axis.

  An update lands where its index word says, the word read SIGNED and not clamped; an update whose index is outside
  `[0, M)` is dropped. At the ideal values the colliding updates are added exactly, in no particular order, so the
  result at `s` is the operand's value there plus the sum, over ALL updates, of the update if its index word is `s`
  and of zero if not.
-/
import proofs.«421069_j24412594110965_3_alg».proof.Proof.LibBincount
import Idealize.ShloMosaic.PureOps.Ideal
import Idealize.ShloMosaic.PureOps.Contract
import Idealize.ShloMosaic.Lib.ValueIdx
import Mathlib.Algebra.BigOperators.Fin

namespace Cert.LibScatterAdd1

open Idealize.ShloMosaic Idealize.ShloMosaic.ValueIdx

/-- The exact accumulating scatter at `s`: the operand's value plus the updates whose index word, read signed, is `s`. -/
theorem hostScatterAdd_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![N, 1]⟩ w) (upd : (⟨1, ![N]⟩ : Shape).Idx → EReal)
    (s : Fin M) :
    Ideal.hostScatterAdd d x idx upd (ix1 s)
      = x (ix1 s) + ∑ n : Fin N, if (idx (ix2 n 0)).toInt = (s.val : ℤ) then upd (ix1 n) else 0 := by
  unfold Ideal.hostScatterAdd
  congr 1
  rw [Finset.sum_filter, ← Equiv.sum_comp (Cert.LibBincount.idxEquiv1 (n := N)).symm]
  refine Finset.sum_congr rfl (fun n _ => ?_)
  show (if d.resultIdx? (ix1 n) idx = some (ix1 s) then upd (ix1 n) else 0) = _
  simp only [Cert.LibBincount.resultIdx?_eq_some_iff M N d h1 h2 h3 h4 idx n s]

/-- The same for the host operation as a program states it, at any float format. -/
theorem scatterAdd_apply {w : ℕ} {φ : FTy} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : FVec Ideal ⟨1, ![M]⟩ φ) (idx : IVec ⟨2, ![N, 1]⟩ w) (upd : FVec Ideal ⟨1, ![N]⟩ φ) (s : Fin M) :
    Host.scatterAdd d x idx upd (ix1 s)
      = (x (ix1 s) + ∑ n : Fin N, if (idx (ix2 n 0)).toInt = (s.val : ℤ) then upd (ix1 n) else 0 : EReal) :=
  hostScatterAdd_apply M N d h1 h2 h3 h4 x idx upd s

end Cert.LibScatterAdd1
-- ==== Proof.RefValue.lean ====
/-
  The plain program's result term, read one operation at a time, is `Spec.Rfn` of its arguments when labels and batches
  are in range: the four scatter-adds as sums over the rows whose key or batch lands on the row, the four gathers at the
  row's own key or batch (the negative-index wrap never fires), the rest pointwise.
-/
import proofs.«421069_j24412594110965_3_alg».proof.Proof.RefRead
import proofs.«421069_j24412594110965_3_alg».proof.Proof.Spec
import proofs.«421069_j24412594110965_3_alg».proof.Proof.LibRowGatherScatter
import proofs.«421069_j24412594110965_3_alg».proof.Proof.LibScatterAdd1
import proofs.«421069_j24412594110965_3_alg».proof.Proof.LibPlainMatmul
import proofs.«421069_j24412594110965_3_alg».proof.Proof.LibColumn
import Idealize.ShloMosaic.Lib.ValueIdx
import Idealize.ShloMosaic.Lib.Pipeline.Value
import Idealize.ShloMosaic.Lib.IdealHost
import Idealize.ShloMosaic.Lib.StableHlo.Predicate
import Idealize.ShloMosaic.PureOps.Ideal.Laws

set_option maxRecDepth 16384

noncomputable section

namespace Cert.RefValue

open Idealize.ShloMosaic Idealize.ShloMosaic.TcCoe Idealize.ShloMosaic.ValueIdx
open Cert.ReferenceIdeal Cert.ReferenceIdeal.Read
open scoped BigOperators

/-! ## Words -/

/-- A word whose signed reading is not negative is not below zero in the signed order. -/
theorem cmpi_slt_zero_of_nonneg (a : BitVec 32) (h : 0 ≤ a.toInt) : IntOp.cmpi .slt a 0#32 = 0#1 := by
  unfold IntOp.cmpi
  have : a.slt 0#32 = false := by
    rw [BitVec.slt]
    simp
    exact h
  simp [this]

/-- The select that wraps a negative index leaves a non-negative one alone. -/
theorem wrap_select (a k : BitVec 32) (h : 0 ≤ a.toInt) :
    Scalar.select (IntOp.cmpi .slt a 0#32) (IntOp.addi a k) a = a := by
  rw [cmpi_slt_zero_of_nonneg a h, select_zero]

/-- A word whose signed reading is not negative reads the same unsigned. -/
theorem toNat_of_range (a : BitVec 32) (h0 : 0 ≤ a.toInt) : (a.toNat : ℤ) = a.toInt :=
  (Cert.Lib.RowGS.toInt_eq_toNat_of_nonneg a h0).symm

/-- In range the key word does not wrap: its signed reading is `100 * batch + label`. -/
theorem seg_toInt (x1 x2 : IVec S16384 32) (h : Spec.InRange x1 x2) (i : Fin 16384) :
    (Spec.seg x1 x2 i).toInt = 100 * (x2 (ix1 i)).toInt + (x1 (ix1 i)).toInt := by
  obtain ⟨hl, hb⟩ := h
  have hl0 := (hl i).1
  have hl1 := (hl i).2
  have hb0 := (hb i).1
  have hb1 := (hb i).2
  have el := toNat_of_range _ hl0
  have eb := toNat_of_range _ hb0
  unfold Spec.seg
  rw [BitVec.toInt_eq_toNat_cond, BitVec.toNat_add, BitVec.toNat_mul]
  have : (100#32).toNat = 100 := rfl
  rw [this]
  have hbn : (x2 (ix1 i)).toNat < 32 := by omega
  have hln : (x1 (ix1 i)).toNat < 100 := by omega
  have hm : (x2 (ix1 i)).toNat * 100 % 2 ^ 32 = (x2 (ix1 i)).toNat * 100 := Nat.mod_eq_of_lt (by omega)
  rw [hm, Nat.mod_eq_of_lt (show (x2 (ix1 i)).toNat * 100 + (x1 (ix1 i)).toNat < 2 ^ 32 by omega)]
  rw [if_pos (by omega)]
  push_cast
  omega

/-- In range the key, read signed, is one of the 3200 keys. -/
theorem seg_range (x1 x2 : IVec S16384 32) (h : Spec.InRange x1 x2) (i : Fin 16384) :
    0 ≤ (Spec.seg x1 x2 i).toInt ∧ (Spec.seg x1 x2 i).toInt < 3200 := by
  rw [seg_toInt x1 x2 h i]
  obtain ⟨hl, hb⟩ := h
  have := hl i
  have := hb i
  omega

/-! ## The key, and the index columns -/

/-- The program's key array is the key word. -/
theorem v2_at (x1 x2 : IVec S16384 32) (i : Fin 16384) :
    val_main_v2 (F := Ideal) x1 x2 (ix1 i) = Spec.seg x1 x2 i := by
  rw [val_main_v2_apply, val_main_v1_apply, val_main_v0_apply, val_main_c_apply]
  rfl

/-- Row `e` of an index column reads entry `e` of the vector it was made from. -/
theorem col_idx (e : Fin 16384) : idx_main_v5 (ix2 e (0 : Fin 1)) = ix1 e :=
  funext fun a => Fin.ext (by match a with | ⟨0, _⟩ => rfl)

theorem v5_at (x1 x2 : IVec S16384 32) (e : Fin 16384) :
    val_main_v5 (F := Ideal) x1 x2 (ix2 e (0 : Fin 1)) = Spec.seg x1 x2 e := by
  rw [val_main_v5_apply, col_idx, v2_at]

theorem v8_at (x1 x2 : IVec S16384 32) (e : Fin 16384) :
    val_main_v8 (F := Ideal) x1 x2 (ix2 e (0 : Fin 1)) = Spec.seg x1 x2 e := by
  rw [val_main_v8_apply]
  exact (congrArg _ (col_idx e)).trans (v2_at x1 x2 e)

theorem v11_at (x2 : IVec S16384 32) (e : Fin 16384) :
    val_main_v11 (F := Ideal) x2 (ix2 e (0 : Fin 1)) = x2 (ix1 e) := by
  rw [val_main_v11_apply]
  exact congrArg _ (col_idx e)

theorem v14_at (x2 : IVec S16384 32) (e : Fin 16384) :
    val_main_v14 (F := Ideal) x2 (ix2 e (0 : Fin 1)) = x2 (ix1 e) := by
  rw [val_main_v14_apply]
  exact congrArg _ (col_idx e)

/-! ## The four sums by key and by batch -/

/-- Rows of `x` added into 32 rows by batch: row `b` is the sum of the rows of batch `b`. -/
theorem v12_at (x0 : FVec Ideal S16384x2048 .f32) (x2 : IVec S16384 32) (b : Fin 32) (d : Fin 2048) :
    val_main_v12 (F := Ideal) x0 x2 (ix2 b d) = Spec.sumB x0 x2 b d := by
  show Ideal.hostScatterAdd scatter_S32x2048_S16384x1_S16384x2048_1_0_0_1 (val_main_v10 (F := Ideal))
    (val_main_v11 (F := Ideal) x2) x0 (ix2 b d) = _
  rw [Cert.Lib.RowGS.scatterAdd_rows_apply _ rfl rfl rfl rfl, val_main_v10_apply, val_main_cst_2_apply,
    Ideal.ofBits_def, Ideal.ofBits_zero_f32, zero_add]
  unfold Spec.sumB
  refine Finset.sum_congr rfl fun e _ => ?_
  rw [v11_at]

/-- Rows of `x` added into 3200 rows by key: row `s` is the sum of the rows of key `s`. -/
theorem v6_at (x0 : FVec Ideal S16384x2048 .f32) (x1 x2 : IVec S16384 32) (s : Fin 3200) (d : Fin 2048) :
    val_main_v6 (F := Ideal) x0 x1 x2 (ix2 s d) = Spec.sumS x0 x1 x2 s d := by
  show Ideal.hostScatterAdd scatter_S3200x2048_S16384x1_S16384x2048_1_0_0_1 (val_main_v4 (F := Ideal))
    (val_main_v5 (F := Ideal) x1 x2) x0 (ix2 s d) = _
  rw [Cert.Lib.RowGS.scatterAdd_rows_apply _ rfl rfl rfl rfl, val_main_v4_apply, val_main_cst_0_apply,
    Ideal.ofBits_def, Ideal.ofBits_zero_f32, zero_add]
  unfold Spec.sumS
  refine Finset.sum_congr rfl fun e _ => ?_
  rw [v5_at]

/-- The vector of ones. -/
theorem v3_at (e : Fin 16384) : val_main_v3 (F := Ideal) (ix1 e) = 1 := by
  rw [val_main_v3_apply, val_main_cst_apply, Ideal.ofBits_def, Ideal.ofBits_one_f32]

/-- Ones added into 32 entries by batch: entry `b` counts the rows of batch `b`. -/
theorem v15_at (x2 : IVec S16384 32) (b : Fin 32) :
    val_main_v15 (F := Ideal) x2 (ix1 b) = Spec.cB x2 b := by
  unfold val_main_v15
  rw [Cert.LibScatterAdd1.scatterAdd_apply 32 16384 _ rfl rfl rfl rfl, val_main_v13_apply, val_main_cst_3_apply,
    Ideal.ofBits_def, Ideal.ofBits_zero_f32, zero_add]
  unfold Spec.cB
  refine Finset.sum_congr rfl fun e _ => ?_
  rw [v14_at, v3_at]

/-- Ones added into 3200 entries by key: entry `s` counts the rows of key `s`. -/
theorem v9_at (x1 x2 : IVec S16384 32) (s : Fin 3200) :
    val_main_v9 (F := Ideal) x1 x2 (ix1 s) = Spec.cS x1 x2 s := by
  unfold val_main_v9
  rw [Cert.LibScatterAdd1.scatterAdd_apply 3200 16384 _ rfl rfl rfl rfl, val_main_v7_apply, val_main_cst_1_apply,
    Ideal.ofBits_def, Ideal.ofBits_zero_f32, zero_add]
  unfold Spec.cS
  refine Finset.sum_congr rfl fun e _ => ?_
  rw [v8_at, v3_at]

/-! ## The four gathers -/

/-- In range the batch index column is the batch itself: the wrap of negative indices does not fire. -/
theorem v20_at (x2 : IVec S16384 32) (hb : ∀ j : Fin 16384, 0 ≤ (x2 (ix1 j)).toInt ∧ (x2 (ix1 j)).toInt < 32)
    (i : Fin 16384) : val_main_v20 (F := Ideal) x2 (ix1 i) = x2 (ix1 i) := by
  rw [val_main_v20_apply, val_main_v17_apply, val_main_v16_apply, val_main_c_4_apply, val_main_v19_apply]
  exact wrap_select _ _ (hb i).1

theorem v21_at (x2 : IVec S16384 32) (hb : ∀ j : Fin 16384, 0 ≤ (x2 (ix1 j)).toInt ∧ (x2 (ix1 j)).toInt < 32)
    (i : Fin 16384) : val_main_v21 (F := Ideal) x2 (ix2 i (0 : Fin 1)) = x2 (ix1 i) := by
  rw [val_main_v21_apply]
  exact (congrArg _ (col_idx i)).trans (v20_at x2 hb i)

theorem v35_at (x2 : IVec S16384 32) (hb : ∀ j : Fin 16384, 0 ≤ (x2 (ix1 j)).toInt ∧ (x2 (ix1 j)).toInt < 32)
    (i : Fin 16384) : val_main_v35 (F := Ideal) x2 (ix1 i) = x2 (ix1 i) := by
  rw [val_main_v35_apply, val_main_v32_apply, val_main_v31_apply, val_main_c_8_apply, val_main_v34_apply]
  exact wrap_select _ _ (hb i).1

theorem v36_at (x2 : IVec S16384 32) (hb : ∀ j : Fin 16384, 0 ≤ (x2 (ix1 j)).toInt ∧ (x2 (ix1 j)).toInt < 32)
    (i : Fin 16384) : val_main_v36 (F := Ideal) x2 (ix2 i (0 : Fin 1)) = x2 (ix1 i) := by
  rw [val_main_v36_apply]
  exact (congrArg _ (col_idx i)).trans (v35_at x2 hb i)

/-- In range the key index column is the key itself. -/
theorem v27_at (x1 x2 : IVec S16384 32) (h : Spec.InRange x1 x2) (i : Fin 16384) :
    val_main_v27 (F := Ideal) x1 x2 (ix1 i) = Spec.seg x1 x2 i := by
  rw [val_main_v27_apply, val_main_v24_apply, val_main_v23_apply, val_main_c_6_apply, val_main_v26_apply, v2_at]
  exact wrap_select _ _ (seg_range x1 x2 h i).1

theorem v28_at (x1 x2 : IVec S16384 32) (h : Spec.InRange x1 x2) (i : Fin 16384) :
    val_main_v28 (F := Ideal) x1 x2 (ix2 i (0 : Fin 1)) = Spec.seg x1 x2 i := by
  rw [val_main_v28_apply]
  exact (congrArg _ (col_idx i)).trans (v27_at x1 x2 h i)

theorem v42_at (x1 x2 : IVec S16384 32) (h : Spec.InRange x1 x2) (i : Fin 16384) :
    val_main_v42 (F := Ideal) x1 x2 (ix1 i) = Spec.seg x1 x2 i := by
  rw [val_main_v42_apply, val_main_v39_apply, val_main_v38_apply, val_main_c_10_apply, val_main_v41_apply, v2_at]
  exact wrap_select _ _ (seg_range x1 x2 h i).1

theorem v43_at (x1 x2 : IVec S16384 32) (h : Spec.InRange x1 x2) (i : Fin 16384) :
    val_main_v43 (F := Ideal) x1 x2 (ix2 i (0 : Fin 1)) = Spec.seg x1 x2 i := by
  rw [val_main_v43_apply]
  exact (congrArg _ (col_idx i)).trans (v42_at x1 x2 h i)

/-- A word read signed in `[0, N)` names, as an index below `N`, its unsigned reading modulo `N`. -/
theorem fin_of_word {N : ℕ} (a : BitVec 32) (h0 : 0 ≤ a.toInt) (h1 : a.toInt < (N : ℤ)) (hlt : a.toInt.toNat < N)
    (hm : a.toNat % N < N) : (⟨a.toInt.toNat, hlt⟩ : Fin N) = ⟨a.toNat % N, hm⟩ := by
  have e := toNat_of_range a h0
  refine Fin.ext ?_
  show a.toInt.toNat = a.toNat % N
  rw [Nat.mod_eq_of_lt (by omega)]
  omega

/-- Row `i` of the batch sums gathered at the batches: the sum of row `i`'s own batch. -/
theorem v22_at (x0 : FVec Ideal S16384x2048 .f32) (x2 : IVec S16384 32)
    (hb : ∀ j : Fin 16384, 0 ≤ (x2 (ix1 j)).toInt ∧ (x2 (ix1 j)).toInt < 32) (i : Fin 16384) (d : Fin 2048) :
    val_main_v22 (F := Ideal) x0 x2 (ix2 i d) = Spec.sumB x0 x2 (Spec.bI x2 i) d := by
  have e := v21_at x2 hb i
  unfold val_main_v22
  rw [Cert.Lib.RowGS.gather_rows_apply_of_inRange _ rfl rfl rfl rfl rfl rfl rfl _ _ i d
    (by rw [e]; exact (hb i).1) (by rw [e]; exact_mod_cast (hb i).2), v12_at]
  unfold Spec.bI
  congr 1
  rw [← fin_of_word (N := 32) (x2 (ix1 i)) (hb i).1 (by exact_mod_cast (hb i).2) (by have := hb i; omega)]
  exact Fin.ext (by show (val_main_v21 (F := Ideal) x2 (ix2 i (0 : Fin 1))).toInt.toNat = _; rw [e])

/-- Row `i` of the key sums gathered at the keys: the sum of row `i`'s own key. -/
theorem v29_at (x0 : FVec Ideal S16384x2048 .f32) (x1 x2 : IVec S16384 32) (h : Spec.InRange x1 x2)
    (i : Fin 16384) (d : Fin 2048) :
    val_main_v29 (F := Ideal) x0 x1 x2 (ix2 i d) = Spec.sumS x0 x1 x2 (Spec.sI x1 x2 i) d := by
  have e := v28_at x1 x2 h i
  have hr := seg_range x1 x2 h i
  unfold val_main_v29
  rw [Cert.Lib.RowGS.gather_rows_apply_of_inRange _ rfl rfl rfl rfl rfl rfl rfl _ _ i d
    (by rw [e]; exact hr.1) (by rw [e]; exact_mod_cast hr.2), v6_at]
  unfold Spec.sI
  congr 1
  rw [← fin_of_word (N := 3200) (Spec.seg x1 x2 i) hr.1 (by exact_mod_cast hr.2) (by omega)]
  exact Fin.ext (by show (val_main_v28 (F := Ideal) x1 x2 (ix2 i (0 : Fin 1))).toInt.toNat = _; rw [e])

/-- The rank-1 index at a coordinate, in its two spellings. -/
theorem ofFin_eq_ix1 {n : ℕ} (p : Fin n) : Shape.Idx.ofFin p = ix1 p :=
  funext fun a => by match a with | ⟨0, _⟩ => rfl

/-- Row `p` of a one-column index table, in its two spellings. -/
theorem ixP_eq_ix2 {n : ℕ} (p : Fin n) : StableHlo.Predicate.ixP p = ix2 p (0 : Fin 1) :=
  funext fun a => by match a with | ⟨0, _⟩ => rfl | ⟨1, _⟩ => rfl

/-- Entries of a vector taken at a column of start words already in `[0, N)`: entry `p` is the vector at the word
    read signed, the clamp doing nothing. -/
theorem gather1_apply_of_inRange {α : Type} {N n w : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n)
    (h0 : 0 ≤ (idx (ix2 p (0 : Fin 1))).toInt) (hlt : (idx (ix2 p (0 : Fin 1))).toInt < (N : ℤ)) :
    Host.gather d x idx (ix1 p) = x (ix1 ⟨(idx (ix2 p (0 : Fin 1))).toInt.toNat, by omega⟩) := by
  have key := StableHlo.Predicate.gather_take d hcoll hob hsim hivd x idx p (by omega)
  rw [ofFin_eq_ix1, ofFin_eq_ix1] at key
  refine key.trans (congrArg x (congrArg ix1 (Fin.ext ?_)))
  show min (idx (StableHlo.Predicate.ixP p)).toInt.toNat (N - 1) = (idx (ix2 p (0 : Fin 1))).toInt.toNat
  rw [ixP_eq_ix2]
  omega

/-- Entry `i` of the batch counts gathered at the batches: the count of row `i`'s own batch. -/
theorem v37_at (x2 : IVec S16384 32)
    (hb : ∀ j : Fin 16384, 0 ≤ (x2 (ix1 j)).toInt ∧ (x2 (ix1 j)).toInt < 32) (i : Fin 16384) :
    val_main_v37 (F := Ideal) x2 (ix1 i) = Spec.cB x2 (Spec.bI x2 i) := by
  have e := v36_at x2 hb i
  unfold val_main_v37
  rw [gather1_apply_of_inRange _ rfl rfl rfl rfl _ _ i
    (by rw [e]; exact (hb i).1) (by rw [e]; exact_mod_cast (hb i).2), v15_at]
  unfold Spec.bI
  congr 1
  rw [← fin_of_word (N := 32) (x2 (ix1 i)) (hb i).1 (by exact_mod_cast (hb i).2) (by have := hb i; omega)]
  exact Fin.ext (by show (val_main_v36 (F := Ideal) x2 (ix2 i (0 : Fin 1))).toInt.toNat = _; rw [e])

/-- Entry `i` of the key counts gathered at the keys: the count of row `i`'s own key. -/
theorem v44_at (x1 x2 : IVec S16384 32) (h : Spec.InRange x1 x2) (i : Fin 16384) :
    val_main_v44 (F := Ideal) x1 x2 (ix1 i) = Spec.cS x1 x2 (Spec.sI x1 x2 i) := by
  have e := v43_at x1 x2 h i
  have hr := seg_range x1 x2 h i
  unfold val_main_v44
  rw [gather1_apply_of_inRange _ rfl rfl rfl rfl _ _ i
    (by rw [e]; exact hr.1) (by rw [e]; exact_mod_cast hr.2), v9_at]
  unfold Spec.sI
  congr 1
  rw [← fin_of_word (N := 3200) (Spec.seg x1 x2 i) hr.1 (by exact_mod_cast hr.2) (by omega)]
  exact Fin.ext (by show (val_main_v43 (F := Ideal) x1 x2 (ix2 i (0 : Fin 1))).toInt.toNat = _; rw [e])

/-! ## The count difference, the mean, and the result -/

/-- The float count difference of row `i`. -/
theorem v45_at (x1 x2 : IVec S16384 32) (h : Spec.InRange x1 x2) (i : Fin 16384) :
    val_main_v45 (F := Ideal) x1 x2 (ix1 i) = Spec.dcR x1 x2 i := by
  rw [val_main_v45_apply, v37_at x2 h.2 i, v44_at x1 x2 h i]
  rfl

/-- The difference of the gathered sums. -/
theorem v30_at (x0 : FVec Ideal S16384x2048 .f32) (x1 x2 : IVec S16384 32) (h : Spec.InRange x1 x2)
    (i : Fin 16384) (d : Fin 2048) :
    val_main_v30 (F := Ideal) x0 x1 x2 (ix2 i d)
      = Spec.sumB x0 x2 (Spec.bI x2 i) d - Spec.sumS x0 x1 x2 (Spec.sI x1 x2 i) d := by
  rw [val_main_v30_apply, v22_at x0 x2 h.2 i d, v29_at x0 x1 x2 h i d]
  rfl

/-- A column entry broadcast along a row of 2048. -/
theorem row_idx (i : Fin 16384) (d : Fin 2048) : idx_main_v49 (ix2 i d) = ix2 i (0 : Fin 1) :=
  funext fun a => Fin.ext (by match a with | ⟨0, _⟩ => rfl | ⟨1, _⟩ => rfl)

/-- The divisor: the larger of the count difference and one, along the row. -/
theorem v49_at (x1 x2 : IVec S16384 32) (h : Spec.InRange x1 x2) (i : Fin 16384) (d : Fin 2048) :
    val_main_v49 (F := Ideal) x1 x2 (ix2 i d) = max (Spec.dcR x1 x2 i) 1 := by
  have e : idx_main_v48 (ix2 i (0 : Fin 1)) = ix1 i := col_idx i
  rw [val_main_v49_apply, row_idx, val_main_v48_apply, e, val_main_v47_apply, v45_at x1 x2 h i,
    val_main_v46_apply, val_main_cst_12_apply, Ideal.ofBits_def, Ideal.ofBits_one_f32]
  rfl

/-- The quotient. -/
theorem v50_at (x0 : FVec Ideal S16384x2048 .f32) (x1 x2 : IVec S16384 32) (h : Spec.InRange x1 x2)
    (i : Fin 16384) (d : Fin 2048) :
    val_main_v50 (F := Ideal) x0 x1 x2 (ix2 i d)
      = Ideal.div (Spec.sumB x0 x2 (Spec.bI x2 i) d - Spec.sumS x0 x1 x2 (Spec.sI x1 x2 i) d)
          (max (Spec.dcR x1 x2 i) 1) := by
  rw [val_main_v50_apply, v30_at x0 x1 x2 h i d, v49_at x1 x2 h i d]
  rfl

/-- The mask bit along the row: is the count difference positive? -/
theorem mask_at (x1 x2 : IVec S16384 32) (h : Spec.InRange x1 x2) (i : Fin 16384) (d : Fin 2048) :
    val_main_call0_v0 (F := Ideal) x1 x2 (ix2 i d) = Ideal.cmp .ogt (Spec.dcR x1 x2 i) 0 := by
  rw [val_main_call0_v0_apply]
  have e1 : idx_main_call0_v0 (ix2 i d) = ix2 i (0 : Fin 1) := row_idx i d
  rw [e1, val_main_v53_apply]
  have e2 : idx_main_v53 (ix2 i (0 : Fin 1)) = ix1 i := col_idx i
  rw [e2, val_main_v52_apply, v45_at x1 x2 h i, val_main_v51_apply, val_main_cst_13_apply, Ideal.ofBits_def,
    Ideal.ofBits_zero_f32]
  rfl

/-- The masked mean. -/
theorem v55_at (x0 : FVec Ideal S16384x2048 .f32) (x1 x2 : IVec S16384 32) (h : Spec.InRange x1 x2)
    (i : Fin 16384) (d : Fin 2048) :
    val_main_v55 (F := Ideal) x0 x1 x2 (ix2 i d) = Spec.mean x0 x1 x2 i d := by
  rw [val_main_v55_apply, mask_at x1 x2 h i d, v50_at x0 x1 x2 h i d, val_main_v54_apply, val_main_cst_14_apply,
    Ideal.ofBits_def, Ideal.ofBits_zero_f32]
  unfold Spec.mean Ideal.cmp
  by_cases hp : 0 < Spec.dcR x1 x2 i
  · rw [if_pos hp]
    have : (BitVec.ofBool (decide (0 < Spec.dcR x1 x2 i))) = 1#1 := by rw [decide_eq_true hp]; rfl
    show Scalar.select (BitVec.ofBool (decide (0 < Spec.dcR x1 x2 i))) _ _ = _
    rw [this, select_one]
  · rw [if_neg hp]
    have : (BitVec.ofBool (decide (0 < Spec.dcR x1 x2 i))) = 0#1 := by rw [decide_eq_false hp]; rfl
    show Scalar.select (BitVec.ofBool (decide (0 < Spec.dcR x1 x2 i))) _ _ = _
    rw [this, select_zero]

/-- The masked mean against the second weight matrix. -/
theorem v62_at (x0 : FVec Ideal S16384x2048 .f32) (x1 x2 : IVec S16384 32) (x5 : FVec Ideal S256x2048 .f32)
    (h : Spec.InRange x1 x2) (i : Fin 16384) (q : Fin 256) :
    val_main_v62 (F := Ideal) x0 x1 x2 x5 (ix2 i q) = ∑ d : Fin 2048, Spec.mean x0 x1 x2 i d * x5 (ix2 q d) := by
  rw [val_main_v62_apply]
  refine Finset.sum_congr rfl fun k _ => ?_
  have el : lidx_main_v62 (ix2 i q) k = ix2 i k :=
    funext fun a => Fin.ext (by match a with | ⟨0, _⟩ => rfl | ⟨1, _⟩ => rfl)
  have er : idx_main_v61 (ridx_main_v62 (ix2 i q) k) = ix2 q k :=
    funext fun a => Fin.ext (by match a with | ⟨0, _⟩ => rfl | ⟨1, _⟩ => rfl)
  rw [el, v55_at x0 x1 x2 h i k, val_main_v61_apply, er]

/-- The rows against the first weight matrix. -/
theorem v57_at (x0 : FVec Ideal S16384x2048 .f32) (x3 : FVec Ideal S256x2048 .f32) (i : Fin 16384) (q : Fin 256) :
    val_main_v57 (F := Ideal) x0 x3 (ix2 i q) = Spec.proj x0 x3 i q := by
  rw [val_main_v57_apply]
  unfold Spec.proj
  refine Finset.sum_congr rfl fun k _ => ?_
  have el : lidx_main_v57 (ix2 i q) k = ix2 i k :=
    funext fun a => Fin.ext (by match a with | ⟨0, _⟩ => rfl | ⟨1, _⟩ => rfl)
  have er : idx_main_v56 (ridx_main_v57 (ix2 i q) k) = ix2 q k :=
    funext fun a => Fin.ext (by match a with | ⟨0, _⟩ => rfl | ⟨1, _⟩ => rfl)
  rw [el, val_main_v56_apply, er]

/-- A bias vector laid along every row. -/
theorem v59_at (x4 : FVec Ideal S256 .f32) (i : Fin 16384) (q : Fin 256) :
    val_main_v59 (F := Ideal) x4 (ix2 i q) = x4 (ix1 q) := by
  rw [val_main_v59_apply, val_main_v58_apply]
  exact congrArg x4 (funext fun a => Fin.ext (by match a with | ⟨0, _⟩ => rfl))

theorem v65_at (x6 : FVec Ideal S256 .f32) (i : Fin 16384) (q : Fin 256) :
    val_main_v65 (F := Ideal) x6 (ix2 i q) = x6 (ix1 q) := by
  rw [val_main_v65_apply, val_main_v64_apply]
  exact congrArg x6 (funext fun a => Fin.ext (by match a with | ⟨0, _⟩ => rfl))

theorem ref_value (x0 : FVec Ideal S16384x2048 .f32) (x1 x2 : IVec S16384 32) (x3 : FVec Ideal S256x2048 .f32)
    (x4 : FVec Ideal S256 .f32) (x5 : FVec Ideal S256x2048 .f32) (x6 : FVec Ideal S256 .f32)
    (h : Spec.InRange x1 x2) :
    val_main_v66 (F := Ideal) x0 x1 x2 x3 x4 x5 x6 = Spec.Rfn x0 x1 x2 x3 x4 x5 x6 := by
  funext o
  obtain ⟨i, q, rfl⟩ : ∃ (i : Fin 16384) (q : Fin 256), o = ix2 i q := ⟨o 0, o 1, eq_ix2 o⟩
  rw [val_main_v66_apply, val_main_v63_apply, val_main_v60_apply, v57_at, v59_at, v62_at x0 x1 x2 x5 h, v65_at]
  rfl

end Cert.RefValue

end
-- ==== Proof.LibAggAlgebra.lean ====
/-
  Extended-real algebra for a neighbourhood sum over a zero-one adjacency.

  On the extended reals products do not distribute over sums at the infinities, and a sum of
  coerced reals has to be shown to be the coerced sum. Every lemma here assumes its operands are
  (coercions of) real numbers, moves the whole identity into the reals, and proves it there.
-/
import Mathlib.Data.EReal.Inv
import Mathlib.Data.EReal.Operations
import Mathlib.Algebra.BigOperators.Group.Finset.Basic
import Mathlib.Algebra.BigOperators.Ring.Finset
import Mathlib.Analysis.SpecialFunctions.Sqrt
import Mathlib.Tactic.Ring
import Mathlib.Tactic.Linarith
import Mathlib.Tactic.NormNum
import Idealize.ShloMosaic.PureOps.Ideal

noncomputable section

namespace Cert.AggAlgebra

open Idealize.ShloMosaic

/-- An extended real that is (the coercion of) a real number. -/
abbrev IsReal (x : EReal) : Prop := ∃ r : ℝ, x = (r : EReal)

variable {ι : Type*}

/-! ### Reals are closed under the operations of the network -/

theorem isReal_coe (r : ℝ) : IsReal (r : EReal) := ⟨r, rfl⟩

theorem isReal_zero : IsReal (0 : EReal) := ⟨0, rfl⟩

theorem isReal_one : IsReal (1 : EReal) := ⟨1, rfl⟩

theorem isReal_of_zero_or_one {x : EReal} (h : x = 0 ∨ x = 1) : IsReal x := by
  rcases h with rfl | rfl
  · exact isReal_zero
  · exact isReal_one

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  obtain ⟨a, rfl⟩ := hx
  obtain ⟨b, rfl⟩ := hy
  exact ⟨max a b, (EReal.coe_strictMono.monotone.map_max).symm⟩

/-- The coercion of a finite sum of reals is the sum of the coercions. -/
theorem coe_sum (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem isReal_sum (s : Finset ι) (f : ι → EReal) (hf : ∀ i ∈ s, IsReal (f i)) :
    IsReal (∑ i ∈ s, f i) := by
  classical
  induction s using Finset.induction_on with
  | empty => exact ⟨0, by simp⟩
  | insert i s hi ih =>
    rw [Finset.sum_insert hi]
    exact isReal_add (hf i (Finset.mem_insert_self i s))
      (ih fun j hj => hf j (Finset.mem_insert_of_mem hj))

/-! ### (i) The scaled neighbourhood sum factors -/

/-- With a zero-one weight `a` and real `h`, `d`, `hj`, `dj`: summing `h i * (d i * dj)` over the
    indices where `a` is not zero, and adding the self term `hj * (dj * dj)`, is the weighted sum
    `∑ a i * (h i * d i)` plus `hj * dj`, all times `dj`. -/
theorem agg_factor [Fintype ι] (a h d : ι → EReal) (hj dj : EReal)
    [inst : ∀ i, Decidable (a i ≠ 0)]
    (ha : ∀ i, a i = 0 ∨ a i = 1) (hh : ∀ i, IsReal (h i)) (hd : ∀ i, IsReal (d i))
    (hhj : IsReal hj) (hdj : IsReal dj) :
    (∑ i, if a i ≠ 0 then h i * (d i * dj) else 0) + hj * (dj * dj)
      = ((∑ i, a i * (h i * d i)) + hj * dj) * dj := by
  choose hr hhr using hh
  choose dr hdr using hd
  obtain ⟨hjr, rfl⟩ := hhj
  obtain ⟨djr, rfl⟩ := hdj
  -- every summand on either side is the coercion of a real summand
  have hL : ∀ i, (if a i ≠ 0 then h i * (d i * (djr : EReal)) else 0)
      = ((if a i ≠ 0 then hr i * (dr i * djr) else 0 : ℝ) : EReal) := by
    intro i
    split_ifs
    · rw [hhr i, hdr i, ← EReal.coe_mul, ← EReal.coe_mul]
    · rfl
  have hR : ∀ i, a i * (h i * d i) = ((if a i ≠ 0 then hr i * dr i else 0 : ℝ) : EReal) := by
    intro i
    rcases ha i with h0 | h1
    · rw [if_neg (by simp [h0]), h0, zero_mul]; rfl
    · rw [if_pos (by simp [h1]), h1, one_mul, hhr i, hdr i, ← EReal.coe_mul]
  rw [Finset.sum_congr rfl (fun i _ => hL i), Finset.sum_congr rfl (fun i _ => hR i),
    ← coe_sum, ← coe_sum, ← EReal.coe_mul, ← EReal.coe_mul, ← EReal.coe_mul, ← EReal.coe_add,
    ← EReal.coe_add, ← EReal.coe_mul]
  congr 1
  -- the identity in the reals: distribute the last factor over the sum
  rw [add_mul, Finset.sum_mul]
  congr 1
  · refine Finset.sum_congr rfl fun i _ => ?_
    split_ifs <;> ring
  · ring

/-! ### (ii) The degree: a count, a real at least one, and its inverse square root -/

/-- Counting the indices where a zero-one weight is not zero is summing the weight. -/
theorem count_eq_sum [Fintype ι] (a : ι → EReal) [inst : ∀ i, Decidable (a i ≠ 0)]
    (ha : ∀ i, a i = 0 ∨ a i = 1) :
    (∑ i, if a i ≠ 0 then (1 : EReal) else 0) + 1 = (∑ i, a i) + 1 := by
  congr 1
  refine Finset.sum_congr rfl fun i _ => ?_
  rcases ha i with h0 | h1
  · rw [if_neg (by simp [h0]), h0]
  · rw [if_pos (by simp [h1]), h1]

/-- The sum of a zero-one weight, plus one, is a real number at least one. -/
theorem sum_add_one_real [Fintype ι] (a : ι → EReal) (ha : ∀ i, a i = 0 ∨ a i = 1) :
    ∃ r : ℝ, 1 ≤ r ∧ (∑ i, a i) + 1 = (r : EReal) := by
  classical
  -- the weight as a real zero-one function
  have hcoe : ∀ i, a i = ((if a i ≠ 0 then 1 else 0 : ℝ) : EReal) := by
    intro i
    rcases ha i with h0 | h1
    · rw [if_neg (by simp [h0]), h0]; rfl
    · rw [if_pos (by simp [h1]), h1]; rfl
  refine ⟨(∑ i, (if a i ≠ 0 then 1 else 0 : ℝ)) + 1, ?_, ?_⟩
  · have h0 : 0 ≤ ∑ i, (if a i ≠ 0 then (1 : ℝ) else 0) :=
      Finset.sum_nonneg fun i _ => by split_ifs <;> norm_num
    linarith
  · rw [EReal.coe_add, coe_sum, EReal.coe_one]
    congr 1
    exact Finset.sum_congr rfl fun i _ => hcoe i

/-- One over the square root is the inverse square root, at a positive real. -/
theorem div_one_sqrt (r : ℝ) (hr : 0 < r) :
    Ideal.div 1 (Ideal.sqrt (r : EReal)) = Ideal.rsqrt (r : EReal) := by
  have hs : 0 < Real.sqrt r := Real.sqrt_pos.mpr hr
  have hs0 : ((Real.sqrt r : ℝ) : EReal) ≠ 0 := by exact_mod_cast hs.ne'
  rw [Ideal.sqrt_coe, Ideal.rsqrt_coe, if_neg (not_lt.mpr hr.le), if_neg (not_lt.mpr hr.le),
    if_neg hr.ne', Ideal.div, if_neg hs0, one_mul, EReal.coe_inv]

/-- The inverse square root of a positive real is a positive real. -/
theorem rsqrt_pos_real (r : ℝ) (hr : 0 < r) :
    ∃ s : ℝ, 0 < s ∧ Ideal.rsqrt (r : EReal) = (s : EReal) := by
  have hs : 0 < Real.sqrt r := Real.sqrt_pos.mpr hr
  refine ⟨(Real.sqrt r)⁻¹, inv_pos.mpr hs, ?_⟩
  rw [Ideal.rsqrt_coe, if_neg (not_lt.mpr hr.le), if_neg hr.ne']

/-- A positive real compares greater than zero. -/
theorem cmp_ogt_zero (r : ℝ) (hr : 0 < r) : Ideal.cmp .ogt (r : EReal) 0 = 1#1 := by
  have h : (0 : EReal) < (r : EReal) := EReal.coe_pos.mpr hr
  simp [Ideal.cmp, h]

end Cert.AggAlgebra

end
-- ==== Proof.BridgeK.lean ====
/-
  The tiled program's closed form is the common value, over real inputs with labels and batches in range.
-/
import proofs.«421069_j24412594110965_3_alg».proof.Proof.Spec
import proofs.«421069_j24412594110965_3_alg».proof.Proof.LibTileSum
import proofs.«421069_j24412594110965_3_alg».proof.Proof.LibAggAlgebra

noncomputable section

namespace Cert.Spec

open Idealize.ShloMosaic Idealize.ShloMosaic.ValueIdx
open scoped BigOperators

/-! ### Words in range -/

/-- A 32-bit word whose signed value lies in `[0, n)` with `n ≤ 2^31` has that value as its unsigned one. -/
theorem toNat_of_toInt {w : BitVec 32} {n : ℤ} (hn : n ≤ 2147483648) (h0 : 0 ≤ w.toInt) (h1 : w.toInt < n) :
    (w.toNat : ℤ) = w.toInt := by
  have hw := w.isLt
  rw [BitVec.toInt_eq_toNat_cond] at h0 h1 ⊢
  split_ifs at h0 h1 ⊢ with hc
  · rfl
  · omega

/-- With a label in `[0, 100)` and a batch in `[0, 32)` the key `100 * batch + label` does not wrap. -/
theorem word_key (a b : BitVec 32) (ha0 : 0 ≤ a.toInt) (ha1 : a.toInt < 100) (hb0 : 0 ≤ b.toInt) (hb1 : b.toInt < 32) :
    (b * 100#32 + a).toInt = 100 * b.toInt + a.toInt := by
  have ea := toNat_of_toInt (n := 100) (by norm_num) ha0 ha1
  have eb := toNat_of_toInt (n := 32) (by norm_num) hb0 hb1
  have hn : (b * 100#32 + a).toNat = b.toNat * 100 + a.toNat := by
    rw [BitVec.toNat_add, BitVec.toNat_mul, BitVec.toNat_ofNat]
    omega
  rw [BitVec.toInt_eq_toNat_cond, hn]
  split_ifs <;> omega

variable {lab lb : SL.Idx → BitVec 32}

/-- In range, the key of row `j` read signed is `100 * batch + label`. -/
theorem seg_toInt (h : InRange lab lb) (j : Fin 16384) :
    (seg lab lb j).toInt = 100 * (lb (ix1 j)).toInt + (lab (ix1 j)).toInt :=
  word_key _ _ (h.1 j).1 (h.1 j).2 (h.2 j).1 (h.2 j).2

theorem seg_nonneg (h : InRange lab lb) (j : Fin 16384) : 0 ≤ (seg lab lb j).toInt := by
  have := seg_toInt h j; have := h.1 j; have := h.2 j; omega

theorem seg_lt (h : InRange lab lb) (j : Fin 16384) : (seg lab lb j).toInt < 3200 := by
  have := seg_toInt h j; have := h.1 j; have := h.2 j; omega

/-- A word in `[0, 3200)` is the word of a number `s < 3200` exactly when its signed value is `s`. -/
theorem word_eq_ofNat_iff (w : BitVec 32) (s : ℕ) (hs : s < 3200) (h0 : 0 ≤ w.toInt) (h1 : w.toInt < 3200) :
    w = BitVec.ofNat 32 s ↔ w.toInt = (s : ℤ) := by
  have e := toNat_of_toInt (n := 3200) (by norm_num) h0 h1
  constructor
  · intro hw
    have : w.toNat = s := by rw [hw, BitVec.toNat_ofNat]; omega
    omega
  · intro hw
    apply BitVec.eq_of_toNat_eq
    rw [BitVec.toNat_ofNat]
    omega

/-- A one-hot entry times a real is that real where the key matches, zero elsewhere. -/
theorem oh_mul_coe {w : BitVec 32} (h0 : 0 ≤ w.toInt) (h1 : w.toInt < 3200) (s : Fin 3200) (r : ℝ) :
    oh w s * (r : EReal) = ((if w.toInt = (s.val : ℤ) then r else 0 : ℝ) : EReal) := by
  unfold oh
  rw [if_congr (word_eq_ofNat_iff w s.val s.isLt h0 h1) rfl rfl]
  split_ifs
  · rw [one_mul]
  · rw [zero_mul, EReal.coe_zero]

/-! ### The projected rows are real -/

/-- A row of reals against a row of reals: the extended-real sum of products is the real one. -/
theorem proj_coe (xr : Fin 16384 → Fin 2048 → ℝ) (w : Fin 256 → Fin 2048 → ℝ) (j : Fin 16384) (q : Fin 256) :
    proj (fun k => ((xr (k 0) (k 1) : ℝ) : EReal)) (fun k => ((w (k 0) (k 1) : ℝ) : EReal)) j q
      = ((∑ d : Fin 2048, xr j d * w q d : ℝ) : EReal) := by
  unfold proj
  rw [Cert.AggAlgebra.coe_sum]
  refine Finset.sum_congr rfl fun d _ => ?_
  rw [EReal.coe_mul]

/-! ### The two halves of sixteen tiles are all the rows -/

/-- Summing over the sixteen tiles of 512 rows of each half, and adding the halves, is summing over every row. -/
theorem sum_rows {M : Type*} [AddCommMonoid M] (G : Fin 16384 → M) :
    (∑ n : Fin 16, ∑ r : Fin 512, G (row 0 n r)) + (∑ n : Fin 16, ∑ r : Fin 512, G (row 1 n r))
      = ∑ j : Fin 16384, G j := by
  -- the sixteen tiles of a half are its 8192 rows
  have half : ∀ h : Fin 2, ∑ n : Fin 16, ∑ r : Fin 512, G (row h n r)
      = ∑ m : Fin 8192, G ⟨h.val * 8192 + m.val, by omega⟩ := by
    intro h
    rw [← Cert.TileSum.sum_tiles_fin' 16 512 8192 rfl (fun m : Fin 8192 => G ⟨h.val * 8192 + m.val, by omega⟩)
      (fun n r => ⟨n.val * 512 + r.val, by omega⟩) (fun _ _ => rfl)]
    refine Finset.sum_congr rfl fun n _ => Finset.sum_congr rfl fun r _ => congrArg G (Fin.ext ?_)
    show (h.val * 16 + n.val) * 512 + r.val = h.val * 8192 + (n.val * 512 + r.val)
    omega
  -- the two halves are the 16384 rows
  rw [half 0, half 1, ← Cert.TileSum.sum_tiles_fin' 2 8192 16384 rfl G
    (fun h m => ⟨h.val * 8192 + m.val, by omega⟩) (fun _ _ => rfl), Fin.sum_univ_two]

/-! ### Sums by key and by batch, over the reals -/

/-- The values `p j` of the rows whose key is `s`, summed. -/
def keySum (p : Fin 16384 → ℝ) (lab lb : SL.Idx → BitVec 32) (s : ℤ) : ℝ :=
  ∑ j : Fin 16384, if (seg lab lb j).toInt = s then p j else 0

/-- The values `p j` of the rows whose batch is `b`, summed. -/
def batchSum (p : Fin 16384 → ℝ) (lb : SL.Idx → BitVec 32) (b : ℤ) : ℝ :=
  ∑ j : Fin 16384, if (lb (ix1 j)).toInt = b then p j else 0

/-- A batch's hundred keys together hold exactly the batch's rows. -/
theorem sum_labels (h : InRange lab lb) (p : Fin 16384 → ℝ) (b : Fin 32) :
    ∑ l : Fin 100, keySum p lab lb ((b.val * 100 + l.val : ℕ) : ℤ) = batchSum p lb (b.val : ℤ) := by
  unfold keySum batchSum
  rw [Finset.sum_comm]
  refine Finset.sum_congr rfl fun j _ => ?_
  have hs := seg_toInt h j
  obtain ⟨ha0, ha1⟩ := h.1 j
  obtain ⟨hb0, hb1⟩ := h.2 j
  by_cases hb : (lb (ix1 j)).toInt = (b.val : ℤ)
  · -- the row's own label is the one key of the batch that matches
    rw [if_pos hb]
    have hl : (lab (ix1 j)).toInt.toNat < 100 := by omega
    rw [Finset.sum_eq_single (⟨(lab (ix1 j)).toInt.toNat, hl⟩ : Fin 100)]
    · rw [if_pos]
      show (seg lab lb j).toInt = ((b.val * 100 + (lab (ix1 j)).toInt.toNat : ℕ) : ℤ)
      omega
    · intro l _ hne
      rw [if_neg]
      intro hc
      apply hne
      apply Fin.ext
      show l.val = (lab (ix1 j)).toInt.toNat
      omega
    · intro hc
      exact absurd (Finset.mem_univ _) hc
  · -- no key of another batch matches
    rw [if_neg hb]
    refine Finset.sum_eq_zero fun l _ => ?_
    rw [if_neg]
    intro hc
    apply hb
    have := l.isLt
    omega

/-! ### The tables of the tiled program are real -/

section Tables

variable (xr : Fin 16384 → Fin 2048 → ℝ) (w2 : Fin 256 → Fin 2048 → ℝ)

/-- Row `j` of the real `x` against row `q` of the real second matrix. -/
def pr2 (j : Fin 16384) (q : Fin 256) : ℝ := ∑ d : Fin 2048, xr j d * w2 q d

/-- The sum of the two halves' tables at key `s` is the real sum of the projected rows of key `s`. -/
theorem sbl_coe (h : InRange lab lb) (s : Fin 3200) (q : Fin 256) :
    sbl (fun k => ((xr (k 0) (k 1) : ℝ) : EReal)) lab lb (fun k => ((w2 (k 0) (k 1) : ℝ) : EReal)) s q
      = ((keySum (fun j => pr2 xr w2 j q) lab lb (s.val : ℤ) : ℝ) : EReal) := by
  unfold sbl part
  rw [sum_rows (fun j => oh (seg lab lb j) s
    * proj (fun k => ((xr (k 0) (k 1) : ℝ) : EReal)) (fun k => ((w2 (k 0) (k 1) : ℝ) : EReal)) j q)]
  unfold keySum
  rw [Cert.AggAlgebra.coe_sum]
  refine Finset.sum_congr rfl fun j _ => ?_
  rw [proj_coe, oh_mul_coe (seg_nonneg h j) (seg_lt h j)]
  rfl

/-- A batch's hundred rows of the table add up to the real sum of the projected rows of the batch. -/
theorem sb_coe (h : InRange lab lb) (b : Fin 32) (q : Fin 256) :
    sb (fun k => ((xr (k 0) (k 1) : ℝ) : EReal)) lab lb (fun k => ((w2 (k 0) (k 1) : ℝ) : EReal)) b q
      = ((batchSum (fun j => pr2 xr w2 j q) lb (b.val : ℤ) : ℝ) : EReal) := by
  unfold sb
  rw [← sum_labels h (fun j => pr2 xr w2 j q) b, Cert.AggAlgebra.coe_sum]
  refine Finset.sum_congr rfl fun l _ => ?_
  exact sbl_coe xr w2 h _ q

/-- The gathered table at key `s`: the batch total of `s / 100` minus the key's own total, as a real. -/
theorem dtab_coe (h : InRange lab lb) (s : Fin 3200) (q : Fin 256) :
    dtab (fun k => ((xr (k 0) (k 1) : ℝ) : EReal)) lab lb (fun k => ((w2 (k 0) (k 1) : ℝ) : EReal)) s q
      = ((batchSum (fun j => pr2 xr w2 j q) lb ((s.val / 100 : ℕ) : ℤ)
          - keySum (fun j => pr2 xr w2 j q) lab lb (s.val : ℤ) : ℝ) : EReal) := by
  unfold dtab
  rw [sb_coe xr w2 h, sbl_coe xr w2 h, ← EReal.coe_sub]

end Tables

/-! ### One-hot selection, and the count factor -/

/-- A one-hot row against a real column picks the entry at the word's own number. -/
theorem sum_onehot_coe {w : BitVec 32} (h0 : 0 ≤ w.toInt) (h1 : w.toInt < 3200) (D : Fin 3200 → ℝ) :
    ∑ s : Fin 3200, oh w s * ((D s : ℝ) : EReal) = ((D ⟨w.toInt.toNat, by omega⟩ : ℝ) : EReal) := by
  rw [Finset.sum_congr rfl fun s _ => oh_mul_coe h0 h1 s (D s), ← Cert.AggAlgebra.coe_sum]
  congr 1
  rw [Finset.sum_eq_single (⟨w.toInt.toNat, by omega⟩ : Fin 3200)]
  · rw [if_pos]
    show w.toInt = ((w.toInt.toNat : ℕ) : ℤ)
    omega
  · intro s _ hne
    rw [if_neg]
    intro hc
    apply hne
    apply Fin.ext
    show s.val = w.toInt.toNat
    omega
  · intro hc
    exact absurd (Finset.mem_univ _) hc

/-- The per-row factor is the real reciprocal of the count where the count is positive, zero elsewhere. -/
theorem ninv_coe (lab lb : SL.Idx → BitVec 32) (i : Fin 16384) :
    ninv lab lb i = ((if 0 < dcnt lab lb i then 1 / ((dcnt lab lb i : ℤ) : ℝ) else 0 : ℝ) : EReal) := by
  unfold ninv
  split_ifs with hp
  · have hne : ((dcnt lab lb i : ℤ) : ℝ) ≠ 0 := by exact_mod_cast hp.ne'
    rw [max_eq_left (by omega : (1 : ℤ) ≤ dcnt lab lb i), Ideal.div_coe hne, one_mul]
  · rw [EReal.coe_zero]

/-! ### The value at a row and a column -/

/-- At row `i` and column `q` the tiled program's closed form is the common real value. -/
theorem Kfn_at (xr : Fin 16384 → Fin 2048 → ℝ) (w1 : Fin 256 → Fin 2048 → ℝ)
    (c1 : Fin 256 → ℝ) (w2 : Fin 256 → Fin 2048 → ℝ) (c2 : Fin 256 → ℝ) (h : InRange lab lb)
    (i : Fin 16384) (q : Fin 256) :
    ((proj (fun k => ((xr (k 0) (k 1) : ℝ) : EReal)) (fun k => ((w1 (k 0) (k 1) : ℝ) : EReal)) i q + ((c1 q : ℝ) : EReal))
      + (∑ s : Fin 3200, oh (seg lab lb i) s
          * dtab (fun k => ((xr (k 0) (k 1) : ℝ) : EReal)) lab lb (fun k => ((w2 (k 0) (k 1) : ℝ) : EReal)) s q)
        * ninv lab lb i)
      + ((c2 q : ℝ) : EReal)
      = ((Mid xr lab lb w1 c1 w2 c2 i q : ℝ) : EReal) := by
  have h0 := seg_nonneg h i
  have h1 := seg_lt h i
  have hs := seg_toInt h i
  obtain ⟨ha0, ha1⟩ := h.1 i
  obtain ⟨hb0, hb1⟩ := h.2 i
  rw [proj_coe, Finset.sum_congr rfl fun s _ => congrArg (oh (seg lab lb i) s * ·) (dtab_coe xr w2 h s q),
    sum_onehot_coe h0 h1, ninv_coe, ← EReal.coe_add, ← EReal.coe_mul, ← EReal.coe_add, ← EReal.coe_add]
  refine congrArg Real.toEReal ?_
  -- the selected entry is the one of the row's own batch and key
  have e1 : (((⟨(seg lab lb i).toInt.toNat, by omega⟩ : Fin 3200).val / 100 : ℕ) : ℤ) = (lb (ix1 i)).toInt := by
    show (((seg lab lb i).toInt.toNat / 100 : ℕ) : ℤ) = (lb (ix1 i)).toInt
    omega
  have e2 : (((⟨(seg lab lb i).toInt.toNat, by omega⟩ : Fin 3200).val : ℕ) : ℤ) = (seg lab lb i).toInt := by
    show (((seg lab lb i).toInt.toNat : ℕ) : ℤ) = (seg lab lb i).toInt
    omega
  rw [e1, e2]
  unfold Mid batchSum keySum pr2
  rfl

theorem Kfn_eq_mid (xr : Fin 16384 → Fin 2048 → ℝ) (lab lb : SL.Idx → BitVec 32) (w1 : Fin 256 → Fin 2048 → ℝ)
    (c1 : Fin 256 → ℝ) (w2 : Fin 256 → Fin 2048 → ℝ) (c2 : Fin 256 → ℝ) (h : InRange lab lb) :
    Kfn (fun j => ((xr (j 0) (j 1) : ℝ) : EReal)) lab lb (fun j => ((w1 (j 0) (j 1) : ℝ) : EReal))
        (fun j => ((c1 (j 0) : ℝ) : EReal)) (fun j => ((w2 (j 0) (j 1) : ℝ) : EReal)) (fun j => ((c2 (j 0) : ℝ) : EReal))
      = fun o => ((Mid xr lab lb w1 c1 w2 c2 (o 0) (o 1) : ℝ) : EReal) := by
  funext o
  exact Kfn_at xr w1 c1 w2 c2 h (o 0) (o 1)

end Cert.Spec

end
-- ==== Proof.BridgeR.lean ====
/-
  The plain program's closed form is the common value, over real inputs with labels and batches in range.
-/
import proofs.«421069_j24412594110965_3_alg».proof.Proof.Spec
import proofs.«421069_j24412594110965_3_alg».proof.Proof.LibAggAlgebra

noncomputable section

namespace Cert.Spec

open Idealize.ShloMosaic Idealize.ShloMosaic.ValueIdx
open scoped BigOperators
open Cert.AggAlgebra (coe_sum)

/-! ### Words in range -/

/-- A word that reads nonnegative signed reads the same unsigned. -/
theorem toNat_of_toInt_nonneg (w : BitVec 32) (h : 0 ≤ w.toInt) : (w.toNat : ℤ) = w.toInt := by
  have hlt := w.isLt
  rw [BitVec.toInt_eq_toNat_cond] at h ⊢
  split_ifs at h ⊢ with hc
  · rfl
  · omega

/-- A batch word in `[0, 32)` is its own index among the 32 batches. -/
theorem bI_val (lb : SL.Idx → BitVec 32) (i : Fin 16384)
    (h0 : 0 ≤ (lb (ix1 i)).toInt) (h1 : (lb (ix1 i)).toInt < 32) :
    ((bI lb i).val : ℤ) = (lb (ix1 i)).toInt := by
  have e := toNat_of_toInt_nonneg _ h0
  show (((lb (ix1 i)).toNat % 32 : ℕ) : ℤ) = _
  omega

/-- In range the key word does not wrap: it reads `100 * batch + label`. -/
theorem seg_toInt (lab lb : SL.Idx → BitVec 32) (h : InRange lab lb) (i : Fin 16384) :
    (seg lab lb i).toInt = 100 * (lb (ix1 i)).toInt + (lab (ix1 i)).toInt := by
  obtain ⟨hl0, hl1⟩ := h.1 i
  obtain ⟨hb0, hb1⟩ := h.2 i
  have e1 := toNat_of_toInt_nonneg _ hl0
  have e2 := toNat_of_toInt_nonneg _ hb0
  have hn : (seg lab lb i).toNat = (lb (ix1 i)).toNat * 100 + (lab (ix1 i)).toNat := by
    unfold seg
    rw [BitVec.toNat_add, BitVec.toNat_mul, BitVec.toNat_ofNat]
    omega
  rw [BitVec.toInt_eq_toNat_cond, hn]
  split_ifs <;> omega

/-- In range the key word lies in `[0, 3200)`. -/
theorem seg_range (lab lb : SL.Idx → BitVec 32) (h : InRange lab lb) (i : Fin 16384) :
    0 ≤ (seg lab lb i).toInt ∧ (seg lab lb i).toInt < 3200 := by
  obtain ⟨hl0, hl1⟩ := h.1 i
  obtain ⟨hb0, hb1⟩ := h.2 i
  rw [seg_toInt lab lb h i]
  constructor <;> omega

/-- A key word in `[0, 3200)` is its own index among the 3200 keys. -/
theorem sI_val (lab lb : SL.Idx → BitVec 32) (h : InRange lab lb) (i : Fin 16384) :
    ((sI lab lb i).val : ℤ) = (seg lab lb i).toInt := by
  obtain ⟨h0, h1⟩ := seg_range lab lb h i
  have e := toNat_of_toInt_nonneg _ h0
  show (((seg lab lb i).toNat % 3200 : ℕ) : ℤ) = _
  omega

/-! ### Counts and sums of coerced reals -/

/-- A sum of zeros and ones over the extended reals is the number of ones. -/
theorem sum_ite_one_coe {ι : Type*} [Fintype ι] (p : ι → Prop) [DecidablePred p] :
    (∑ j, if p j then (1 : EReal) else 0) = (((Finset.univ.filter p).card : ℝ) : EReal) := by
  have hc : ∀ j, (if p j then (1 : EReal) else 0) = ((if p j then (1 : ℝ) else 0 : ℝ) : EReal) := by
    intro j
    split_ifs <;> rfl
  rw [Finset.sum_congr rfl fun j _ => hc j, ← coe_sum, Finset.sum_boole]

/-- A masked sum of coerced reals is the coerced masked sum. -/
theorem sum_ite_coe {ι : Type*} [Fintype ι] (p : ι → Prop) [DecidablePred p] (f : ι → ℝ) :
    (∑ j, if p j then ((f j : ℝ) : EReal) else 0) = ((∑ j, if p j then f j else 0 : ℝ) : EReal) := by
  rw [coe_sum]
  refine Finset.sum_congr rfl fun j _ => ?_
  split_ifs <;> rfl

/-- The float count of a batch is the integer count. -/
theorem cB_coe (lb : SL.Idx → BitVec 32) (b : Fin 32) :
    cB lb b = (((cntB lb (b.val : ℤ) : ℕ) : ℝ) : EReal) := by
  unfold cB cntB
  exact sum_ite_one_coe _

/-- The float count of a key is the integer count. -/
theorem cS_coe (lab lb : SL.Idx → BitVec 32) (s : Fin 3200) :
    cS lab lb s = (((cntS lab lb (s.val : ℤ) : ℕ) : ℝ) : EReal) := by
  unfold cS cntS
  exact sum_ite_one_coe _

/-- The float count difference of a row is the integer one. -/
theorem dcR_coe (lab lb : SL.Idx → BitVec 32) (h : InRange lab lb) (i : Fin 16384) :
    dcR lab lb i = (((dcnt lab lb i : ℤ) : ℝ) : EReal) := by
  unfold dcR dcnt
  rw [cB_coe, cS_coe, bI_val lb i (h.2 i).1 (h.2 i).2, sI_val lab lb h i, ← EReal.coe_sub]
  push_cast
  rfl

/-- A batch's rows of real `x`, summed, are a real. -/
theorem sumB_coe (xr : Fin 16384 → Fin 2048 → ℝ) (lb : SL.Idx → BitVec 32) (b : Fin 32) (d : Fin 2048) :
    sumB (fun j => ((xr (j 0) (j 1) : ℝ) : EReal)) lb b d
      = ((∑ j : Fin 16384, if (lb (ix1 j)).toInt = (b.val : ℤ) then xr j d else 0 : ℝ) : EReal) := by
  unfold sumB
  exact sum_ite_coe (fun j : Fin 16384 => (lb (ix1 j)).toInt = (b.val : ℤ)) (fun j => xr j d)

/-- A key's rows of real `x`, summed, are a real. -/
theorem sumS_coe (xr : Fin 16384 → Fin 2048 → ℝ) (lab lb : SL.Idx → BitVec 32) (s : Fin 3200) (d : Fin 2048) :
    sumS (fun j => ((xr (j 0) (j 1) : ℝ) : EReal)) lab lb s d
      = ((∑ j : Fin 16384, if (seg lab lb j).toInt = (s.val : ℤ) then xr j d else 0 : ℝ) : EReal) := by
  unfold sumS
  exact sum_ite_coe (fun j : Fin 16384 => (seg lab lb j).toInt = (s.val : ℤ)) (fun j => xr j d)

/-- A row of real `x` against a row of a real matrix is a real. -/
theorem proj_coe (xr : Fin 16384 → Fin 2048 → ℝ) (w : Fin 256 → Fin 2048 → ℝ) (i : Fin 16384) (q : Fin 256) :
    proj (fun j => ((xr (j 0) (j 1) : ℝ) : EReal)) (fun j => ((w (j 0) (j 1) : ℝ) : EReal)) i q
      = ((∑ d : Fin 2048, xr i d * w q d : ℝ) : EReal) := by
  unfold proj
  rw [coe_sum]
  refine Finset.sum_congr rfl fun d _ => ?_
  rw [EReal.coe_mul]

/-! ### The masked mean -/

/-- The masked mean of row `i` at column `d`, over real `x` and in range, is a real: the difference of the batch's and
    the key's sums times the reciprocal of the count difference, where that is positive. -/
theorem mean_coe (xr : Fin 16384 → Fin 2048 → ℝ) (lab lb : SL.Idx → BitVec 32) (h : InRange lab lb)
    (i : Fin 16384) (d : Fin 2048) :
    mean (fun j => ((xr (j 0) (j 1) : ℝ) : EReal)) lab lb i d
      = ((if 0 < dcnt lab lb i then
            ((∑ j : Fin 16384, if (lb (ix1 j)).toInt = (lb (ix1 i)).toInt then xr j d else 0)
              - (∑ j : Fin 16384, if (seg lab lb j).toInt = (seg lab lb i).toInt then xr j d else 0))
              * (1 / ((dcnt lab lb i : ℤ) : ℝ))
          else 0 : ℝ) : EReal) := by
  unfold mean
  rw [dcR_coe lab lb h i, sumB_coe, sumS_coe, bI_val lb i (h.2 i).1 (h.2 i).2, sI_val lab lb h i]
  by_cases hn : 0 < dcnt lab lb i
  · have hr : (0 : ℝ) < ((dcnt lab lb i : ℤ) : ℝ) := by exact_mod_cast hn
    have h1 : (1 : ℝ) ≤ ((dcnt lab lb i : ℤ) : ℝ) := by exact_mod_cast hn
    have h1' : (1 : EReal) ≤ (((dcnt lab lb i : ℤ) : ℝ) : EReal) := by exact_mod_cast h1
    rw [if_pos (EReal.coe_pos.mpr hr), if_pos hn, max_eq_left h1', Ideal.div_coe hr.ne', ← EReal.coe_sub,
      ← EReal.coe_mul]
  · have hr : ¬ (0 : ℝ) < ((dcnt lab lb i : ℤ) : ℝ) := by exact_mod_cast hn
    rw [if_neg (fun hc => hr (EReal.coe_pos.mp hc)), if_neg hn]
    rfl

/-! ### The identity over the reals -/

/-- A masked row sum, taken column by column against a vector, is the masked sum of the rows' products with it. -/
theorem sum_mask_mul {ι κ : Type*} [Fintype ι] [Fintype κ] (p : ι → Prop) [DecidablePred p] (f : ι → κ → ℝ)
    (w : κ → ℝ) :
    ∑ d, (∑ j, if p j then f j d else 0) * w d = ∑ j, if p j then ∑ d, f j d * w d else 0 := by
  simp_rw [Finset.sum_mul]
  rw [Finset.sum_comm]
  refine Finset.sum_congr rfl fun j _ => ?_
  split_ifs
  · rfl
  · simp

/-- The masked means of row `i` against row `q` of the second matrix: the projected rows summed over the row's batch,
    minus those summed over the row's key, times the reciprocal of the count difference where it is positive. -/
theorem sum_mean_coe (xr : Fin 16384 → Fin 2048 → ℝ) (lab lb : SL.Idx → BitVec 32) (w2 : Fin 256 → Fin 2048 → ℝ)
    (h : InRange lab lb) (i : Fin 16384) (q : Fin 256) :
    ∑ d : Fin 2048, mean (fun j => ((xr (j 0) (j 1) : ℝ) : EReal)) lab lb i d
        * (fun j : SW.Idx => ((w2 (j 0) (j 1) : ℝ) : EReal)) (ix2 q d)
      = ((((∑ j : Fin 16384, if (lb (ix1 j)).toInt = (lb (ix1 i)).toInt then ∑ d : Fin 2048, xr j d * w2 q d else 0)
          - (∑ j : Fin 16384, if (seg lab lb j).toInt = (seg lab lb i).toInt then ∑ d : Fin 2048, xr j d * w2 q d else 0))
          * (if 0 < dcnt lab lb i then 1 / ((dcnt lab lb i : ℤ) : ℝ) else 0) : ℝ) : EReal) := by
  have hs : ∀ d : Fin 2048, mean (fun j => ((xr (j 0) (j 1) : ℝ) : EReal)) lab lb i d
        * (fun j : SW.Idx => ((w2 (j 0) (j 1) : ℝ) : EReal)) (ix2 q d)
      = (((if 0 < dcnt lab lb i then
            ((∑ j : Fin 16384, if (lb (ix1 j)).toInt = (lb (ix1 i)).toInt then xr j d else 0)
              - (∑ j : Fin 16384, if (seg lab lb j).toInt = (seg lab lb i).toInt then xr j d else 0))
              * (1 / ((dcnt lab lb i : ℤ) : ℝ))
          else 0) * w2 q d : ℝ) : EReal) := by
    intro d
    rw [mean_coe xr lab lb h i d, EReal.coe_mul]
  rw [Finset.sum_congr rfl fun d _ => hs d, ← coe_sum]
  congr 1
  by_cases hn : 0 < dcnt lab lb i
  · simp only [if_pos hn]
    rw [← sum_mask_mul, ← sum_mask_mul, ← Finset.sum_sub_distrib, Finset.sum_mul]
    refine Finset.sum_congr rfl fun d _ => ?_
    ring
  · simp only [if_neg hn, zero_mul, mul_zero, Finset.sum_const_zero]

theorem Rfn_eq_mid (xr : Fin 16384 → Fin 2048 → ℝ) (lab lb : SL.Idx → BitVec 32) (w1 : Fin 256 → Fin 2048 → ℝ)
    (c1 : Fin 256 → ℝ) (w2 : Fin 256 → Fin 2048 → ℝ) (c2 : Fin 256 → ℝ) (h : InRange lab lb) :
    Rfn (fun j => ((xr (j 0) (j 1) : ℝ) : EReal)) lab lb (fun j => ((w1 (j 0) (j 1) : ℝ) : EReal))
        (fun j => ((c1 (j 0) : ℝ) : EReal)) (fun j => ((w2 (j 0) (j 1) : ℝ) : EReal)) (fun j => ((c2 (j 0) : ℝ) : EReal))
      = fun o => ((Mid xr lab lb w1 c1 w2 c2 (o 0) (o 1) : ℝ) : EReal) := by
  have key : ∀ (i : Fin 16384) (q : Fin 256),
      ((proj (fun j => ((xr (j 0) (j 1) : ℝ) : EReal)) (fun j => ((w1 (j 0) (j 1) : ℝ) : EReal)) i q + ((c1 q : ℝ) : EReal))
        + ∑ d : Fin 2048, mean (fun j => ((xr (j 0) (j 1) : ℝ) : EReal)) lab lb i d
            * (fun j : SW.Idx => ((w2 (j 0) (j 1) : ℝ) : EReal)) (ix2 q d))
        + ((c2 q : ℝ) : EReal)
      = ((Mid xr lab lb w1 c1 w2 c2 i q : ℝ) : EReal) := by
    intro i q
    rw [proj_coe, sum_mean_coe xr lab lb w2 h i q, ← EReal.coe_add, ← EReal.coe_add, ← EReal.coe_add]
    rfl
  funext o
  exact key (o 0) (o 1)

end Cert.Spec

end
-- ==== Proof.PreDecode.lean ====
/-
  What the precondition says: every float input is real, every label lies in [0, 100) and every batch in [0, 32).
-/
import proofs.«421069_j24412594110965_3_alg».proof.Pre_finite_inputs
import proofs.«421069_j24412594110965_3_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Spec

/-- The rank-0 shape has one index. -/
instance : Subsingleton Cert.Pre_finite_inputs.S_.Idx := ⟨fun _ _ => funext fun d => d.elim0⟩

/-- The single-precision pattern with all exponent bits set and no fraction bit is +∞. -/
theorem ofBits_inf : Ideal.ofBits .f32 0x7F800000#32 = (⊤ : EReal) := by
  simp [Ideal.ofBits, Ideal.ieee]

/-- An extended real whose absolute value max(x, -x) lies strictly below +∞ is a real. -/
theorem real_of_abs_lt_top (x : EReal) (hx : max x (-x) < ⊤) : ∃ r : ℝ, x = (r : EReal) := by
  induction x using EReal.rec with
  | bot => simp at hx
  | coe r => exact ⟨r, rfl⟩
  | top => simp at hx

/-- One element of the comparison |x| < +∞ being 1 says the element is a real. -/
theorem real_of_cmp (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [ofBits_inf] at h'
  simp only [Ideal.cmp, StableHlo.Predicate.ofBool_eq_one_iff, decide_eq_true_eq] at h'
  exact real_of_abs_lt_top x h'

/-- All elements of |x| < +∞ being 1, every entry of x is a real. -/
theorem fin_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (init : IVec Cert.Pre_finite_inputs.S_ 1)
    (e : Host.reduce IntOp.andi
        (cmpf .olt (Host.absf x) (broadcastInDim S ![] hb (constant (F := Ideal) Cert.Pre_finite_inputs.S_ .f32 0x7F800000#32)))
        init hr h0 ix0 = 1#1) :
    Fin' (S := S) x := fun i =>
  real_of_cmp (x i) (Host.reduce_andi_all _ init hr h0 ix0 e i)

/-- All elements of (lo ≤ a) ∧ (a < hi), read signed, being 1, every word of a lies in [lo, hi). -/
theorem range_of_all (a : IVec Cert.Pre_finite_inputs.S16384 32) (lo hi : BitVec 32)
    (hb : Cert.Pre_finite_inputs.S_.BroadcastsInDim Cert.Pre_finite_inputs.S16384 (![] : Fin 0 → Fin Cert.Pre_finite_inputs.S16384.rank))
    (hr : Cert.Pre_finite_inputs.S16384.ReducesTo [0] Cert.Pre_finite_inputs.S_) (h0 : 0 < Cert.Pre_finite_inputs.S_.numel)
    (init : IVec Cert.Pre_finite_inputs.S_ 1)
    (e : Host.reduce IntOp.andi
        (andi (cmpi .sge a (broadcastInDim Cert.Pre_finite_inputs.S16384 ![] hb (constantI Cert.Pre_finite_inputs.S_ 32 lo)))
              (cmpi .slt a (broadcastInDim Cert.Pre_finite_inputs.S16384 ![] hb (constantI Cert.Pre_finite_inputs.S_ 32 hi))))
        init hr h0 ix0 = 1#1) (j : Fin 16384) :
    lo.toInt ≤ (a (ix1 j)).toInt ∧ (a (ix1 j)).toInt < hi.toInt := by
  have hj := Host.reduce_andi_all _ init hr h0 ix0 e (ix1 j)
  obtain ⟨h1, h2⟩ := IntOp.andi_eq_one.1 hj
  exact ⟨IntOp.cmpi_sge.1 h1, IntOp.cmpi_slt.1 h2⟩

theorem decode [Cert.Pre_finite_inputs.Facts]
    (a0 : FVec Ideal Cert.Pre_finite_inputs.S16384x2048 .f32) (a1 a2 : IVec Cert.Pre_finite_inputs.S16384 32)
    (a3 : FVec Ideal Cert.Pre_finite_inputs.S256x2048 .f32) (a4 : FVec Ideal Cert.Pre_finite_inputs.S256 .f32)
    (a5 : FVec Ideal Cert.Pre_finite_inputs.S256x2048 .f32) (a6 : FVec Ideal Cert.Pre_finite_inputs.S256 .f32)
    (h : Cert.Pre_finite_inputs.fn (F := Ideal) a0 a1 a2 a3 a4 a5 a6 = fun _ => 1#1) :
    Fin' (S := SX) a0 ∧ Fin' (S := SW) a3 ∧ Fin' (S := SB) a4 ∧ Fin' (S := SW) a5 ∧ Fin' (S := SB) a6 ∧ InRange a1 a2 := by
  have h0 := congrFun h ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  refine ⟨fin_of_all a0 _ _ _ _ e1, fin_of_all a3 _ _ _ _ e2, fin_of_all a4 _ _ _ _ e3, fin_of_all a5 _ _ _ _ e4,
    fin_of_all a6 _ _ _ _ e5, fun j => ?_, fun j => ?_⟩
  · exact range_of_all a1 0#32 100#32 _ _ _ _ e6 j
  · exact range_of_all a2 0#32 32#32 _ _ _ _ e7 j

end Cert.PreDecode

end
-- ==== Proof.SpecReal.lean ====
/-
  An array of extended reals all of whose entries are real is the coercion of a real array, by choice:
  rank 2 as a function of two coordinates, rank 1 as a function of one.
-/
import proofs.«421069_j24412594110965_3_alg».proof.Proof.Spec

noncomputable section

namespace Cert.Spec

open Idealize.ShloMosaic Idealize.ShloMosaic.ValueIdx

theorem Fin'.exists2 {a b : ℕ} {v : (⟨2, ![a, b]⟩ : Shape).Idx → EReal} (h : Fin' v) :
    ∃ r : Fin a → Fin b → ℝ, v = fun j => ((r (j 0) (j 1) : ℝ) : EReal) := by
  choose f hf using h
  refine ⟨fun p q => f (ix2 p q), funext fun j => ?_⟩
  have : j = ix2 (j 0) (j 1) := eq_ix2 j
  rw [hf j]; congr 2

theorem Fin'.exists1 {a : ℕ} {v : (⟨1, ![a]⟩ : Shape).Idx → EReal} (h : Fin' v) :
    ∃ r : Fin a → ℝ, v = fun j => ((r (j 0) : ℝ) : EReal) := by
  choose f hf using h
  refine ⟨fun p => f (ix1 p), funext fun j => ?_⟩
  have : j = ix1 (j 0) := eq_ix1 j
  rw [hf j]; congr 2

end Cert.Spec

end
-- ==== Proof.lean ====
/-
  The certificate's claims.  Both programs compute, for every row `i` and output column `q`,
  `(x W1ᵀ + b1) + (mean of the other-label rows of the row's batch) W2ᵀ + b2`, the mean taken as zero when there is no
  such row.  The plain program sums rows of `x` by batch and by (batch, label) key, subtracts, divides by the count
  difference and then multiplies by `W2ᵀ`; the tiled program multiplies by `W2ᵀ` first, accumulates the projected rows by
  key over two halves of sixteen tiles, obtains the batch totals by adding each batch's hundred consecutive keys, and
  multiplies by the reciprocal of an integer count.  Over real inputs, with every label in [0, 100) and every batch in
  [0, 32) — so that a key determines its batch and label — the two are the same real number (`Spec.Mid`): sums commute
  with the projection, and a key's batch total is the sum over that batch's keys.

  The frames of the two kernel programs are the generated ones; the plain program's frame is its generated run with
  the result dropped; the idealization rewrote nothing, so `preserves` is `True`.
-/
import proofs.«421069_j24412594110965_3_alg».proof.Defs
import proofs.«421069_j24412594110965_3_alg».proof.Proof.Gen.Kernel
import proofs.«421069_j24412594110965_3_alg».proof.Proof.Gen.Kernel.Skeleton
import proofs.«421069_j24412594110965_3_alg».proof.Proof.Gen.Kernel.Launch
import proofs.«421069_j24412594110965_3_alg».proof.Proof.Gen.Kernel.Points
import proofs.«421069_j24412594110965_3_alg».proof.Proof.Gen.Kernel.Frame
import proofs.«421069_j24412594110965_3_alg».proof.Proof.Gen.KernelIdeal
import proofs.«421069_j24412594110965_3_alg».proof.Proof.Gen.KernelIdeal.Skeleton
import proofs.«421069_j24412594110965_3_alg».proof.Proof.Gen.KernelIdeal.Launch
import proofs.«421069_j24412594110965_3_alg».proof.Proof.Gen.KernelIdeal.Points
import proofs.«421069_j24412594110965_3_alg».proof.Proof.Gen.KernelIdeal.Frame
import proofs.«421069_j24412594110965_3_alg».proof.Proof.Gen.ReferenceIdeal
import proofs.«421069_j24412594110965_3_alg».proof.Proof.Gen.Pre_finite_inputs
import proofs.«421069_j24412594110965_3_alg».proof.Proof.RunResult
import proofs.«421069_j24412594110965_3_alg».proof.Proof.KernelValue
import proofs.«421069_j24412594110965_3_alg».proof.Proof.RefRead
import proofs.«421069_j24412594110965_3_alg».proof.Proof.RefValue
import proofs.«421069_j24412594110965_3_alg».proof.Proof.BridgeK
import proofs.«421069_j24412594110965_3_alg».proof.Proof.BridgeR
import proofs.«421069_j24412594110965_3_alg».proof.Proof.PreDecode
import proofs.«421069_j24412594110965_3_alg».proof.Proof.SpecReal
import Idealize.ShloMosaic.Adequacy
import Idealize.ShloMosaic.Init

noncomputable section

namespace Cert.Proof

open Idealize.ShloMosaic Idealize.ShloMosaic.TcCoe Idealize.SL.Sem

/-- The plain program's closed form equals the tiled program's, over finite inputs in range: both are the common
    real value. -/
theorem closed_forms_agree {x : Spec.SX.Idx → EReal} {lab lb : Spec.SL.Idx → BitVec 32} {W1 : Spec.SW.Idx → EReal}
    {b1 : Spec.SB.Idx → EReal} {W2 : Spec.SW.Idx → EReal} {b2 : Spec.SB.Idx → EReal}
    (hx : Spec.Fin' x) (hW1 : Spec.Fin' W1) (hb1 : Spec.Fin' b1) (hW2 : Spec.Fin' W2) (hb2 : Spec.Fin' b2)
    (hr : Spec.InRange lab lb) :
    Spec.Rfn x lab lb W1 b1 W2 b2 = Spec.Kfn x lab lb W1 b1 W2 b2 := by
  obtain ⟨xr, rfl⟩ := hx.exists2
  obtain ⟨w1, rfl⟩ := hW1.exists2
  obtain ⟨c1, rfl⟩ := hb1.exists1
  obtain ⟨w2, rfl⟩ := hW2.exists2
  obtain ⟨c2, rfl⟩ := hb2.exists1
  rw [Spec.Rfn_eq_mid xr lab lb w1 c1 w2 c2 hr, Spec.Kfn_eq_mid xr lab lb w1 c1 w2 c2 hr]

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs run; the tiled program's result is its closed form of the launch arrays (the run's last boundary,
    read through the two regions and the host stretches), the plain program's is its own closed form of arrays that
    agree with them, and the two closed forms agree under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c : Dev Cert.KernelIdeal.nD =>
    @Cert.PreDecode.decode Cert.Pre_finite_inputs.Gen.facts _ _ _ _ _ _ _ (hpre c)
  refine ⟨fun c => Spec.Kfn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelValue.kernel_value m ρ c (hdec c).2.2.2.2.2), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨hx, hW1, hb1, hW2, hb2, hr⟩ := hdec c
    rw [Cert.ReferenceIdeal.Read.val_main_v66_eq, (hagree c).1, (hagree c).2.1, (hagree c).2.2.1, (hagree c).2.2.2.1,
      (hagree c).2.2.2.2.1, (hagree c).2.2.2.2.2.1, (hagree c).2.2.2.2.2.2]
    exact (Cert.RefValue.ref_value _ _ _ _ _ _ _ hr).trans (closed_forms_agree hx hW1 hb1 hW2 hb2 hr)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
